-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S64x16 : Shape := ⟨2, ![64, 16]⟩
abbrev S128x128 : Shape := ⟨2, ![128, 128]⟩
abbrev S128 : Shape := ⟨1, ![128]⟩
abbrev S144x2 : Shape := ⟨2, ![144, 2]⟩
abbrev S2 : Shape := ⟨1, ![2]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S144x2 : S_.BroadcastsInDim S144x2 (![] : Fin 0 → Fin S144x2.rank)
  reducesTo_S144x2_S_d0_1 : S144x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S144x2 .f32) (main_v50 : FVec F S144x2 .f32) : IVec S_ 1 :=
  let main_v51 : IVec S144x2 1 := cmpf .olt main_v49 main_v50
  let main_c_19 : IVec S_ 1 := constantI S_ 1 1#1
  let main_v52 : IVec S_ 1 := (fun x v => Host.reduce IntOp.andi x v reducesTo_S144x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S144x2 .f32) (main_arg11 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S144x2 .f32 := Host.absf main_arg10
  let main_cst_18 : FVec F S_ .f32 := constant S_ .f32 0x7F800000#32
  let main_v50 : FVec F S144x2 .f32 := broadcastInDim S144x2 ![] bcast_S_S144x2 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S144x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S64x16 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S144x2 .f32) (main_arg11 : FVec F S2 .f32) (main_arg12 : IVec S2x800000 32) (main_arg13 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S64x16 : Shape := ⟨2, ![64, 16]⟩
abbrev S128x128 : Shape := ⟨2, ![128, 128]⟩
abbrev S128 : Shape := ⟨1, ![128]⟩
abbrev S144x2 : Shape := ⟨2, ![144, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1x2 : Shape := ⟨2, ![1, 2]⟩
abbrev S64x2 : Shape := ⟨2, ![64, 2]⟩
abbrev S64x128 : Shape := ⟨2, ![64, 128]⟩
abbrev S64x1 : Shape := ⟨2, ![64, 1]⟩
abbrev S5000x64 : Shape := ⟨2, ![5000, 64]⟩
abbrev S128x2 : Shape := ⟨2, ![128, 2]⟩
abbrev S16x2 : Shape := ⟨2, ![16, 2]⟩

abbrev nBuf : Space → Nat
  | .hbm => 94
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S64x16, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S144x2, .f32⟩
  | .hbm, ⟨11, _⟩ => ⟨S2, .f32⟩
  | .hbm, ⟨12, _⟩ => ⟨S2x800000, .i32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S50000x1, .i32⟩
  | .hbm, ⟨91, _⟩ => ⟨S1x128, .f32⟩
  | .hbm, ⟨92, _⟩ => ⟨S1x2, .f32⟩
  | .hbm, ⟨93, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x1, .i32⟩
  | .local _ .vmem, ⟨45, _⟩ => ⟨S5000x1, .i32⟩
  | .local _ .vmem, ⟨46, _⟩ => ⟨S64x16, .f32⟩
  | .local _ .vmem, ⟨47, _⟩ => ⟨S144x2, .f32⟩
  | .local _ .vmem, ⟨48, _⟩ => ⟨S1x2, .f32⟩
  | .local _ .vmem, ⟨49, _⟩ => ⟨S64x2, .f32⟩
  | .local _ .vmem, ⟨50, _⟩ => ⟨S64x128, .f32⟩
  | .local _ .vmem, ⟨51, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_scratch0 : Ref sig .tc := ⟨.vmem, 50, rfl⟩
abbrev cc4_scratch1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem4_1 : DmaSem sig := 45
abbrev cc4_sem5_0 : DmaSem sig := 46
abbrev cc4_sem6_0 : DmaSem sig := 47
abbrev cc4_sem7_0 : DmaSem sig := 48
abbrev cc4_sem8_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v38 : BitVec 1 := Scalar.cmpi .eq arg0 c9_i32
  let v39 : BitVec 32 := Scalar.extui v38
  let c0_i32_20 : BitVec 32 := 0#32
  let v40 : BitVec 1 := Scalar.cmpi .ne v39 c0_i32_20
  v40

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x1 .i32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S64x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S144x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  broadcasts_S5000x1_S5000x64 : S5000x1.Broadcasts S5000x64
  natLt_1_32 : 1 < 32
  broadcasts_S64x1_S64x128 : S64x1.Broadcasts S64x128
  inb_S144x2_S128x2_0_0 : ∀ a, (![0, 0] : Fin 2 → Nat) a + S128x2.size a ≤ S144x2.size a
  h_S128x2 : 0 < S128x2.numel
  inb_S144x2_S16x2_128_0 : ∀ a, (![128, 0] : Fin 2 → Nat) a + S16x2.size a ≤ S144x2.size a
  h_S16x2 : 0 < S16x2.numel
  inb_S64x16_S64x16_0_0 : ∀ a, (![0, 0] : Fin 2 → Nat) a + S64x16.size a ≤ S64x16.size a
  h_S64x16 : 0 < S64x16.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x2_S64x2_1_0_0_1_n_n_wf : DotDims.WF S64x128 S128x2 S64x2 [1] [0] [0] [1] [] []
  dot_S64x16_S16x2_S64x2_1_0_0_1_n_n_wf : DotDims.WF S64x16 S16x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S50000x1.size a
  hwx4_4 : ∀ i : grid4.Coords, EltTy.bits .i32 = 32 ∨ (Rect.block (s := S50000x1) S5000x1.size (cc4_transform_4 i) (hinb4_4 i)).WholeWords (EltTy.packing .i32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x16.size a ≤ S64x16.size a
  hwx4_5 : ∀ i : grid4.Coords, EltTy.bits .f32 = 32 ∨ (Rect.block (s := S64x16) S64x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S144x2.size a ≤ S144x2.size a
  hwx4_6 : ∀ i : grid4.Coords, EltTy.bits .f32 = 32 ∨ (Rect.block (s := S144x2) S144x2.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x2.size a ≤ S1x2.size a
  hwx4_7 : ∀ i : grid4.Coords, EltTy.bits .f32 = 32 ∨ (Rect.block (s := S1x2) S1x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x2.size a ≤ S64x2.size a
  hwx4_8 : ∀ i : grid4.Coords, EltTy.bits .f32 = 32 ∨ (Rect.block (s := S64x2) S64x2.size (cc4_transform_8 i) (hinb4_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf
def dot_S64x16_S16x2_S64x2_1_0_0_1_n_n : DotDims S64x16 S16x2 S64x2 where
  lhsContracting := [1]
  rhsContracting := [0]
  lhsNonContracting := [0]
  rhsNonContracting := [1]
  lhsBatch := []
  rhsBatch := []
  wf := dot_S64x16_S16x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S5000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_arg1) S64x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg10) S144x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v62) S1x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v63) S64x2.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S64x16 : Shape := ⟨2, ![64, 16]⟩
abbrev S128x128 : Shape := ⟨2, ![128, 128]⟩
abbrev S128 : Shape := ⟨1, ![128]⟩
abbrev S144x2 : Shape := ⟨2, ![144, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x144 : Shape := ⟨2, ![64, 144]⟩
abbrev S64x2 : Shape := ⟨2, ![64, 2]⟩
abbrev S1x2 : Shape := ⟨2, ![1, 2]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S64x16, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S144x2, .f32⟩
  | 11 => ⟨S2, .f32⟩
  | 12 => ⟨S2x800000, .i32⟩
  | 13 => ⟨S50000, .i32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S50000, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x1, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x1, .f32⟩
  | 95 => ⟨S50000x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x1, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x1, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S800000x1, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S50000x1, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S64x128, .f32⟩
  | 29 => ⟨S50000x1, .i32⟩
  | 30 => ⟨S64x128, .f32⟩
  | 31 => ⟨S_, .f32⟩
  | 32 => ⟨S50000, .f32⟩
  | 33 => ⟨S_, .f32⟩
  | 34 => ⟨S64, .f32⟩
  | 35 => ⟨S50000x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x128, .f32⟩
  | 42 => ⟨S64x128, .f32⟩
  | 43 => ⟨S64x144, .f32⟩
  | 44 => ⟨S64x2, .f32⟩
  | 45 => ⟨S1x2, .f32⟩
  | 46 => ⟨S64x2, .f32⟩
  | 47 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call0_cst : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call1_cst : Ref sig .tc := ⟨.hbm, 101, rfl⟩
abbrev main_call1_v0 : Ref sig .tc := ⟨.hbm, 102, rfl⟩
abbrev main_v71 : Ref sig .tc := ⟨.hbm, 103, rfl⟩
abbrev main_v72 : Ref sig .tc := ⟨.hbm, 104, rfl⟩
abbrev main_c_12 : Ref sig .tc := ⟨.hbm, 105, rfl⟩
abbrev main_v73 : Ref sig .tc := ⟨.hbm, 106, rfl⟩
abbrev main_v74 : Ref sig .tc := ⟨.hbm, 107, rfl⟩
abbrev main_c_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call2_cst : Ref sig .tc := ⟨.hbm, 128, rfl⟩
abbrev main_call2_v0 : Ref sig .tc := ⟨.hbm, 129, rfl⟩
abbrev main_v93 : Ref sig .tc := ⟨.hbm, 130, rfl⟩
abbrev main_v94 : Ref sig .tc := ⟨.hbm, 131, rfl⟩
abbrev main_c_15 : Ref sig .tc := ⟨.hbm, 132, rfl⟩
abbrev main_v95 : Ref sig .tc := ⟨.hbm, 133, rfl⟩
abbrev main_v96 : Ref sig .tc := ⟨.hbm, 134, rfl⟩
abbrev main_c_16 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_17 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_18 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_19 : Ref sig .tc := ⟨.hbm, 159, rfl⟩
abbrev main_v118 : Ref sig .tc := ⟨.hbm, 160, rfl⟩
abbrev main_cst_20 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_21 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x16_S64x144_d1 : Shape.Concatenates [S64x128, S64x16] S64x144 1
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x144_S144x2_S64x2_1_0_0_1_n_n_wf : DotDims.WF S64x144 S144x2 S64x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x144_S144x2_S64x2_1_0_0_1_n_n : DotDims S64x144 S144x2 S64x2 where
  lhsContracting := [1]
  rhsContracting := [0]
  lhsNonContracting := [0]
  rhsNonContracting := [1]
  lhsBatch := []
  rhsBatch := []
  wf := dot_S64x144_S144x2_S64x2_1_0_0_1_n_n_wf

class Facts : Prop extends Facts₀ where

variable [Facts]
-- ==== Proof.KI.Reg0.lean ====
/- Region 0 of the program: the first layer's transform. At each of the ten row tiles the body multiplies the
   tile of the node features (5000 x 128) by the whole weight matrix (128 x 128) and scales row r of the product
   by the tile's entry r of the degree normaliser (5000 x 1); the result tile is stored whole. Stated at any
   contents V of the buffers at the region's entry: what each window's block is, what the body leaves in the
   output tile as one stored piece, the body's triple, the proof data, and the body obligation at a generic
   point. The three inputs are read-only, so their staging buffers hold their blocks at every point whether
   fetched there or not (the weights are fetched once). -/
import proofs.«427340_j652835029230_2_alg».proof.Proof.Gen.KernelIdeal.Launch
import proofs.«427340_j652835029230_2_alg».proof.Proof.Gen.KernelIdeal.Skeleton
import proofs.«427340_j652835029230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every tile, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rD0 : Rect S5000x1 := Rect.unit (s := S5000x1) ![0, 0] S5000x1.size inb_S5000x1_S5000x1_0_0

/-- The output tile after the body, from the three input blocks: its one store as a piece. -/
def out0_3 (x0 : Vec F S5000x128 .f32) (x1 : Vec F S128x128 .f32) (x2 : Vec F S5000x1 .f32) : Vec F S5000x128 .f32 :=
  View.canon [⟨rX0, k0_pay1 (View.ld x0 rX0) (View.ld x1 rW0) (View.ld x2 rD0)⟩]

/-- The one store covers the output tile. -/
theorem cover0_3 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

set_option maxHeartbeats 1000000 in
/-- The body on whole staging memrefs: the inputs at contents x0, x1, x2 and the output at anything; it runs to the
    continuation with the inputs as they were and the output at `out0_3` of them. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this region on core c: the arrays as the region finds them; after the body at tile t each
    input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any tile: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of the program: the first layer's combine fused with the second layer's transform. At each of the ten
   row tiles the body forms h = max(dis * (agg + ys) + b, 0) from the tiles of the neighbour sum (5000 x 128), the
   scaled features (5000 x 128), the degree normaliser (5000 x 1) and the bias row (1 x 128), multiplies h by the
   whole next weight matrix (128 x 128), and scales row r of the product by the normaliser's entry r; the result
   tile is stored whole. Stated at any contents V of the buffers at the region's entry: each window's block, what
   the body leaves in the output tile as one stored piece, the body's triple, the proof data, and the body
   obligation at a generic point. The five inputs are read-only, so their staging buffers hold their blocks at
   every point whether fetched there or not (the bias and the weights are fetched once). -/
import proofs.«427340_j652835029230_2_alg».proof.Proof.Gen.KernelIdeal.Launch
import proofs.«427340_j652835029230_2_alg».proof.Proof.Gen.KernelIdeal.Skeleton
import proofs.«427340_j652835029230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rD1 : Rect S5000x1 := Rect.unit (s := S5000x1) ![0, 0] S5000x1.size inb_S5000x1_S5000x1_0_0
abbrev rB1 : Rect S1x128 := Rect.unit (s := S1x128) ![0, 0] S1x128.size inb_S1x128_S1x128_0_0

/-- The output tile after the body, from the five input blocks (neighbour sum, scaled features, normaliser, bias,
    weights): its one store as a piece. -/
def out1_5 (x0 : Vec F S5000x128 .f32) (x1 : Vec F S5000x128 .f32) (x2 : Vec F S5000x1 .f32) (x3 : Vec F S1x128 .f32) (x4 : Vec F S128x128 .f32) :
    Vec F S5000x128 .f32 :=
  View.canon [⟨rX1, k1_pay1 (View.ld x2 rD1) (View.ld x0 rX1) (View.ld x1 rX1) (View.ld x3 rB1) (View.ld x4 rW1)⟩]

/-- The one store covers the output tile. -/
theorem cover1_5 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

set_option maxHeartbeats 1000000 in
/-- The body on whole staging memrefs: the inputs at contents x0 … x4 and the output at anything; it runs to the
    continuation with the inputs as they were and the output at `out1_5` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__combine_matmul_kernel i arg1 harg1 arg2 harg2 arg3 harg3 arg4 harg4 arg5 harg5 arg6 harg6) K := by
  simp only [cc1__combine_matmul_kernel_eq_skeleton]; unfold cc1__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this region on core c: the arrays as the region finds them; after the body at tile t each
    input's buffer at its block and the output's at `out1_5` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at tile t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg4a.lean ====
/- Region 4 of the program, the frame half, its data: the last layer's combine, pooled by graph, and the head. At each
   of the ten row tiles the body adds the tile's neighbour sums to its scaled features, scales by the normaliser, adds
   the bias, and accumulates the one-hot (row → graph) transpose-product of the result into a 64 x 128 sum kept in a
   scratch buffer, and the one-hot column sums into a 64 x 1 count kept in a second one; both are zeroed at the first
   tile. Only at the last tile is the output written: the sums divided by the counts (at least one), times the first
   128 rows of the head weights, plus the graph conditioning times the last 16 rows, plus the head bias. Stated at
   any contents V of the buffers at the region's entry: the blocks, the accumulators tile by tile, the head, the
   invariant that carries the accumulators, and the proof data. -/
import proofs.«427340_j652835029230_2_alg».proof.Proof.Gen.KernelIdeal.Launch
import proofs.«427340_j652835029230_2_alg».proof.Proof.Gen.KernelIdeal.Skeleton
import proofs.«427340_j652835029230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rectangles the body reads and writes through: whole buffers, and the two row ranges of the head weights. -/
abbrev rX4 : Rect S5000x128 := Rect.unit (s := S5000x128) ![0, 0] S5000x128.size inb_S5000x128_S5000x128_0_0
abbrev rD4 : Rect S5000x1 := Rect.unit (s := S5000x1) ![0, 0] S5000x1.size inb_S5000x1_S5000x1_0_0
abbrev rB4 : Rect S1x128 := Rect.unit (s := S1x128) ![0, 0] S1x128.size inb_S1x128_S1x128_0_0
abbrev rG4 : Rect S64x16 := Rect.unit (s := S64x16) ![0, 0] S64x16.size inb_S64x16_S64x16_0_0
abbrev rWa4 : Rect S144x2 := Rect.unit (s := S144x2) ![0, 0] S128x2.size inb_S144x2_S128x2_0_0
abbrev rWb4 : Rect S144x2 := Rect.unit (s := S144x2) ![128, 0] S16x2.size inb_S144x2_S16x2_128_0
abbrev rL4 : Rect S1x2 := Rect.unit (s := S1x2) ![0, 0] S1x2.size inb_S1x2_S1x2_0_0
abbrev rO4 : Rect S64x2 := Rect.unit (s := S64x2) ![0, 0] S64x2.size inb_S64x2_S64x2_0_0
abbrev rS4 : Rect S64x128 := Rect.unit (s := S64x128) ![0, 0] S64x128.size inb_S64x128_S64x128_0_0
abbrev rC4 : Rect S64x1 := Rect.unit (s := S64x1) ![0, 0] S64x1.size inb_S64x1_S64x1_0_0

/-- The two accumulators zeroed: what the first tile's fills leave. -/
def zero4 : Vec F S64x128 .f32 × Vec F S64x1 .f32 :=
  (View.canon [⟨rS4, k4_pay3 (F := F)⟩], View.canon [⟨rC4, k4_pay4 (F := F)⟩])

/-- One tile's accumulation: from the tile's blocks (neighbour sums x0, scaled features x1, normaliser x2, bias x3,
    graph ids x4) and the accumulators a before it, the accumulators after it. -/
def step4 (x0 x1 : Vec F S5000x128 .f32) (x2 : Vec F S5000x1 .f32) (x3 : Vec F S1x128 .f32) (x4 : Vec F S5000x1 .i32)
    (a : Vec F S64x128 .f32 × Vec F S64x1 .f32) : Vec F S64x128 .f32 × Vec F S64x1 .f32 :=
  (View.canon [⟨rS4, k4_pay6 (View.ld x2 rD4) (View.ld x0 rX4) (View.ld x1 rX4) (View.ld x3 rB4) (View.ld x4 rD4) (View.ld a.1 rS4)⟩],
   View.canon [⟨rC4, k4_pay1 (k4_pay7 (View.ld x4 rD4) (View.ld a.2 rC4))⟩])

/-- The head, from the final accumulators, the conditioning x5, the head weights x6 and the head bias x7: the output's
    one store as a piece. -/
def out4_8 (a : Vec F S64x128 .f32 × Vec F S64x1 .f32) (x5 : Vec F S64x16 .f32) (x6 : Vec F S144x2 .f32) (x7 : Vec F S1x2 .f32) :
    Vec F S64x2 .f32 :=
  View.canon [⟨rO4, k4_pay2 (View.ld a.1 rS4) (View.ld a.2 rC4) (View.ld x6 rWa4) (View.ld x6 rWb4) (View.ld x5 rG4) (View.ld x7 rL4)⟩]

/-- The two scratch buffers' contents after the first n tiles; before any, the zero fills (the first tile makes them
    itself, whatever it finds). -/
def acc4 (c : Dev nD) : ℕ → Vec F S64x128 .f32 × Vec F S64x1 .f32
  | 0 => zero4
  | n + 1 => if hn : n < cfg4.N then
      step4 (iblk4 V c 0 ⟨n, hn⟩) (iblk4 V c 1 ⟨n, hn⟩) (iblk4 V c 2 ⟨n, hn⟩) (iblk4 V c 3 ⟨n, hn⟩) (iblk4 V c 4 ⟨n, hn⟩) (acc4 c n)
    else acc4 c n

theorem acc4_zero (c : Dev nD) : acc4 V c 0 = zero4 := rfl

theorem acc4_succ (c : Dev nD) (n : ℕ) (hn : n < cfg4.N) :
    acc4 V c (n + 1) = step4 (iblk4 V c 0 ⟨n, hn⟩) (iblk4 V c 1 ⟨n, hn⟩) (iblk4 V c 2 ⟨n, hn⟩) (iblk4 V c 3 ⟨n, hn⟩) (iblk4 V c 4 ⟨n, hn⟩)
      (acc4 V c n) := by
  rw [acc4, dif_pos hn]

/-- A load, through a rectangle, of what one store through that rectangle left reads the stored payload. -/
theorem ld_canon_one {s : Shape} {e : EltTy} (r : Rect s) (w : r.shape.Idx → Elt F e) : View.ld (View.canon [⟨r, w⟩]) r = w :=
  funext fun x => View.canon_cons_emb r w [] x

/-- A load of a zeroed accumulator reads the fill. -/
theorem ld_zero4_1 : View.ld (zero4 (F := F)).1 rS4 = k4_pay3 (F := F) :=
  funext fun x => View.canon_cons_emb rS4 _ [] x
theorem ld_zero4_2 : View.ld (zero4 (F := F)).2 rC4 = k4_pay4 (F := F) :=
  funext fun x => View.canon_cons_emb rC4 _ [] x

/-- The region invariant before position n: before the first tile the scoped rest and the generator register as the
    launch hands them; afterwards the two scratch buffers at the accumulators after n tiles, the rest of the scoped
    buffers unopened, and the generator register. -/
def Phi4 (c : Dev nD) : ℕ → sProp 𝕄
  | 0 => Pipeline.ΦA spec4 c
  | n + 1 => iprop(iprop((owns (c : Thread nD τ) (Memref.whole cc4_scratch0) fullShare (acc4 V c (n + 1)).1
        ∗ owns (c : Thread nD τ) (Memref.whole cc4_scratch1) fullShare (acc4 V c (n + 1)).2)
        ∗ Pipeline.scopedRestBut (Ix := Unit) (Name := ℕ) (U := UR sig nD τ) (Lvl := ℕ) (Val := Elt F) spec4 c [cc4_scratch0, cc4_scratch1])
      ∗ (∃ r, prngReg c r))

/-- The proof data of this region on core c: the arrays as the region finds them; after the body at tile t each
    input's buffer at its block; the output's at the head of the accumulators after all ten tiles (the same at every
    tile: it is stored, and written back, at the last only); the invariant carries the accumulators; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (acc4 V c cfg4.N) (iblk4 V c 5 t4_9) (iblk4 V c 6 t4_9) (iblk4 V c 7 t4_9)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) :
    (dat4 V c).after 8 t = out4_8 (acc4 V c cfg4.N) (iblk4 V c 5 t4_9) (iblk4 V c 6 t4_9) (iblk4 V c 7 t4_9) := by dsimp only [dat4]

example (c : Dev nD) (w : Fin cfg4.W) : (dat4 V c).q w = fullShare := rfl
example (c : Dev nD) (t : Fin (cfg4.N + 1)) : (dat4 V c).owed t = 0 := rfl

end Cert.KernelIdeal.Hand

end
-- ==== Proof.KI.Reg4b.lean ====
/- Region 4 of the program, the frame half, the body's triples: the two branch conditions in closed form over the
   grid, and the body on whole memrefs at the first tile (the accumulators zeroed, then one accumulation), at a
   middle tile (one accumulation over what the tile before left) and at the last tile (one accumulation, then the
   head stored into the output). -/
import proofs.«427340_j652835029230_2_alg».proof.Proof.Gen.KernelIdeal.Launch
import proofs.«427340_j652835029230_2_alg».proof.Proof.Gen.KernelIdeal.Skeleton
import proofs.«427340_j652835029230_2_alg».proof.Proof.Gen.KernelIdeal.Points
import proofs.«427340_j652835029230_2_alg».proof.Proof.KI.Reg4a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch condition (is this the first tile?), from the grid coordinates. -/
abbrev cond4_0 (i : grid4.Coords) : Prop :=
  (Scalar.cmpi .ne (Scalar.extui (Scalar.cmpi .eq (BitVec.ofNat 32 (i 0).val) 0#32)) 0#32) = 1#1
/-- It holds at tile 0 only. -/
theorem hcond4_0 : ∀ t : Fin cfg4.N, cond4_0 (grid4.coords t) ↔ t.val = 0 :=
  (by decide +kernel : ∀ t : Fin grid4.N, cond4_0 (grid4.coords t) ↔ t.val = 0)
/-- The body's second branch condition (is this the last tile?). -/
abbrev cond4_1 (i : grid4.Coords) : Prop := k4_cond2 i = 1#1
/-- It holds at tile 9 only. -/
theorem hcond4_1 : ∀ t : Fin cfg4.N, cond4_1 (grid4.coords t) ↔ t.val = 9 :=
  (by decide +kernel : ∀ t : Fin grid4.N, cond4_1 (grid4.coords t) ↔ t.val = 9)

/-- One whole-buffer store covers an accumulator, and the output. -/
theorem coverS4 (p0 : Vec F S64x128 .f32) (y : S64x128.Idx) :
    ∃ pc ∈ ([⟨rS4, p0⟩] : List (View.Piece (Elt F) S64x128 .f32)), y ∈ pc.1.set :=
  View.cover_of_tiled [⟨rS4, p0⟩] S64x128.size (by rfl) y
theorem coverC4 (p0 : Vec F S64x1 .f32) (y : S64x1.Idx) :
    ∃ pc ∈ ([⟨rC4, p0⟩] : List (View.Piece (Elt F) S64x1 .f32)), y ∈ pc.1.set :=
  View.cover_of_tiled [⟨rC4, p0⟩] S64x1.size (by rfl) y
theorem coverO4 (p0 : Vec F S64x2 .f32) (y : S64x2.Idx) :
    ∃ pc ∈ ([⟨rO4, p0⟩] : List (View.Piece (Elt F) S64x2 .f32)), y ∈ pc.1.set :=
  View.cover_of_tiled [⟨rO4, p0⟩] S64x2.size (by rfl) y

/-- Every index lies in the whole-buffer rectangle of an accumulator. -/
theorem memS4 (y : S64x128.Idx) : y ∈ (rS4).set := by
  obtain ⟨pc, hm, hy⟩ := View.cover_of_tiled (Val := fun _ => Unit) (e := .f32) [⟨rS4, fun _ => ()⟩] S64x128.size (by rfl) y
  rw [List.mem_singleton] at hm; subst hm; exact hy
theorem memC4 (y : S64x1.Idx) : y ∈ (rC4).set := by
  obtain ⟨pc, hm, hy⟩ := View.cover_of_tiled (Val := fun _ => Unit) (e := .f32) [⟨rC4, fun _ => ()⟩] S64x1.size (by rfl) y
  rw [List.mem_singleton] at hm; subst hm; exact hy

/-- A buffer whose last store went through a rectangle holding every index reads that store's payload alone,
    whatever was stored before. -/
theorem read_writes_last_whole {sig' : RefSig} {κ : Kind} {sp : Space} {s : Shape} {e : EltTy} (v : View sig' κ sp s e) (f : v.ty.Contents (Elt F))
    (r : Rect s) (w : r.shape.Idx → Elt F e) (L : List (View.Piece (Elt F) s e)) (h : ∀ y, y ∈ r.set) :
    v.read (Elt F) (v.writes (Elt F) f (⟨r, w⟩ :: L)) = View.canon [⟨r, w⟩] :=
  funext fun y => by
    obtain ⟨x, rfl⟩ : ∃ x, r.emb x = y := r.exists_idx_of_mem (h y)
    rw [View.read_writes_cons_emb, View.canon_cons_emb]

/-- One accumulation from the zero fills: the loads of the zeroed accumulators read the fills. -/
theorem step4_zero (x0 x1 : Vec F S5000x128 .f32) (x2 : Vec F S5000x1 .f32) (x3 : Vec F S1x128 .f32) (x4 : Vec F S5000x1 .i32) :
    step4 x0 x1 x2 x3 x4 (zero4 (F := F)) =
      (View.canon [⟨rS4, k4_pay6 (View.ld x2 rD4) (View.ld x0 rX4) (View.ld x1 rX4) (View.ld x3 rB4) (View.ld x4 rD4) (k4_pay3 (F := F))⟩],
       View.canon [⟨rC4, k4_pay1 (k4_pay7 (View.ld x4 rD4) (k4_pay4 (F := F)))⟩]) := by
  unfold step4; rw [ld_zero4_1, ld_zero4_2]

/-- The head of the accumulators one tile further: its loads of them read that tile's stores. -/
theorem out4_8_step (x0 x1 : Vec F S5000x128 .f32) (x2 : Vec F S5000x1 .f32) (x3 : Vec F S1x128 .f32) (x4 : Vec F S5000x1 .i32)
    (x5 : Vec F S64x16 .f32) (x6 : Vec F S144x2 .f32) (x7 : Vec F S1x2 .f32) (a : Vec F S64x128 .f32 × Vec F S64x1 .f32) :
    out4_8 (step4 x0 x1 x2 x3 x4 a) x5 x6 x7 =
      View.canon [⟨rO4, k4_pay2 (k4_pay6 (View.ld x2 rD4) (View.ld x0 rX4) (View.ld x1 rX4) (View.ld x3 rB4) (View.ld x4 rD4) (View.ld a.1 rS4))
        (k4_pay1 (k4_pay7 (View.ld x4 rD4) (View.ld a.2 rC4))) (View.ld x6 rWa4) (View.ld x6 rWb4) (View.ld x5 rG4) (View.ld x7 rL4)⟩] := by
  unfold out4_8 step4; dsimp only; rw [ld_canon_one, ld_canon_one]

set_option maxHeartbeats 2000000 in
/-- The body at the first tile on whole memrefs: the inputs at contents x0 … x7, the output at x8, the accumulators
    at anything; it runs to the continuation with the inputs and the output as they were and the accumulators one
    tile on from the zero fills. -/
theorem sound_kernel4_Z (c : Dev nD) (E : Set ℕ) (i : grid4.Coords) (hc0 : cond4_0 i) (hc1 : ¬cond4_1 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x1 .i32) (harg5 : arg5.IsWhole) (arg6 : Memref sig .tc .vmem S64x16 .f32) (harg6 : arg6.IsWhole)
    (arg7 : Memref sig .tc .vmem S144x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x128 .f32) (harg10 : arg10.IsWhole)
    (arg11 : Memref sig .tc .vmem S64x1 .f32) (harg11 : arg11.IsWhole)
    (x0 x1 : Vec F S5000x128 .f32) (x2 : Vec F S5000x1 .f32) (x3 : Vec F S1x128 .f32) (x4 : Vec F S5000x1 .i32)
    (x5 : Vec F S64x16 .f32) (x6 : Vec F S144x2 .f32) (x7 : Vec F S1x2 .f32) (x8 : Vec F S64x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare x8 ∗ owns (c : Thread nD τ) arg10 fullShare (step4 x0 x1 x2 x3 x4 (zero4 (F := F))).1 ∗ owns (c : Thread nD τ) arg11 fullShare (step4 x0 x1 x2 x3 x4 (zero4 (F := F))).2) -∗ K ⟨⟩))
      ⊢ wp frame (wpE (defs₀ (F := F)) Variants.none c none) E
          (cc4__combine_pool_kernel i arg1 harg1 arg2 harg2 arg3 harg3 arg4 harg4 arg5 harg5 arg6 harg6 arg7 harg7 arg8 harg8 arg9 harg9 arg10 harg10 arg11 harg11) K := by
  rw [step4_zero]
  simp only [cc4__combine_pool_kernel_eq_skeleton]; unfold cc4__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [read_writes_last_whole _ _ _ _ _ memS4]
    sl_unfold_run_names
    rw [View.readCov_cons_toLoadRect]
    rfl
  iexists _; isplitr
  swap; · iexact H10
  ipureintro
  rw [read_writes_last_whole _ _ _ _ _ memC4]
  sl_unfold_run_names
  rw [View.readCov_cons_toLoadRect]
  rfl

set_option maxHeartbeats 2000000 in
/-- The body at a middle tile (neither first nor last) on whole memrefs: the inputs at contents x0 … x7, the output at
    x8, the accumulators at a1, a2; it runs to the continuation with the inputs and the output as they were and the
    accumulators one tile further. -/
theorem sound_kernel4_M (c : Dev nD) (E : Set ℕ) (i : grid4.Coords) (hc0 : ¬cond4_0 i) (hc1 : ¬cond4_1 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x1 .i32) (harg5 : arg5.IsWhole) (arg6 : Memref sig .tc .vmem S64x16 .f32) (harg6 : arg6.IsWhole)
    (arg7 : Memref sig .tc .vmem S144x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x128 .f32) (harg10 : arg10.IsWhole)
    (arg11 : Memref sig .tc .vmem S64x1 .f32) (harg11 : arg11.IsWhole)
    (x0 x1 : Vec F S5000x128 .f32) (x2 : Vec F S5000x1 .f32) (x3 : Vec F S1x128 .f32) (x4 : Vec F S5000x1 .i32)
    (x5 : Vec F S64x16 .f32) (x6 : Vec F S144x2 .f32) (x7 : Vec F S1x2 .f32) (x8 : Vec F S64x2 .f32)
    (a1 : Vec F S64x128 .f32) (a2 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare x8 ∗ owns (c : Thread nD τ) arg10 fullShare a1 ∗ owns (c : Thread nD τ) arg11 fullShare a2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare x8 ∗ owns (c : Thread nD τ) arg10 fullShare (step4 x0 x1 x2 x3 x4 (a1, a2)).1 ∗ owns (c : Thread nD τ) arg11 fullShare (step4 x0 x1 x2 x3 x4 (a1, a2)).2) -∗ K ⟨⟩))
      ⊢ wp frame (wpE (defs₀ (F := F)) Variants.none c none) E
          (cc4__combine_pool_kernel i arg1 harg1 arg2 harg2 arg3 harg3 arg4 harg4 arg5 harg5 arg6 harg6 arg7 harg7 arg8 harg8 arg9 harg9 arg10 harg10 arg11 harg11) K := by
  simp only [cc4__combine_pool_kernel_eq_skeleton]; unfold cc4__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0; subst hf1; subst hf2; subst hf3; subst hf4; subst hf5; subst hf6; subst hf7; subst hf8; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverS4 _)
  iexists _; isplitr
  swap; · iexact H10
  ipureintro
  exact View.read_writes_eq_canon _ _ _ (coverC4 _)

set_option maxHeartbeats 2000000 in
/-- The body at the last tile on whole memrefs: the inputs at contents x0 … x7, the output at anything, the
    accumulators at a1, a2; it runs to the continuation with the inputs as they were, the accumulators one tile
    further, and the output at the head of those. -/
theorem sound_kernel4_L (c : Dev nD) (E : Set ℕ) (i : grid4.Coords) (hc0 : ¬cond4_0 i) (hc1 : cond4_1 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x1 .i32) (harg5 : arg5.IsWhole) (arg6 : Memref sig .tc .vmem S64x16 .f32) (harg6 : arg6.IsWhole)
    (arg7 : Memref sig .tc .vmem S144x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x128 .f32) (harg10 : arg10.IsWhole)
    (arg11 : Memref sig .tc .vmem S64x1 .f32) (harg11 : arg11.IsWhole)
    (x0 x1 : Vec F S5000x128 .f32) (x2 : Vec F S5000x1 .f32) (x3 : Vec F S1x128 .f32) (x4 : Vec F S5000x1 .i32)
    (x5 : Vec F S64x16 .f32) (x6 : Vec F S144x2 .f32) (x7 : Vec F S1x2 .f32)
    (a1 : Vec F S64x128 .f32) (a2 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare a1 ∗ owns (c : Thread nD τ) arg11 fullShare a2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out4_8 (step4 x0 x1 x2 x3 x4 (a1, a2)) x5 x6 x7) ∗ owns (c : Thread nD τ) arg10 fullShare (step4 x0 x1 x2 x3 x4 (a1, a2)).1 ∗ owns (c : Thread nD τ) arg11 fullShare (step4 x0 x1 x2 x3 x4 (a1, a2)).2) -∗ K ⟨⟩))
      ⊢ wp frame (wpE (defs₀ (F := F)) Variants.none c none) E
          (cc4__combine_pool_kernel i arg1 harg1 arg2 harg2 arg3 harg3 arg4 harg4 arg5 harg5 arg6 harg6 arg7 harg7 arg8 harg8 arg9 harg9 arg10 harg10 arg11 harg11) K := by
  rw [out4_8_step]
  simp only [cc4__combine_pool_kernel_eq_skeleton]; unfold cc4__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf0; subst hf1; subst hf2; subst hf3; subst hf4; subst hf5; subst hf6; subst hf7; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (coverO4 _)]
    sl_unfold_run_names
    rw [View.readCov_cons_toLoadRect, View.readCov_cons_toLoadRect]
    rfl
  isplitl [H9]
  · iexists _; isplitr
    swap; · iexact H9
    ipureintro
    exact View.read_writes_eq_canon _ _ _ (coverS4 _)
  iexists _; isplitr
  swap; · iexact H10
  ipureintro
  exact View.read_writes_eq_canon _ _ _ (coverC4 _)

end Cert.KernelIdeal.Hand

end
-- ==== Proof.KI.Reg4.lean ====
/- Region 4 of the program, the frame half, its obligations: where the output window is idle, the inputs' buffers, the
   invariant's cases, the body obligation by cases on the tile (first, last, between), and the invariant's two
   ends. -/
import proofs.«427340_j652835029230_2_alg».proof.Proof.Gen.KernelIdeal.Launch
import proofs.«427340_j652835029230_2_alg».proof.Proof.Gen.KernelIdeal.Skeleton
import proofs.«427340_j652835029230_2_alg».proof.Proof.Gen.KernelIdeal.Points
import proofs.«427340_j652835029230_2_alg».proof.Proof.KI.Reg4b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the output window is idle -/

/-- Off the last tile the output window is idle, -/
theorem idleAt4_8 (i : grid4.Coords) (h : ¬cond4_1 i) : cfg4.idle 8 i = true := by
  show (!(k4_cond2 i == 1#1)) = true
  rw [Bool.not_eq_true', beq_eq_false_iff_ne]; exact h
/-- on it, live; -/
theorem liveAt4_8 (i : grid4.Coords) (h : cond4_1 i) : cfg4.idle 8 i = false := by
  show (!(k4_cond2 i == 1#1)) = false
  rw [Bool.not_eq_false', beq_iff_eq]; exact h
/-- and off the last tile its block is not written back. -/
theorem noFlush4_8 (t : Fin cfg4.N) (h : t.val ≠ 9) : (cfg4.win 8).flush t = false := by
  cases hf : (cfg4.win 8).flush t with
  | false => rfl
  | true => exact absurd ((flush4_8 t).mp hf) (by have := t.isLt; have hN : cfg4.N = 10 := N_4; omega)

/-! ## The inputs' buffers -/

/-- An input window's current staging buffer holds its block at every tile, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl)
    (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (fun _ => rfl) (fun _ _ _ => rfl)
    (fun t => by rw [after4_6]; unfold Dat.blockOf iblk4; rw [A_eq4]; try rfl) t d).trans
    (by unfold Dat.fetched Dat.blockOf iblk4; rw [A_eq4]; try rfl)
theorem before4_7 (c : Dev nD) (t : Fin cfg4.N) (d) : (dat4 V c).before 7 t d = iblk4 V c 7 t :=
  ((dat4 V c).before_in_eq_fetched 7 rfl (fun _ => rfl) (fun _ _ _ => rfl)
    (fun t => by rw [after4_7]; unfold Dat.blockOf iblk4; rw [A_eq4]; try rfl) t d).trans
    (by unfold Dat.fetched Dat.blockOf iblk4; rw [A_eq4]; try rfl)

/-- An input window is never idle: after the body its buffer is at its block. -/
theorem leaves4_0 (c : Dev nD) (t : Fin cfg4.N) :
    (dat4 V c).leavesExact 0 t = owns (c : Thread nD τ) (st4_0 t) fullShare (iblk4 V c 0 t) := by
  unfold Dat.leavesExact; rw [show cfg4.idle 0 (cfg4.grid.coords t) = false from rfl, after4_0]
theorem leaves4_1 (c : Dev nD) (t : Fin cfg4.N) :
    (dat4 V c).leavesExact 1 t = owns (c : Thread nD τ) (st4_1 t) fullShare (iblk4 V c 1 t) := by
  unfold Dat.leavesExact; rw [show cfg4.idle 1 (cfg4.grid.coords t) = false from rfl, after4_1]
theorem leaves4_2 (c : Dev nD) (t : Fin cfg4.N) :
    (dat4 V c).leavesExact 2 t = owns (c : Thread nD τ) (st4_2 t) fullShare (iblk4 V c 2 t) := by
  unfold Dat.leavesExact; rw [show cfg4.idle 2 (cfg4.grid.coords t) = false from rfl, after4_2]
theorem leaves4_3 (c : Dev nD) (t : Fin cfg4.N) :
    (dat4 V c).leavesExact 3 t = owns (c : Thread nD τ) (st4_3 t) fullShare (iblk4 V c 3 t) := by
  unfold Dat.leavesExact; rw [show cfg4.idle 3 (cfg4.grid.coords t) = false from rfl, after4_3]
theorem leaves4_4 (c : Dev nD) (t : Fin cfg4.N) :
    (dat4 V c).leavesExact 4 t = owns (c : Thread nD τ) (st4_4 t) fullShare (iblk4 V c 4 t) := by
  unfold Dat.leavesExact; rw [show cfg4.idle 4 (cfg4.grid.coords t) = false from rfl, after4_4]
theorem leaves4_5 (c : Dev nD) (t : Fin cfg4.N) :
    (dat4 V c).leavesExact 5 t = owns (c : Thread nD τ) (st4_5 t) fullShare (iblk4 V c 5 t) := by
  unfold Dat.leavesExact; rw [show cfg4.idle 5 (cfg4.grid.coords t) = false from rfl, after4_5]
theorem leaves4_6 (c : Dev nD) (t : Fin cfg4.N) :
    (dat4 V c).leavesExact 6 t = owns (c : Thread nD τ) (st4_6 t) fullShare (iblk4 V c 6 t) := by
  unfold Dat.leavesExact; rw [show cfg4.idle 6 (cfg4.grid.coords t) = false from rfl, after4_6]
theorem leaves4_7 (c : Dev nD) (t : Fin cfg4.N) :
    (dat4 V c).leavesExact 7 t = owns (c : Thread nD τ) (st4_7 t) fullShare (iblk4 V c 7 t) := by
  unfold Dat.leavesExact; rw [show cfg4.idle 7 (cfg4.grid.coords t) = false from rfl, after4_7]

/-! ## The invariant -/

theorem Phi4_zero (c : Dev nD) (n : ℕ) (hz : n = 0) : Phi4 V c n = Pipeline.ΦA spec4 c := by
  subst hz; rfl

/-- After tile n: the accumulators after n + 1 tiles. -/
theorem Phi4_succ (c : Dev nD) (n : ℕ) :
    Phi4 V c (n + 1) = iprop(iprop((owns (c : Thread nD τ) (Memref.whole cc4_scratch0) fullShare (acc4 V c (n + 1)).1
        ∗ owns (c : Thread nD τ) (Memref.whole cc4_scratch1) fullShare (acc4 V c (n + 1)).2)
        ∗ Pipeline.scopedRestBut (Ix := Unit) (Name := ℕ) (U := UR sig nD τ) (Lvl := ℕ) (Val := Elt F) spec4 c [cc4_scratch0, cc4_scratch1])
      ∗ (∃ r, prngReg c r)) := rfl

/-- Before a tile that is not the first: the accumulators the tiles before left. -/
theorem Phi4_pos (c : Dev nD) (n : ℕ) (hz : n ≠ 0) :
    Phi4 V c n = iprop(iprop((owns (c : Thread nD τ) (Memref.whole cc4_scratch0) fullShare (acc4 V c n).1
        ∗ owns (c : Thread nD τ) (Memref.whole cc4_scratch1) fullShare (acc4 V c n).2)
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-- What the launch hands the region, with the two scratch buffers as memrefs owned at some contents. -/
theorem PhiA4_eq (c : Dev nD) :
    (Pipeline.ΦA spec4 c : sProp 𝕄)
      = iprop(iprop(((∃ d, owns (c : Thread nD τ) (Memref.whole cc4_scratch0) fullShare d)
          ∗ (∃ d, owns (c : Thread nD τ) (Memref.whole cc4_scratch1) fullShare d))
          ∗ Pipeline.scopedRestBut (Ix := Unit) (Name := ℕ) (U := UR sig nD τ) (Lvl := ℕ) (Val := Elt F) spec4 c [cc4_scratch0, cc4_scratch1])
        ∗ (∃ r, prngReg c r)) := by
  unfold Pipeline.ΦA; rw [scopedRest4_split]; simp only [owns_whole]; try rfl

theorem acc4_of_zero (c : Dev nD) (n : ℕ) (hz : n = 0) : acc4 V c n = zero4 := by subst hz; rfl

/-- At the last tile the output's stated contents are the head of the accumulators that tile leaves, over that
    tile's blocks. -/
theorem after4_8_last (c : Dev nD) (t : Fin cfg4.N) (h9 : t.val = 9) :
    (dat4 V c).after 8 t = out4_8 (acc4 V c (t.val + 1)) (iblk4 V c 5 t) (iblk4 V c 6 t) (iblk4 V c 7 t) := by
  rw [after4_8]
  obtain rfl : t = t4_9 := Fin.ext h9
  have hN : cfg4.N = t4_9.val + 1 := N_4
  exact congrArg (fun n => out4_8 (acc4 V c n) (iblk4 V c 5 t4_9) (iblk4 V c 6 t4_9) (iblk4 V c 7 t4_9)) hN

/-! ## The body obligation, at a generic tile -/

/-- What the body is called with at tile t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 2000000 in
/-- The body at any tile. The inputs' memrefs hold their blocks. At the first tile the invariant hands the two scratch
    buffers at anything and takes them back one accumulation on from the zero fills; at a later tile it hands them at
    what the tiles before left and takes them back one accumulation further. Off the last tile the output's buffer
    goes back as found; at the last it is left at the head of the final accumulators. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [leaves4_0, leaves4_1, leaves4_2, leaves4_3, leaves4_4, leaves4_5, leaves4_6, leaves4_7]
  rw [show (dat4 V c).owesAt () t.succ = (dat4 V c).owesAt () t.castSucc from rfl]
  rw [show (dat4 V c).Φ t.succ = Phi4 V c (t.val + 1) from rfl, Phi4_succ,
    show (dat4 V c).Φ t.castSucc = Phi4 V c t.val from rfl]
  have hN : t.val < 10 := lt_of_lt_of_eq t.isLt N_4
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 8 t (idleAt4_8 _ hc1) (noFlush4_8 t (by omega))]
    rw [acc4_succ V c t.val t.isLt, acc4_of_zero V c _ h0, Phi4_zero V c _ h0, PhiA4_eq]
    iintro ⟨⟨⟨⟨⟨%e0, HS0⟩, ⟨%e1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel4_Z c Set.univ _ hc0 hc1 _ _ _ _ _ _ _ _ _ _ _ _ _ _ _ _ _ _ _ _ _ _
      (iblk4 V c 0 t) (iblk4 V c 1 t) (iblk4 V c 2 t) (iblk4 V c 3 t) (iblk4 V c 4 t) (iblk4 V c 5 t) (iblk4 V c 6 t) (iblk4 V c 7 t) ((dat4 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  · by_cases h9 : t.val = 9
    · have hc0 : ¬cond4_0 (grid4.coords t) := fun h => h0 ((hcond4_0 t).mp h)
      have hc1 : cond4_1 (grid4.coords t) := (hcond4_1 t).mpr h9
      rw [show (dat4 V c).leavesExact 8 t = owns (c : Thread nD τ) (st4_8 t) fullShare ((dat4 V c).after 8 t) from by
        unfold Dat.leavesExact; rw [liveAt4_8 _ hc1], after4_8_last V c t h9]
      rw [acc4_succ V c t.val t.isLt, Phi4_pos V c _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_L c Set.univ _ hc0 hc1 _ _ _ _ _ _ _ _ _ _ _ _ _ _ _ _ _ _ _ _ _ _
        (iblk4 V c 0 t) (iblk4 V c 1 t) (iblk4 V c 2 t) (iblk4 V c 3 t) (iblk4 V c 4 t) (iblk4 V c 5 t) (iblk4 V c 6 t) (iblk4 V c 7 t) (acc4 V c t.val).1 (acc4 V c t.val).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc0 : ¬cond4_0 (grid4.coords t) := fun h => h0 ((hcond4_0 t).mp h)
      have hc1 : ¬cond4_1 (grid4.coords t) := fun h => h9 ((hcond4_1 t).mp h)
      rw [Dat.leavesExact_idle (dat4 V c) 8 t (idleAt4_8 _ hc1) (noFlush4_8 t h9)]
      rw [acc4_succ V c t.val t.isLt, Phi4_pos V c _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel4_M c Set.univ _ hc0 hc1 _ _ _ _ _ _ _ _ _ _ _ _ _ _ _ _ _ _ _ _ _ _
        (iblk4 V c 0 t) (iblk4 V c 1 t) (iblk4 V c 2 t) (iblk4 V c 3 t) (iblk4 V c 4 t) (iblk4 V c 5 t) (iblk4 V c 6 t) (iblk4 V c 7 t) ((dat4 V c).before 8 t d8) (acc4 V c t.val).1 (acc4 V c t.val).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8

/-- The body obligation, at every tile. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first tile. -/
theorem hin4 (c : Dev nD) : Pipeline.ΦA spec4 c ⊢ (dat4 V c).Φ 0 := by
  show Pipeline.ΦA spec4 c ⊢ Phi4 V c 0
  exact Idealize.SL.BI.Entails.refl _

/-- After the last tile the invariant gives the launch's back: the accumulators' contents are forgotten. -/
theorem hout4 (c : Dev nD) : (dat4 V c).Φ (Fin.last cfg4.N) ⊢ Pipeline.ΦA spec4 c := by
  rw [show (dat4 V c).Φ (Fin.last cfg4.N) = Phi4 V c cfg4.N from rfl,
    Phi4_pos V c _ (by have hN : cfg4.N = 10 := N_4; omega), PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KI.Run.lean ====
/- The run of the whole program: five kernel regions between five stretches of host operations. The buffers' contents
   at each boundary are a fold from the launch memory: a host stretch applies its operations; a region leaves its
   arrays at what its write-backs produce (the inputs as entered, the output with every tile written back) and every
   other buffer as entered. Every region is entered from "every unscoped buffer at the boundary's contents, the generator
   register at some state, nothing owed" and left in the same shape at the next boundary's contents. The conclusion
   reads EVERY unscoped buffer of the final memory off the last boundary's contents; the argument arrays walk back
   through the fold to the launch memory (no host operation writes one, no region's write-back touches one). -/
import proofs.«427340_j652835029230_2_alg».proof.Proof.KI.Reg0
import proofs.«427340_j652835029230_2_alg».proof.Proof.KI.Reg1
import proofs.«427340_j652835029230_2_alg».proof.Proof.KI.Reg2
import proofs.«427340_j652835029230_2_alg».proof.Proof.KI.Reg3
import proofs.«427340_j652835029230_2_alg».proof.Proof.KI.Reg4
import proofs.«427340_j652835029230_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After the host stretch before region 0. -/
abbrev W1 : Dev nD → Valuation τ sig (Elt F) := fun c => StableHlo.after hostOps0 (W0 m c)
/-- The same, read at the TensorCore's references: what region 0's proof data take. -/
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- A host stretch leaves a buffer it does not write as it was. -/
theorem W1_of (c : Dev nD) (r : Ref sig .tc) (h : r ∉ Gen.hostOps0_W) : W1 m c (Proc.devRef .tc r) = W0 m c (Proc.devRef .tc r) :=
  StableHlo.after_of_writes_sub hostOps0 _ Gen.hostOps0_writes h
/-- An INPUT array of region 0 is never written: after the region it holds what it held at entry. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))

/-- After the host stretch before region 1. -/
abbrev W3 : Dev nD → Valuation τ sig (Elt F) := fun c => StableHlo.after hostOps1 (W2 m c)
/-- The same, read at the TensorCore's references: what region 1's proof data take. -/
abbrev U3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- A host stretch leaves a buffer it does not write as it was. -/
theorem W3_of (c : Dev nD) (r : Ref sig .tc) (h : r ∉ Gen.hostOps1_W) : W3 m c (Proc.devRef .tc r) = W2 m c (Proc.devRef .tc r) :=
  StableHlo.after_of_writes_sub hostOps1 _ Gen.hostOps1_writes h
/-- An INPUT array of region 1 is never written: after the region it holds what it held at entry. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (U3 m) c).arrAt_in w hw _).trans (A_eq1 (U3 m) c w))

/-- After the host stretch before region 2. -/
abbrev W5 : Dev nD → Valuation τ sig (Elt F) := fun c => StableHlo.after hostOps2 (W4 m c)
/-- The same, read at the TensorCore's references: what region 2's proof data take. -/
abbrev U5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- A host stretch leaves a buffer it does not write as it was. -/
theorem W5_of (c : Dev nD) (r : Ref sig .tc) (h : r ∉ Gen.hostOps2_W) : W5 m c (Proc.devRef .tc r) = W4 m c (Proc.devRef .tc r) :=
  StableHlo.after_of_writes_sub hostOps2 _ Gen.hostOps2_writes h
/-- An INPUT array of region 2 is never written: after the region it holds what it held at entry. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (U5 m) c).arrAt_in w hw _).trans (A_eq2 (U5 m) c w))

/-- After the host stretch before region 3. -/
abbrev W7 : Dev nD → Valuation τ sig (Elt F) := fun c => StableHlo.after hostOps3 (W6 m c)
/-- The same, read at the TensorCore's references: what region 3's proof data take. -/
abbrev U7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- A host stretch leaves a buffer it does not write as it was. -/
theorem W7_of (c : Dev nD) (r : Ref sig .tc) (h : r ∉ Gen.hostOps3_W) : W7 m c (Proc.devRef .tc r) = W6 m c (Proc.devRef .tc r) :=
  StableHlo.after_of_writes_sub hostOps3 _ Gen.hostOps3_writes h
/-- An INPUT array of region 3 is never written: after the region it holds what it held at entry. -/
theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (U7 m) c).arrAt_in w hw _).trans (A_eq3 (U7 m) c w))

/-- After the host stretch before region 4. -/
abbrev W9 : Dev nD → Valuation τ sig (Elt F) := fun c => StableHlo.after hostOps4 (W8 m c)
/-- The same, read at the TensorCore's references: what region 4's proof data take. -/
abbrev U9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
/-- A host stretch leaves a buffer it does not write as it was. -/
theorem W9_of (c : Dev nD) (r : Ref sig .tc) (h : r ∉ Gen.hostOps4_W) : W9 m c (Proc.devRef .tc r) = W8 m c (Proc.devRef .tc r) :=
  StableHlo.after_of_writes_sub hostOps4 _ Gen.hostOps4_writes h
/-- An INPUT array of region 4 is never written: after the region it holds what it held at entry. -/
theorem W10_in (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (U9 m) c).arrAt_in w hw _).trans (A_eq4 (U9 m) c w))

/-! ## The proof data of every region, and what rides beside the buffers -/

/-- No region has a prefetched table. -/
abbrev admH : (p : Fin 5) → (pcfgs (F := F) p).Adm := fun p => (cfgs p).toPCfg_adm
/-- Every region's proof data, each at its region's entry contents: a literal match. -/
def pdatsH : (p : Fin 5) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers through every segment: the generator register at some state, and nothing owed. -/
abbrev RH (c : Dev nD) : sProp 𝕄 := iprop((∃ r, prngReg c r) ∗ ∃ W, owes (c : Thread nD τ) (0 : CellTallies nD τ sig Unit) W)
/-- A host stretch as a segment over the unscoped references from the contents W. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the boundary state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary's state without what the core owes. -/
abbrev TnH (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the boundary states: entered from every unscoped buffer at W1, left at W2. Its arrays are split out
    of the unscoped buffers at entry and put back at their exit contents; the generator register goes into the
    region's invariant and comes back; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the boundary states: entered from every unscoped buffer at W3, left at W4. Its arrays are split out
    of the unscoped buffers at entry and put back at their exit contents; the generator register goes into the
    region's invariant and comes back; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the boundary states: entered from every unscoped buffer at W5, left at W6. Its arrays are split out
    of the unscoped buffers at entry and put back at their exit contents; the generator register goes into the
    region's invariant and comes back; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the boundary states: entered from every unscoped buffer at W7, left at W8. Its arrays are split out
    of the unscoped buffers at entry and put back at their exit contents; the generator register goes into the
    region's invariant and comes back; nothing is owed; the kernel has no semaphore of its own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LH lvH 3 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U7 m c) (U8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the boundary states: entered from every unscoped buffer at W9, left at W10. Its arrays are split out
    of the unscoped buffers at entry and put back at their exit contents; the generator register goes into the
    region's invariant and comes back; nothing is owed; the kernel has no semaphore of its own. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ LH lvH 4 fun _ _ => rfl
  pre c := iprop(StableHlo.held (c : Thread nD τ) (Pipeline.ucRefs τ sig) (W9 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (U9 m) c)
    unfold Pipeline.ΦA
    iintro ⟨Hp, -, Hr⟩
    isplitl [Hr]; · iexact Hr
    iexact Hp
  hout c := by
    rw [Pipeline.ownSems0_none]
    refine BIBase.Entails.trans (hout4 (U9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (U9 m c) (U10 m c) ((pdatsH m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The ten segments in order. -/
abbrev segsH : List (Pipeline.Seg (pcfgs (F := F)) admH (pdatsH m) () defs₀ 𝒱H LH lvH) :=
  [ .host (hsegH hostOps0 hostOps0_sub Gen.hostOps0_fresh (W0 m)),
    .region (reg0 m),
    .host (hsegH hostOps1 hostOps1_sub Gen.hostOps1_fresh (W2 m)),
    .region (reg1 m),
    .host (hsegH hostOps2 hostOps2_sub Gen.hostOps2_fresh (W4 m)),
    .region (reg2 m),
    .host (hsegH hostOps3 hostOps3_sub Gen.hostOps3_fresh (W6 m)),
    .region (reg3 m),
    .host (hsegH hostOps4 hostOps4_sub Gen.hostOps4_fresh (W8 m)),
    .region (reg4 m) ]
/-- The program is the run of its segments. -/
theorem main_runH (c : Dev nD) : main (F := F) c = Pipeline.Seg.run (segsH m) := (main_chain c).trans (by chain_rfl)

set_option backward.isDefEq.respectTransparency.types false in
/-- THE RUN. From any memory with zero counters every weakly fair execution of the program terminates, nothing
    faulting, and in the final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched -/

/-- Argument 0 reaches the end as launched. -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl

/-- Argument 1 reaches the end as launched. -/
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_in m c 5 rfl
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

/-- Argument 2 reaches the end as launched. -/
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_in m c 1 rfl
    _ = W0 m c (Proc.devRef .tc main_arg2) := W1_of m c main_arg2 (by decide)
    _ = m ((c : Thread nD τ).loc main_arg2) := rfl

/-- Argument 3 reaches the end as launched. -/
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

/-- Argument 4 reaches the end as launched. -/
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_in m c 4 rfl
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-- Argument 5 reaches the end as launched. -/
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl

/-- Argument 6 reaches the end as launched. -/
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_in m c 4 rfl
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- Argument 7 reaches the end as launched. -/
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := W9_of m c main_arg7 (by decide)
    _ = W7 m c (Proc.devRef .tc main_arg7) := W8_of_ne m c main_arg7 (by decide)
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl

/-- Argument 8 reaches the end as launched. -/
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := W9_of m c main_arg8 (by decide)
    _ = W7 m c (Proc.devRef .tc main_arg8) := W8_in m c 4 rfl
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl

/-- Argument 9 reaches the end as launched. -/
theorem W10_main_arg9 (c : Dev nD) : W10 m c (Proc.devRef .tc main_arg9) = m ((c : Thread nD τ).loc main_arg9) :=
  calc W10 m c (Proc.devRef .tc main_arg9)
    _ = W9 m c (Proc.devRef .tc main_arg9) := W10_of_ne m c main_arg9 (by decide)
    _ = W8 m c (Proc.devRef .tc main_arg9) := W9_of m c main_arg9 (by decide)
    _ = W7 m c (Proc.devRef .tc main_arg9) := W8_of_ne m c main_arg9 (by decide)
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl

/-- Argument 10 reaches the end as launched. -/
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_in m c 6 rfl
    _ = W8 m c (Proc.devRef .tc main_arg10) := W9_of m c main_arg10 (by decide)
    _ = W7 m c (Proc.devRef .tc main_arg10) := W8_of_ne m c main_arg10 (by decide)
    _ = W6 m c (Proc.devRef .tc main_arg10) := W7_of m c main_arg10 (by decide)
    _ = W5 m c (Proc.devRef .tc main_arg10) := W6_of_ne m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl

/-- Argument 11 reaches the end as launched. -/
theorem W10_main_arg11 (c : Dev nD) : W10 m c (Proc.devRef .tc main_arg11) = m ((c : Thread nD τ).loc main_arg11) :=
  calc W10 m c (Proc.devRef .tc main_arg11)
    _ = W9 m c (Proc.devRef .tc main_arg11) := W10_of_ne m c main_arg11 (by decide)
    _ = W8 m c (Proc.devRef .tc main_arg11) := W9_of m c main_arg11 (by decide)
    _ = W7 m c (Proc.devRef .tc main_arg11) := W8_of_ne m c main_arg11 (by decide)
    _ = W6 m c (Proc.devRef .tc main_arg11) := W7_of m c main_arg11 (by decide)
    _ = W5 m c (Proc.devRef .tc main_arg11) := W6_of_ne m c main_arg11 (by decide)
    _ = W4 m c (Proc.devRef .tc main_arg11) := W5_of m c main_arg11 (by decide)
    _ = W3 m c (Proc.devRef .tc main_arg11) := W4_of_ne m c main_arg11 (by decide)
    _ = W2 m c (Proc.devRef .tc main_arg11) := W3_of m c main_arg11 (by decide)
    _ = W1 m c (Proc.devRef .tc main_arg11) := W2_of_ne m c main_arg11 (by decide)
    _ = W0 m c (Proc.devRef .tc main_arg11) := W1_of m c main_arg11 (by decide)
    _ = m ((c : Thread nD τ).loc main_arg11) := rfl

/-- Argument 12 reaches the end as launched. -/
theorem W10_main_arg12 (c : Dev nD) : W10 m c (Proc.devRef .tc main_arg12) = m ((c : Thread nD τ).loc main_arg12) :=
  calc W10 m c (Proc.devRef .tc main_arg12)
    _ = W9 m c (Proc.devRef .tc main_arg12) := W10_of_ne m c main_arg12 (by decide)
    _ = W8 m c (Proc.devRef .tc main_arg12) := W9_of m c main_arg12 (by decide)
    _ = W7 m c (Proc.devRef .tc main_arg12) := W8_of_ne m c main_arg12 (by decide)
    _ = W6 m c (Proc.devRef .tc main_arg12) := W7_of m c main_arg12 (by decide)
    _ = W5 m c (Proc.devRef .tc main_arg12) := W6_of_ne m c main_arg12 (by decide)
    _ = W4 m c (Proc.devRef .tc main_arg12) := W5_of m c main_arg12 (by decide)
    _ = W3 m c (Proc.devRef .tc main_arg12) := W4_of_ne m c main_arg12 (by decide)
    _ = W2 m c (Proc.devRef .tc main_arg12) := W3_of m c main_arg12 (by decide)
    _ = W1 m c (Proc.devRef .tc main_arg12) := W2_of_ne m c main_arg12 (by decide)
    _ = W0 m c (Proc.devRef .tc main_arg12) := W1_of m c main_arg12 (by decide)
    _ = m ((c : Thread nD τ).loc main_arg12) := rfl

/-- Argument 13 reaches the end as launched. -/
theorem W10_main_arg13 (c : Dev nD) : W10 m c (Proc.devRef .tc main_arg13) = m ((c : Thread nD τ).loc main_arg13) :=
  calc W10 m c (Proc.devRef .tc main_arg13)
    _ = W9 m c (Proc.devRef .tc main_arg13) := W10_of_ne m c main_arg13 (by decide)
    _ = W8 m c (Proc.devRef .tc main_arg13) := W9_of m c main_arg13 (by decide)
    _ = W7 m c (Proc.devRef .tc main_arg13) := W8_of_ne m c main_arg13 (by decide)
    _ = W6 m c (Proc.devRef .tc main_arg13) := W7_of m c main_arg13 (by decide)
    _ = W5 m c (Proc.devRef .tc main_arg13) := W6_of_ne m c main_arg13 (by decide)
    _ = W4 m c (Proc.devRef .tc main_arg13) := W5_of m c main_arg13 (by decide)
    _ = W3 m c (Proc.devRef .tc main_arg13) := W4_of_ne m c main_arg13 (by decide)
    _ = W2 m c (Proc.devRef .tc main_arg13) := W3_of m c main_arg13 (by decide)
    _ = W1 m c (Proc.devRef .tc main_arg13) := W2_of_ne m c main_arg13 (by decide)
    _ = W0 m c (Proc.devRef .tc main_arg13) := W1_of m c main_arg13 (by decide)
    _ = m ((c : Thread nD τ).loc main_arg13) := rfl

/-- The result buffer ends at what the last region's one write-back leaves in it. -/
theorem W10_main_v63 (c : Dev nD) : W10 m c (Proc.devRef .tc main_v63) = (dat4 (U9 m) c).arrAt 8 cfg4.N :=
  W10_arr m c 8

/-- THE FRAME: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_ucH main_arg0 (by decide))).trans (W10_main_arg0 m c),
     (h c _ (mem_ucH main_arg1 (by decide))).trans (W10_main_arg1 m c),
     (h c _ (mem_ucH main_arg2 (by decide))).trans (W10_main_arg2 m c),
     (h c _ (mem_ucH main_arg3 (by decide))).trans (W10_main_arg3 m c),
     (h c _ (mem_ucH main_arg4 (by decide))).trans (W10_main_arg4 m c),
     (h c _ (mem_ucH main_arg5 (by decide))).trans (W10_main_arg5 m c),
     (h c _ (mem_ucH main_arg6 (by decide))).trans (W10_main_arg6 m c),
     (h c _ (mem_ucH main_arg7 (by decide))).trans (W10_main_arg7 m c),
     (h c _ (mem_ucH main_arg8 (by decide))).trans (W10_main_arg8 m c),
     (h c _ (mem_ucH main_arg9 (by decide))).trans (W10_main_arg9 m c),
     (h c _ (mem_ucH main_arg10 (by decide))).trans (W10_main_arg10 m c),
     (h c _ (mem_ucH main_arg11 (by decide))).trans (W10_main_arg11 m c),
     (h c _ (mem_ucH main_arg12 (by decide))).trans (W10_main_arg12 m c),
     (h c _ (mem_ucH main_arg13 (by decide))).trans (W10_main_arg13 m c)⟩)
    (run_all m ρ)

end Cert.KernelIdeal.Hand

end
-- ==== Proof.RefRead.lean ====
/- The reference program's run and its stage-by-stage reading, re-exported for the modules that compare it with the kernel. -/
import proofs.«427340_j652835029230_2_alg».proof.Proof.Gen.ReferenceIdeal.Run
import proofs.«427340_j652835029230_2_alg».proof.Proof.Gen.ReferenceIdeal.Read
-- ==== Proof.Val.Ref.lean ====
/-
  The reference program's result in closed form, at the ideal instance.

  The reference is a four-layer graph convolution with symmetric normalisation and self loops, a mean
  pool over the graphs of the batch, and a linear head on the pooled features joined with the
  condition vector. Written here stage by stage as functions of the fourteen argument arrays:

    src, dst        the two rows of the edge list;
    deg  i          1 + the number of edges whose destination is node i;
    dis  i          deg i ^ (-1/2);
    norm e          dis (src e) * dis (dst e);          selfn i = dis i * dis i;
    layer h W b     with y = h W:  (scatter-add over dst of (y at src) * norm) + y * selfn + b;
    relu            the maximum with 0, after layers one to three;
    pooled g        (the sum of the last layer's rows over the nodes of graph g) / max (their count) 1;
    out             (pooled ‖ cond) linW + linb.

  The gathers, the scatter-adds and the concatenation stay the library's own functions applied to
  named sub-results; the remaining operations are read at an index below.
-/
import proofs.«427340_j652835029230_2_alg».proof.Proof.RefRead

noncomputable section

open scoped BigOperators

namespace Cert.RefVal

open Cert.ReferenceIdeal Cert.ReferenceIdeal.Gen Cert.ReferenceIdeal.Read
open Idealize.ShloMosaic Idealize.ShloMosaic.ValueIdx Idealize.ShloMosaic.TcCoe Idealize.SL.Sem

/-! ## The stages -/

/-- The sources of the edges: row 0 of the edge list. -/
def refSrc (edge : IVec S2x800000 32) : IVec S800000 32 :=
  shapeCast _ (extractStridedSlice S1x800000 ![0, 0] edge slices_S2x800000_S1x800000_0_0) shapeCasts_S1x800000_S800000

/-- The destinations of the edges: row 1 of the edge list. -/
def refDst (edge : IVec S2x800000 32) : IVec S800000 32 :=
  shapeCast _ (extractStridedSlice S1x800000 ![1, 0] edge slices_S2x800000_S1x800000_1_0) shapeCasts_S1x800000_S800000

/-- A node index normalised for a gather: a negative one counts from the end. -/
def refWrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A list of node indices as the one-column index array a gather or a scatter takes. -/
def refCol (v : IVec S800000 32) : IVec S800000x1 32 :=
  broadcastInDim S800000x1 ![0] bcast_S800000_S800000x1_0 v

/-- The degrees with self loops: one plus the number of edges arriving at each node. -/
def refDeg (edge : IVec S2x800000 32) : FVec Ideal S50000 .f32 :=
  addf (Host.scatterAdd scatter_S50000_S800000x1_S800000_n_0_0_1
      (broadcastInDim S50000 ![] bcast_S_S50000 (constant S_ .f32 0x00000000#32))
      (refCol (refDst edge))
      (broadcastInDim S800000 ![] bcast_S_S800000 (constant S_ .f32 0x3F800000#32)))
    (broadcastInDim S50000 ![] bcast_S_S50000 (constant S_ .f32 0x3F800000#32))

/-- The inverse square roots of the degrees. -/
def refDis (edge : IVec S2x800000 32) : FVec Ideal S50000 .f32 :=
  Host.powf (refDeg edge) (broadcastInDim S50000 ![] bcast_S_S50000 (constant S_ .f32 0xBF000000#32))

/-- The inverse square root of the degree at the node each entry of `v` names. -/
def refDisAt (edge : IVec S2x800000 32) (v : IVec S800000 32) : FVec Ideal S800000 .f32 :=
  Host.gather gather_S50000_S800000x1_S800000_n_0_n_n_0_1_1 (refDis edge) (refCol (refWrap v))

/-- The weight of each edge: the product of its two ends' inverse square root degrees. -/
def refNorm (edge : IVec S2x800000 32) : FVec Ideal S800000 .f32 :=
  mulf (refDisAt edge (refSrc edge)) (refDisAt edge (refDst edge))

/-- The weight of each node's self loop. -/
def refSelf (edge : IVec S2x800000 32) : FVec Ideal S50000 .f32 :=
  mulf (refDis edge) (refDis edge)

/-- The edge weights along the feature axis. -/
def refNormB (edge : IVec S2x800000 32) : FVec Ideal S800000x128 .f32 :=
  broadcastInDim S800000x128 ![0, 1] bcast_S800000x1_S800000x128_0_1
    (broadcastInDim S800000x1 ![0] bcast_S800000_S800000x1_0 (refNorm edge))

/-- The self-loop weights along the feature axis. -/
def refSelfB (edge : IVec S2x800000 32) : FVec Ideal S50000x128 .f32 :=
  broadcastInDim S50000x128 ![0, 1] bcast_S50000x1_S50000x128_0_1
    (broadcastInDim S50000x1 ![0] bcast_S50000_S50000x1_0 (refSelf edge))

/-- A bias along the node axis. -/
def refBiasB (b : FVec Ideal S128 .f32) : FVec Ideal S50000x128 .f32 :=
  broadcastInDim S50000x128 ![0, 1] bcast_S1x128_S50000x128_0_1 (broadcastInDim S1x128 ![1] bcast_S128_S1x128_1 b)

/-- The linear map of a layer. -/
def refLin (h : FVec Ideal S50000x128 .f32) (W : FVec Ideal S128x128 .f32) : FVec Ideal S50000x128 .f32 :=
  Host.dotGeneral dot_S50000x128_S128x128_S50000x128_1_0_0_1_n_n none h W

/-- The rows of `y` at the edges' sources. -/
def refRows (edge : IVec S2x800000 32) (y : FVec Ideal S50000x128 .f32) : FVec Ideal S800000x128 .f32 :=
  Host.gather gather_S50000x128_S800000x1_S800000x128_1_0_n_n_0_1_1128 y (refCol (refWrap (refSrc edge)))

/-- The weighted messages summed at the edges' destinations. -/
def refAgg (edge : IVec S2x800000 32) (y : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (refCol (refDst edge))
    (mulf (refRows edge y) (refNormB edge))

/-- One graph convolution: aggregate the neighbours, add the self loop, add the bias. -/
def refLayer (edge : IVec S2x800000 32) (h : FVec Ideal S50000x128 .f32) (W : FVec Ideal S128x128 .f32)
    (b : FVec Ideal S128 .f32) : FVec Ideal S50000x128 .f32 :=
  addf (addf (refAgg edge (refLin h W)) (mulf (refLin h W) (refSelfB edge))) (refBiasB b)

/-- The rectifier. -/
def refRelu (h : FVec Ideal S50000x128 .f32) : FVec Ideal S50000x128 .f32 :=
  maximumf h (broadcastInDim S50000x128 ![] bcast_S_S50000x128 (constant S_ .f32 0x00000000#32))

/-- The node features after the four layers. -/
def refH4 (x : FVec Ideal S50000x128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (edge : IVec S2x800000 32) : FVec Ideal S50000x128 .f32 :=
  refLayer edge (refRelu (refLayer edge (refRelu (refLayer edge (refRelu (refLayer edge x W1 b1)) W2 b2)) W3 b3)) W4 b4

/-- The graph of each node as the one-column index array a scatter takes. -/
def refBatchCol (batch : IVec S50000 32) : IVec S50000x1 32 :=
  broadcastInDim S50000x1 ![0] bcast_S50000_S50000x1_0 batch

/-- The sum of the node features over each graph. -/
def refSums (h : FVec Ideal S50000x128 .f32) (batch : IVec S50000 32) : FVec Ideal S64x128 .f32 :=
  Host.scatterAdd scatter_S64x128_S50000x1_S50000x128_1_0_0_1
    (broadcastInDim S64x128 ![] bcast_S_S64x128 (constant S_ .f32 0x00000000#32)) (refBatchCol batch) h

/-- The number of nodes of each graph. -/
def refCounts (batch : IVec S50000 32) : FVec Ideal S64 .f32 :=
  Host.scatterAdd scatter_S64_S50000x1_S50000_n_0_0_1
    (broadcastInDim S64 ![] bcast_S_S64 (constant S_ .f32 0x00000000#32)) (refBatchCol batch)
    (broadcastInDim S50000 ![] bcast_S_S50000 (constant S_ .f32 0x3F800000#32))

/-- The divisor of the mean: the count, at least one, along the feature axis. -/
def refDenB (batch : IVec S50000 32) : FVec Ideal S64x128 .f32 :=
  broadcastInDim S64x128 ![0, 1] bcast_S64x1_S64x128_0_1
    (broadcastInDim S64x1 ![0] bcast_S64_S64x1_0
      (maximumf (refCounts batch) (broadcastInDim S64 ![] bcast_S_S64 (constant S_ .f32 0x3F800000#32))))

/-- The mean of the node features over each graph. -/
def refPooled (h : FVec Ideal S50000x128 .f32) (batch : IVec S50000 32) : FVec Ideal S64x128 .f32 :=
  Host.divf (refSums h batch) (refDenB batch)

/-- The pooled features joined with the condition vector. -/
def refZ (p : FVec Ideal S64x128 .f32) (cond : FVec Ideal S64x16 .f32) : FVec Ideal S64x144 .f32 :=
  concatenate S64x144 1 [⟨S64x128, p⟩, ⟨S64x16, cond⟩] concatenates_S64x128_S64x16_S64x144_d1

/-- The bias of the head along the graph axis. -/
def refLinbB (linb : FVec Ideal S2 .f32) : FVec Ideal S64x2 .f32 :=
  broadcastInDim S64x2 ![0, 1] bcast_S1x2_S64x2_0_1 (broadcastInDim S1x2 ![1] bcast_S2_S1x2_1 linb)

/-- The linear head. -/
def refHead (z : FVec Ideal S64x144 .f32) (linW : FVec Ideal S144x2 .f32) (linb : FVec Ideal S2 .f32) : FVec Ideal S64x2 .f32 :=
  addf (Host.dotGeneral dot_S64x144_S144x2_S64x2_1_0_0_1_n_n none z linW) (refLinbB linb)

/-- The reference's result as one function of its fourteen arguments. -/
def refOut (x : FVec Ideal S50000x128 .f32) (cond : FVec Ideal S64x16 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (linW : FVec Ideal S144x2 .f32) (linb : FVec Ideal S2 .f32)
    (edge : IVec S2x800000 32) (batch : IVec S50000 32) : FVec Ideal S64x2 .f32 :=
  refHead (refZ (refPooled (refH4 x W1 b1 W2 b2 W3 b3 W4 b4 edge) batch) cond) linW linb

/-! ## The generated stages are these functions

Each stage of the generated reading is the function above of the same name's arguments. The equations
are chained stage by stage, each resting on the ones before it, so that none compares more than one
layer of the program. -/

section Stages

variable (x0 : FVec Ideal S50000x128 .f32) (x1 : FVec Ideal S64x16 .f32) (x2 : FVec Ideal S128x128 .f32) (x3 : FVec Ideal S128 .f32)
  (x4 : FVec Ideal S128x128 .f32) (x5 : FVec Ideal S128 .f32) (x6 : FVec Ideal S128x128 .f32) (x7 : FVec Ideal S128 .f32)
  (x8 : FVec Ideal S128x128 .f32) (x9 : FVec Ideal S128 .f32) (x10 : FVec Ideal S144x2 .f32) (x11 : FVec Ideal S2 .f32)
  (x12 : IVec S2x800000 32) (x13 : IVec S50000 32)

theorem src_eq : val_main_v1 (F := Ideal) x12 = refSrc x12 := rfl
theorem dst_eq : val_main_v3 (F := Ideal) x12 = refDst x12 := rfl

theorem dis_eq : val_main_v11 (F := Ideal) x12 = refDis x12 := by
  unfold val_main_v11 val_main_v10 val_main_cst_2 val_main_v9 val_main_v8 val_main_cst_1 val_main_v7 val_main_v6 val_main_v5
    val_main_cst_0 val_main_v4 val_main_cst
  rw [dst_eq]; rfl

theorem wrapSrc0_eq : val_main_v16 (F := Ideal) x12 = refWrap (refSrc x12) := by
  unfold val_main_v16 val_main_v15 val_main_v14 val_main_c_3 val_main_v13 val_main_v12 val_main_c
  rw [src_eq]; rfl
theorem wrapDst_eq : val_main_v23 (F := Ideal) x12 = refWrap (refDst x12) := by
  unfold val_main_v23 val_main_v22 val_main_v21 val_main_c_5 val_main_v20 val_main_v19 val_main_c_4
  rw [dst_eq]; rfl
theorem wrapSrc1_eq : val_main_v33 (F := Ideal) x12 = refWrap (refSrc x12) := by
  unfold val_main_v33 val_main_v32 val_main_v31 val_main_c_7 val_main_v30 val_main_v29 val_main_c_6
  rw [src_eq]; rfl
theorem wrapSrc2_eq : val_main_v55 (F := Ideal) x12 = refWrap (refSrc x12) := by
  unfold val_main_v55 val_main_v54 val_main_v53 val_main_c_10 val_main_v52 val_main_v51 val_main_c_9
  rw [src_eq]; rfl
theorem wrapSrc3_eq : val_main_v77 (F := Ideal) x12 = refWrap (refSrc x12) := by
  unfold val_main_v77 val_main_v76 val_main_v75 val_main_c_13 val_main_v74 val_main_v73 val_main_c_12
  rw [src_eq]; rfl
theorem wrapSrc4_eq : val_main_v99 (F := Ideal) x12 = refWrap (refSrc x12) := by
  unfold val_main_v99 val_main_v98 val_main_v97 val_main_c_16 val_main_v96 val_main_v95 val_main_c_15
  rw [src_eq]; rfl

theorem norm_eq : val_main_v26 (F := Ideal) x12 = refNorm x12 := by
  unfold val_main_v26 val_main_v25 val_main_v24 val_main_v18 val_main_v17
  rw [dis_eq, wrapSrc0_eq, wrapDst_eq]; rfl
theorem self_eq : val_main_v27 (F := Ideal) x12 = refSelf x12 := by
  unfold val_main_v27
  rw [dis_eq]; rfl

theorem layer1_eq : val_main_v48 (F := Ideal) x0 x2 x3 x12 = refLayer x12 x0 x2 x3 := by
  unfold val_main_v48 val_main_v47 val_main_v46 val_main_v45 val_main_v44 val_main_v43 val_main_v42 val_main_v41 val_main_v40
    val_main_v39 val_main_cst_8 val_main_v38 val_main_v37 val_main_v36 val_main_v35 val_main_v34 val_main_v28
  rw [wrapSrc1_eq, norm_eq, self_eq, dst_eq]; rfl
theorem relu1_eq : val_main_v49 (F := Ideal) x0 x2 x3 x12 = refRelu (refLayer x12 x0 x2 x3) := by
  unfold val_main_v49 val_main_call0_v0 val_main_call0_cst
  rw [layer1_eq]; rfl

theorem layer2_eq : val_main_v70 (F := Ideal) x0 x2 x3 x4 x5 x12 = refLayer x12 (refRelu (refLayer x12 x0 x2 x3)) x4 x5 := by
  unfold val_main_v70 val_main_v69 val_main_v68 val_main_v67 val_main_v66 val_main_v65 val_main_v64 val_main_v63 val_main_v62
    val_main_v61 val_main_cst_11 val_main_v60 val_main_v59 val_main_v58 val_main_v57 val_main_v56 val_main_v50
  rw [wrapSrc2_eq, norm_eq, self_eq, dst_eq, relu1_eq]; rfl
theorem relu2_eq : val_main_v71 (F := Ideal) x0 x2 x3 x4 x5 x12 = refRelu (refLayer x12 (refRelu (refLayer x12 x0 x2 x3)) x4 x5) := by
  unfold val_main_v71 val_main_call1_v0 val_main_call1_cst
  rw [layer2_eq]; rfl

theorem layer3_eq : val_main_v92 (F := Ideal) x0 x2 x3 x4 x5 x6 x7 x12
    = refLayer x12 (refRelu (refLayer x12 (refRelu (refLayer x12 x0 x2 x3)) x4 x5)) x6 x7 := by
  unfold val_main_v92 val_main_v91 val_main_v90 val_main_v89 val_main_v88 val_main_v87 val_main_v86 val_main_v85 val_main_v84
    val_main_v83 val_main_cst_14 val_main_v82 val_main_v81 val_main_v80 val_main_v79 val_main_v78 val_main_v72
  rw [wrapSrc3_eq, norm_eq, self_eq, dst_eq, relu2_eq]; rfl
theorem relu3_eq : val_main_v93 (F := Ideal) x0 x2 x3 x4 x5 x6 x7 x12
    = refRelu (refLayer x12 (refRelu (refLayer x12 (refRelu (refLayer x12 x0 x2 x3)) x4 x5)) x6 x7) := by
  unfold val_main_v93 val_main_call2_v0 val_main_call2_cst
  rw [layer3_eq]; rfl

theorem layer4_eq : val_main_v114 (F := Ideal) x0 x2 x3 x4 x5 x6 x7 x8 x9 x12 = refH4 x0 x2 x3 x4 x5 x6 x7 x8 x9 x12 := by
  unfold val_main_v114 val_main_v113 val_main_v112 val_main_v111 val_main_v110 val_main_v109 val_main_v108 val_main_v107 val_main_v106
    val_main_v105 val_main_cst_17 val_main_v104 val_main_v103 val_main_v102 val_main_v101 val_main_v100 val_main_v94
  rw [wrapSrc4_eq, norm_eq, self_eq, dst_eq, relu3_eq]; rfl

theorem pooled_eq : val_main_v126 (F := Ideal) x0 x2 x3 x4 x5 x6 x7 x8 x9 x12 x13
    = refPooled (refH4 x0 x2 x3 x4 x5 x6 x7 x8 x9 x12) x13 := by
  unfold val_main_v126 val_main_v125 val_main_v124 val_main_v123 val_main_v122 val_main_cst_21 val_main_v121 val_main_v120
    val_main_v119 val_main_cst_20 val_main_v118 val_main_cst_19 val_main_v117 val_main_v116 val_main_v115 val_main_cst_18
  rw [layer4_eq]; rfl

theorem out_eq : val_main_v131 (F := Ideal) x0 x1 x2 x3 x4 x5 x6 x7 x8 x9 x10 x11 x12 x13
    = refOut x0 x1 x2 x3 x4 x5 x6 x7 x8 x9 x10 x11 x12 x13 := by
  unfold val_main_v131 val_main_v130 val_main_v129 val_main_v128 val_main_v127
  rw [pooled_eq]; rfl

end Stages

/-! ## The run's result is `refOut` -/

theorem ref_out (m : (ℓ : Loc nD τ sig) → Buf (Elt Ideal) ℓ) (c : Dev nD) :
    Cert.ReferenceIdeal.Value.res_main_v131 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) :=
  (val_main_v131_eq (F := Ideal) m c).trans (out_eq _ _ _ _ _ _ _ _ _ _ _ _ _ _)

/-! ## The stages read at an index -/

/-- A layer's linear map at a node and a feature: the row of `h` against the column of `W`. -/
theorem refLin_apply (h : FVec Ideal S50000x128 .f32) (W : FVec Ideal S128x128 .f32) (r : Fin 50000) (f : Fin 128) :
    refLin h W (ix2 r f) = ∑ k : Fin 128, h (ix2 r k) * W (ix2 k f) := by
  have e : refLin h W = val_main_v28 (F := Ideal) h W := rfl
  rw [e, val_main_v28_apply]
  refine Finset.sum_congr rfl fun k _ => ?_
  have el : lidx_main_v28 (ix2 r f) k = ix2 r k := funext fun a => by
    match a with
    | ⟨0, _⟩ => rfl
    | ⟨1, _⟩ => rfl
  have er : ridx_main_v28 (ix2 r f) k = ix2 k f := funext fun a => by
    match a with
    | ⟨0, _⟩ => rfl
    | ⟨1, _⟩ => rfl
  rw [el, er]

/-- The self-loop weight does not depend on the feature. -/
theorem refSelfB_apply (edge : IVec S2x800000 32) (r : Fin 50000) (f : Fin 128) :
    refSelfB edge (ix2 r f) = refDis edge (ix1 r) * refDis edge (ix1 r) := by
  unfold refSelfB
  rw [broadcastInDim_apply _ bcast_S50000x1_S50000x128_0_1 _ (ix2 r f) (ix2 r (0 : Fin 1)) (fun a => by
        match a with
        | ⟨0, _⟩ => exact (if_neg (by decide : ¬ (50000 : Nat) = 1)).symm
        | ⟨1, _⟩ => exact (if_pos rfl).symm),
      broadcastInDim_apply _ bcast_S50000_S50000x1_0 _ (ix2 r (0 : Fin 1)) (ix1 r) (fun a => by
        match a with
        | ⟨0, _⟩ => exact (if_neg (by decide : ¬ (50000 : Nat) = 1)).symm)]
  unfold refSelf
  rw [mulf_apply]

/-- The bias does not depend on the node. -/
theorem refBiasB_apply (b : FVec Ideal S128 .f32) (r : Fin 50000) (f : Fin 128) :
    refBiasB b (ix2 r f) = b (ix1 f) := by
  unfold refBiasB
  rw [broadcastInDim_apply _ bcast_S1x128_S50000x128_0_1 _ (ix2 r f) (ix2 (0 : Fin 1) f) (fun a => by
        match a with
        | ⟨0, _⟩ => exact (if_pos rfl).symm
        | ⟨1, _⟩ => exact (if_neg (by decide : ¬ (128 : Nat) = 1)).symm),
      broadcastInDim_apply _ bcast_S128_S1x128_1 _ (ix2 (0 : Fin 1) f) (ix1 f) (fun a => by
        match a with
        | ⟨0, _⟩ => exact (if_neg (by decide : ¬ (128 : Nat) = 1)).symm)]

/-- The edge weight does not depend on the feature. -/
theorem refNormB_apply (edge : IVec S2x800000 32) (e : Fin 800000) (f : Fin 128) :
    refNormB edge (ix2 e f) = refNorm edge (ix1 e) := by
  unfold refNormB
  rw [broadcastInDim_apply _ bcast_S800000x1_S800000x128_0_1 _ (ix2 e f) (ix2 e (0 : Fin 1)) (fun a => by
        match a with
        | ⟨0, _⟩ => exact (if_neg (by decide : ¬ (800000 : Nat) = 1)).symm
        | ⟨1, _⟩ => exact (if_pos rfl).symm),
      broadcastInDim_apply _ bcast_S800000_S800000x1_0 _ (ix2 e (0 : Fin 1)) (ix1 e) (fun a => by
        match a with
        | ⟨0, _⟩ => exact (if_neg (by decide : ¬ (800000 : Nat) = 1)).symm)]

/-- The host's accumulating scatter at an index: the operand there plus the updates that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- A splat of a word reads the extended real the word encodes, everywhere. -/
theorem splat_apply {s : Shape} (h : S_.BroadcastsInDim s (![] : Fin 0 → Fin s.rank)) (w : BitVec 32) (i : s.Idx) :
    (broadcastInDim s ![] h (constant S_ .f32 w) : FVec Ideal s .f32) i = Ideal.ofBits .f32 w := rfl

/-- A splat of the zero word reads the extended real `0` everywhere. -/
theorem zeros_apply {s : Shape} (h : S_.BroadcastsInDim s (![] : Fin 0 → Fin s.rank)) (i : s.Idx) :
    (broadcastInDim s ![] h (constant S_ .f32 0x00000000#32) : FVec Ideal s .f32) i = 0 :=
  (splat_apply h _ i).trans Ideal.ofBits_zero_f32

/-- The host's quotient at an index is the ideal division of the elements. -/
theorem hostDivf_apply {s : Shape} (a b : FVec Ideal s .f32) (i : s.Idx) : Host.divf a b i = Ideal.div (a i) (b i) := rfl

/-- The aggregation at a node and a feature: the weighted messages that arrive there. -/
theorem refAgg_apply (edge : IVec S2x800000 32) (y : FVec Ideal S50000x128 .f32) (i : S50000x128.Idx) :
    refAgg edge y i
      = 0 + ∑ j ∈ Finset.univ.filter (fun j => scatter_S50000x128_S800000x1_S800000x128_1_0_0_1.resultIdx? j (refCol (refDst edge)) = some i),
          refRows edge y j * refNormB edge j := by
  unfold refAgg
  rw [scatterAdd_apply, zeros_apply]
  exact congrArg (0 + ·) (Finset.sum_congr rfl fun j _ => mulf_apply _ _ j)

/-- A layer at a node and a feature: the messages that arrive there, the self loop, the bias. -/
theorem refLayer_apply (edge : IVec S2x800000 32) (h : FVec Ideal S50000x128 .f32) (W : FVec Ideal S128x128 .f32)
    (b : FVec Ideal S128 .f32) (r : Fin 50000) (f : Fin 128) :
    refLayer edge h W b (ix2 r f)
      = ((0 + ∑ j ∈ Finset.univ.filter (fun j => scatter_S50000x128_S800000x1_S800000x128_1_0_0_1.resultIdx? j (refCol (refDst edge)) = some (ix2 r f)),
              refRows edge (refLin h W) j * refNormB edge j)
          + refLin h W (ix2 r f) * (refDis edge (ix1 r) * refDis edge (ix1 r))) + b (ix1 f) := by
  unfold refLayer
  rw [addf_apply, addf_apply, mulf_apply, refAgg_apply, refSelfB_apply, refBiasB_apply]

/-- The rectifier at an index. -/
theorem refRelu_apply (h : FVec Ideal S50000x128 .f32) (i : S50000x128.Idx) : refRelu h i = max (h i) 0 := by
  unfold refRelu
  rw [maximumf_apply, zeros_apply]

/-- The first 128 columns of the joined features are the pooled ones. -/
theorem refZ_left (p : FVec Ideal S64x128 .f32) (cond : FVec Ideal S64x16 .f32) (g : Fin 64) (k : Fin 144) (hk : k.val < 128) :
    refZ p cond (ix2 g k) = p (ix2 g ⟨k.val, hk⟩) := by
  unfold refZ
  exact concatenate_pair_apply_left 1 p cond concatenates_S64x128_S64x16_S64x144_d1 (ix2 g k) rfl (ix2 g ⟨k.val, hk⟩) (fun b => by
    match b with
    | ⟨0, _⟩ => rfl
    | ⟨1, _⟩ => rfl)

/-- The last 16 columns of the joined features are the condition vector. -/
theorem refZ_right (p : FVec Ideal S64x128 .f32) (cond : FVec Ideal S64x16 .f32) (g : Fin 64) (k : Fin 144) (hk : 128 ≤ k.val) :
    refZ p cond (ix2 g k) = cond (ix2 g ⟨k.val - 128, by have := k.isLt; omega⟩) := by
  unfold refZ
  exact concatenate_pair_apply_right 1 p cond concatenates_S64x128_S64x16_S64x144_d1 (ix2 g k) rfl rfl
    (ix2 g ⟨k.val - 128, by have := k.isLt; omega⟩) (fun b hb => by
      match b with
      | ⟨0, _⟩ => rfl
      | ⟨1, _⟩ => exact absurd rfl hb)
    (by show (k.val - 128) + 128 = k.val; omega)

/-- The head's contraction at a graph and a class: the row of `z` against the column of `linW`. -/
theorem headDot_apply (z : FVec Ideal S64x144 .f32) (linW : FVec Ideal S144x2 .f32) (g : Fin 64) (c' : Fin 2) :
    Host.dotGeneral dot_S64x144_S144x2_S64x2_1_0_0_1_n_n none z linW (ix2 g c') = ∑ k : Fin 144, z (ix2 g k) * linW (ix2 k c') := by
  unfold Host.dotGeneral
  rw [Ideal.dotGeneral_apply]
  refine Fintype.sum_equiv (contrEquiv1 dot_S64x144_S144x2_S64x2_1_0_0_1_n_n 144 rfl rfl) _ _ fun q => ?_
  have el : dot_S64x144_S144x2_S64x2_1_0_0_1_n_n.lhsIdx (ix2 g c') q
      = ix2 g (contrEquiv1 dot_S64x144_S144x2_S64x2_1_0_0_1_n_n 144 rfl rfl q) := funext fun a => Fin.ext (by
    match a with
    | ⟨0, _⟩ => exact lhs_main_v128_0 _ _
    | ⟨1, _⟩ => exact lhs_main_v128_1 _ _)
  have er : dot_S64x144_S144x2_S64x2_1_0_0_1_n_n.rhsIdx (ix2 g c') q
      = ix2 (contrEquiv1 dot_S64x144_S144x2_S64x2_1_0_0_1_n_n 144 rfl rfl q) c' := funext fun a => Fin.ext (by
    match a with
    | ⟨0, _⟩ => exact rhs_main_v128_0 _ _
    | ⟨1, _⟩ => exact rhs_main_v128_1 _ _)
  rw [el, er]

/-- The head's bias does not depend on the graph. -/
theorem refLinbB_apply (linb : FVec Ideal S2 .f32) (g : Fin 64) (c' : Fin 2) : refLinbB linb (ix2 g c') = linb (ix1 c') := by
  unfold refLinbB
  rw [broadcastInDim_apply _ bcast_S1x2_S64x2_0_1 _ (ix2 g c') (ix2 (0 : Fin 1) c') (fun a => by
        match a with
        | ⟨0, _⟩ => exact (if_pos rfl).symm
        | ⟨1, _⟩ => exact (if_neg (by decide : ¬ (2 : Nat) = 1)).symm),
      broadcastInDim_apply _ bcast_S2_S1x2_1 _ (ix2 (0 : Fin 1) c') (ix1 c') (fun a => by
        match a with
        | ⟨0, _⟩ => exact (if_neg (by decide : ¬ (2 : Nat) = 1)).symm)]

/-- The head at a graph and a class. -/
theorem refHead_apply (z : FVec Ideal S64x144 .f32) (linW : FVec Ideal S144x2 .f32) (linb : FVec Ideal S2 .f32) (g : Fin 64) (c' : Fin 2) :
    refHead z linW linb (ix2 g c') = (∑ k : Fin 144, z (ix2 g k) * linW (ix2 k c')) + linb (ix1 c') := by
  unfold refHead
  rw [addf_apply, headDot_apply, refLinbB_apply]

/-- The divisor of the mean at a graph: its node count, at least one. -/
theorem refDenB_apply (batch : IVec S50000 32) (g : Fin 64) (f : Fin 128) :
    refDenB batch (ix2 g f) = max (refCounts batch (ix1 g)) (Ideal.ofBits .f32 0x3F800000#32) := by
  unfold refDenB
  rw [broadcastInDim_apply _ bcast_S64x1_S64x128_0_1 _ (ix2 g f) (ix2 g (0 : Fin 1)) (fun a => by
        match a with
        | ⟨0, _⟩ => exact (if_neg (by decide : ¬ (64 : Nat) = 1)).symm
        | ⟨1, _⟩ => exact (if_pos rfl).symm),
      broadcastInDim_apply _ bcast_S64_S64x1_0 _ (ix2 g (0 : Fin 1)) (ix1 g) (fun a => by
        match a with
        | ⟨0, _⟩ => exact (if_neg (by decide : ¬ (64 : Nat) = 1)).symm)]
  rw [maximumf_apply, splat_apply]

/-- The mean at a graph and a feature. -/
theorem refPooled_apply (h : FVec Ideal S50000x128 .f32) (batch : IVec S50000 32) (g : Fin 64) (f : Fin 128) :
    refPooled h batch (ix2 g f) = Ideal.div (refSums h batch (ix2 g f)) (max (refCounts batch (ix1 g)) (Ideal.ofBits .f32 0x3F800000#32)) := by
  unfold refPooled
  rw [hostDivf_apply, refDenB_apply]

end Cert.RefVal

end
-- ==== Proof.Math.Laws.lean ====
import Mathlib.Data.EReal.Basic
import Mathlib.Data.EReal.Operations
import Mathlib.Algebra.BigOperators.Fin
import Mathlib.Algebra.BigOperators.Intervals
import Mathlib.Analysis.SpecialFunctions.Pow.Real

/-!
# Extended-real algebra for finite values

On the extended reals multiplication does not distribute over addition at the infinities.
Every law below is therefore stated for *finite* values: extended reals that are the image of a
real number.  Finite values are closed under the field operations and finite sums, and on them
the extended-real operations agree with the real ones, so each identity is the image of an
identity of real numbers.

The second half holds in any commutative additive monoid and is stated for the extended reals:
re-indexing of finite sums (a one-hot weight selects a subset; a range of `m * n` indices is
`m` tiles of `n`; a range of `a + b` indices splits into its first `a` and last `b`), and the
closed form of a running accumulator.
-/

namespace Cert.Math

open Finset

/-- An extended real is finite when it is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two finite values is one of them. -/
theorem IsReal.max {x y : EReal} (hx : IsReal x) (hy : IsReal y) : IsReal (max x y) := by
  rcases le_total x y with h | h
  · rw [max_eq_right h]; exact hy
  · rw [max_eq_left h]; exact hx

theorem IsReal.neg {x : EReal} (hx : IsReal x) : IsReal (-x) := by
  obtain ⟨a, rfl⟩ := hx
  exact ⟨-a, EReal.coe_neg a⟩

theorem IsReal.sub {x y : EReal} (hx : IsReal x) (hy : IsReal y) : IsReal (x - y) := by
  obtain ⟨a, rfl⟩ := hx
  obtain ⟨b, rfl⟩ := hy
  exact ⟨a - b, EReal.coe_sub a b⟩

theorem IsReal.ite {c : Prop} [Decidable c] {x y : EReal} (hx : IsReal x) (hy : IsReal y) :
    IsReal (if c then x else y) := by
  split_ifs
  · exact hx
  · exact hy

/-- A finite sum of finite values is finite: induction on the index set. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add
      (ih fun i hi => h i (Finset.mem_insert_of_mem hi))

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- The finite values are exactly the extended reals other than the two infinities. -/
theorem isReal_iff {x : EReal} : IsReal x ↔ x ≠ ⊤ ∧ x ≠ ⊥ :=
  ⟨fun h => ⟨h.ne_top, h.ne_bot⟩, fun h => ⟨x.toReal, (EReal.coe_toReal h.1 h.2).symm⟩⟩

/-- A finite value is the image of its real part. -/
theorem IsReal.coe_toReal {x : EReal} (hx : IsReal x) : ((x.toReal : ℝ) : EReal) = x :=
  EReal.coe_toReal hx.ne_top hx.ne_bot

/-- The embedding of the reals commutes with finite sums: induction on the index set. -/
theorem coe_sum {ι : Type*} (s : Finset ι) (g : ι → ℝ) :
    ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of products of finite values is the image of the real sum of the real products. -/
theorem sum_mul_eq_coe {υ : Type*} (J : Finset υ) (u v : υ → EReal)
    (hu : ∀ j ∈ J, IsReal (u j)) (hv : ∀ j ∈ J, IsReal (v j)) :
    ∑ j ∈ J, u j * v j = ((∑ j ∈ J, (u j).toReal * (v j).toReal : ℝ) : EReal) := by
  rw [coe_sum]
  refine Finset.sum_congr rfl fun j hj => ?_
  rw [EReal.coe_mul, (hu j hj).coe_toReal, (hv j hj).coe_toReal]

/-- **The layer law.**  With every term finite, multiplying the neighbour sum plus the self term
by the destination's normaliser `d` is the same as multiplying each summand by it:
`d * (Σ yg·dsrc + yi·d) = Σ yg·(dsrc·d) + yi·(d·d)`.  Both sides are images of real
expressions, and over the reals this is distributivity. -/
theorem layer_law {υ : Type*} (J : Finset υ) (yg dsrc : υ → EReal) (d yi b : EReal)
    (hyg : ∀ j ∈ J, IsReal (yg j)) (hds : ∀ j ∈ J, IsReal (dsrc j)) (hd : IsReal d)
    (hyi : IsReal yi) :
    d * ((0 + ∑ j ∈ J, yg j * dsrc j) + yi * d) + b
      = ((0 + ∑ j ∈ J, yg j * (dsrc j * d)) + yi * (d * d)) + b := by
  obtain ⟨d', rfl⟩ := hd
  obtain ⟨yi', rfl⟩ := hyi
  -- the neighbour sum on either side, as the image of a real sum
  have h1 := sum_mul_eq_coe J yg dsrc hyg hds
  have h2 : ∑ j ∈ J, yg j * (dsrc j * (d' : EReal))
      = ((∑ j ∈ J, (yg j).toReal * ((dsrc j).toReal * d') : ℝ) : EReal) := by
    rw [coe_sum]
    refine Finset.sum_congr rfl fun j hj => ?_
    rw [EReal.coe_mul, EReal.coe_mul, (hyg j hj).coe_toReal, (hds j hj).coe_toReal]
  -- distributivity over the reals
  have key : d' * (∑ j ∈ J, (yg j).toReal * (dsrc j).toReal + yi' * d')
      = ∑ j ∈ J, (yg j).toReal * ((dsrc j).toReal * d') + yi' * (d' * d') := by
    rw [mul_add, Finset.mul_sum]
    congr 1
    · exact Finset.sum_congr rfl fun j _ => by ring
    · ring
  rw [h1, h2, zero_add, zero_add, ← EReal.coe_mul, ← EReal.coe_mul, ← EReal.coe_mul,
    ← EReal.coe_add, ← EReal.coe_add, ← EReal.coe_mul, key]

theorem layer_isReal_left {υ : Type*} (J : Finset υ) (yg dsrc : υ → EReal) (d yi b : EReal)
    (hyg : ∀ j ∈ J, IsReal (yg j)) (hds : ∀ j ∈ J, IsReal (dsrc j)) (hd : IsReal d)
    (hyi : IsReal yi) (hb : IsReal b) :
    IsReal (d * ((0 + ∑ j ∈ J, yg j * dsrc j) + yi * d) + b) :=
  (hd.mul ((IsReal.zero.add (IsReal.sum J _ fun j hj => (hyg j hj).mul (hds j hj))).add
    (hyi.mul hd))).add hb

theorem layer_isReal_right {υ : Type*} (J : Finset υ) (yg dsrc : υ → EReal) (d yi b : EReal)
    (hyg : ∀ j ∈ J, IsReal (yg j)) (hds : ∀ j ∈ J, IsReal (dsrc j)) (hd : IsReal d)
    (hyi : IsReal yi) (hb : IsReal b) :
    IsReal (((0 + ∑ j ∈ J, yg j * (dsrc j * d)) + yi * (d * d)) + b) :=
  ((IsReal.zero.add (IsReal.sum J _ fun j hj => (hyg j hj).mul ((hds j hj).mul hd))).add
    (hyi.mul (hd.mul hd))).add hb

/-- Both sides of the layer law are finite when the bias is. -/
theorem layer_isReal {υ : Type*} (J : Finset υ) (yg dsrc : υ → EReal) (d yi b : EReal)
    (hyg : ∀ j ∈ J, IsReal (yg j)) (hds : ∀ j ∈ J, IsReal (dsrc j)) (hd : IsReal d)
    (hyi : IsReal yi) (hb : IsReal b) :
    IsReal (d * ((0 + ∑ j ∈ J, yg j * dsrc j) + yi * d) + b) ∧
      IsReal (((0 + ∑ j ∈ J, yg j * (dsrc j * d)) + yi * (d * d)) + b) :=
  ⟨layer_isReal_left J yg dsrc d yi b hyg hds hd hyi hb,
    layer_isReal_right J yg dsrc d yi b hyg hds hd hyi hb⟩

/-- A one-hot weighted sum is the sum over the selected indices: a weight `1` keeps its term,
a weight `0` annihilates it (`0 * x = 0` for every extended real `x`, infinite ones included). -/
theorem onehot_sum {ρ : Type*} [Fintype ρ] (p : ρ → Prop) [DecidablePred p] (h : ρ → EReal) :
    ∑ r, (if p r then (1 : EReal) else 0) * h r = ∑ r ∈ Finset.univ.filter p, h r := by
  rw [Finset.sum_filter]
  exact Finset.sum_congr rfl fun r _ => boole_mul (p r) (h r)

/-- A sum over `m * n` indices is the sum over `m` tiles of `n` offsets, the index of offset `q`
in tile `t` being `q + n * t`: the pairs `(t, q)` enumerate the indices bijectively. -/
theorem sum_fin_mul {M : Type*} [AddCommMonoid M] (m n : ℕ) (f : Fin (m * n) → M) :
    ∑ r, f r = ∑ t : Fin m, ∑ q : Fin n, f (finProdFinEquiv (t, q)) := by
  rw [← Fintype.sum_prod_type fun p : Fin m × Fin n => f (finProdFinEquiv p)]
  exact (Fintype.sum_equiv finProdFinEquiv _ _ fun _ => rfl).symm

/-- 50000 rows are 10 tiles of 5000 rows, row `= tile * 5000 + offset`. -/
theorem sum_tiles (f : Fin 50000 → EReal) :
    ∑ r : Fin 50000, f r
      = ∑ t : Fin 10, ∑ q : Fin 5000, f ⟨t.val * 5000 + q.val, by omega⟩ := by
  rw [sum_fin_mul 10 5000 f]
  refine Finset.sum_congr rfl fun t _ => Finset.sum_congr rfl fun q _ => congrArg f ?_
  apply Fin.ext
  rw [finProdFinEquiv_apply_val]
  exact (Nat.add_comm _ _).trans (congrArg (· + q.val) (Nat.mul_comm _ _))

/-- An accumulator started at `a 0` and increased by `T n` at step `n` holds, after `N` steps,
`a 0` plus the sum of the first `N` increments. -/
theorem acc_eq_sum (a : ℕ → EReal) (T : ℕ → EReal) (h : ∀ n, a (n + 1) = a n + T n) (N : ℕ) :
    a N = a 0 + ∑ n ∈ Finset.range N, T n := by
  induction N with
  | zero => rw [Finset.range_zero, Finset.sum_empty, add_zero]
  | succ N ih => rw [h N, ih, Finset.sum_range_succ, add_assoc]

/-- A sum over 144 = 128 + 16 indices is the sum over the first 128 plus the sum over the
last 16. -/
theorem sum_split_144 (f : Fin 144 → EReal) :
    ∑ k : Fin 144, f k
      = (∑ k : Fin 128, f ⟨k.val, by omega⟩) + ∑ k : Fin 16, f ⟨128 + k.val, by omega⟩ :=
  Fin.sum_univ_add (a := 128) (b := 16) f

/-- A real power of a real number is a real number, hence finite as an extended real. -/
theorem isReal_rpow (x y : ℝ) : IsReal ((Real.rpow x y : ℝ) : EReal) := ⟨Real.rpow x y, rfl⟩

end Cert.Math
-- ==== Proof.Val.Finite.lean ====
/-
  From the precondition to real numbers. The precondition says that, for each of the twelve float argument
  arrays, the reduction by `and` of the entrywise test |a| < +∞ is one. An entry of an array of extended reals
  whose absolute value max a (-a) lies strictly below +∞ is neither +∞ nor -∞, hence a real number. One lemma
  states this for an array of any shape; it is used once per argument array.
-/
import proofs.«427340_j652835029230_2_alg».proof.Defs
import proofs.«427340_j652835029230_2_alg».proof.Proof.Math.Laws
import Idealize.ShloMosaic.Lib.ReduceAll
import Idealize.ShloMosaic.Lib.ValueIdx
import Mathlib.Data.EReal.Basic

noncomputable section

namespace Cert.FinVal

open Idealize.ShloMosaic Idealize.SL.Sem
open Cert.Pre_finite_inputs (S_)
open Cert.Math (IsReal)

/-- The shape of a scalar has exactly one index. -/
instance : Subsingleton S_.Idx := ⟨fun a b => funext fun d => d.elim0⟩

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is strictly below +∞ is a real number:
    at -∞ the absolute value is max (-∞) (+∞) = +∞, at +∞ it is +∞, and neither is below +∞. -/
theorem isReal_of_abs_lt_top (x : EReal) (h : max x (-x) < ⊤) : IsReal x := by
  induction x using EReal.rec with
  | bot => simp at h
  | coe r => exact ⟨r, rfl⟩
  | top => simp at h

/-- An all-finite reduction being one means every entry is real: for an array `x` of any shape, if the
    reduction by `and` (from one) of the entrywise test |x| < +∞ is one, every entry of `x` is a real number.
    The reduction being one gives the test one at each entry `i`; the test at `i` compares max (x i) (-(x i))
    with the scalar +∞ broadcast to the shape; were the strict inequality false the test would be zero. -/
theorem isReal_of_all_finite {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant S_ .f32 0x7F800000#32)))
          (constantI S_ 1 1#1) hr hu j = 1#1)
    (i : s.Idx) : IsReal (x i) := by
  have hi := Host.reduce_andi_all _ _ hr hu j e i
  change Ideal.cmp .olt (max (x i) (-(x i))) (Ideal.ofBits .f32 0x7F800000#32) = 1#1 at hi
  rw [ofBits_inf] at hi
  have hlt : max (x i) (-x i) < ⊤ := by
    by_contra hn
    have h0 : Ideal.cmp .olt (max (x i) (-x i)) ⊤ = 0#1 := by
      show BitVec.ofBool (decide (max (x i) (-x i) < ⊤)) = 0#1
      rw [decide_eq_false hn]; rfl
    rw [h0] at hi
    exact absurd hi (by decide)
  exact isReal_of_abs_lt_top _ hlt

/-- The entrywise `and` of two one-bit arrays is one at an index exactly when both are. -/
theorem andi_apply_eq_one {s : Shape} (a b : IVec s 1) (j : s.Idx) :
    andi a b j = 1#1 ↔ a j = 1#1 ∧ b j = 1#1 := IntOp.andi_eq_one

/-- Under the precondition every entry of each of the twelve float argument arrays is a real number.
    The precondition at its one index is a left-nested conjunction of twelve reductions, one per array. -/
theorem reals_of_pre
    (m : (ℓ : Loc Cert.KernelIdeal.nD Cert.KernelIdeal.τ Cert.KernelIdeal.sig) → Buf (Elt Ideal) ℓ)
    [Cert.Pre_finite_inputs.Facts] (h : Cert.Pre_KernelIdeal m) (c : Dev Cert.KernelIdeal.nD) :
      (∀ i, IsReal (m ((c.tc : Thread Cert.KernelIdeal.nD Cert.KernelIdeal.τ).loc Cert.KernelIdeal.main_arg0) i)) ∧
      (∀ i, IsReal (m ((c.tc : Thread Cert.KernelIdeal.nD Cert.KernelIdeal.τ).loc Cert.KernelIdeal.main_arg1) i)) ∧
      (∀ i, IsReal (m ((c.tc : Thread Cert.KernelIdeal.nD Cert.KernelIdeal.τ).loc Cert.KernelIdeal.main_arg2) i)) ∧
      (∀ i, IsReal (m ((c.tc : Thread Cert.KernelIdeal.nD Cert.KernelIdeal.τ).loc Cert.KernelIdeal.main_arg3) i)) ∧
      (∀ i, IsReal (m ((c.tc : Thread Cert.KernelIdeal.nD Cert.KernelIdeal.τ).loc Cert.KernelIdeal.main_arg4) i)) ∧
      (∀ i, IsReal (m ((c.tc : Thread Cert.KernelIdeal.nD Cert.KernelIdeal.τ).loc Cert.KernelIdeal.main_arg5) i)) ∧
      (∀ i, IsReal (m ((c.tc : Thread Cert.KernelIdeal.nD Cert.KernelIdeal.τ).loc Cert.KernelIdeal.main_arg6) i)) ∧
      (∀ i, IsReal (m ((c.tc : Thread Cert.KernelIdeal.nD Cert.KernelIdeal.τ).loc Cert.KernelIdeal.main_arg7) i)) ∧
      (∀ i, IsReal (m ((c.tc : Thread Cert.KernelIdeal.nD Cert.KernelIdeal.τ).loc Cert.KernelIdeal.main_arg8) i)) ∧
      (∀ i, IsReal (m ((c.tc : Thread Cert.KernelIdeal.nD Cert.KernelIdeal.τ).loc Cert.KernelIdeal.main_arg9) i)) ∧
      (∀ i, IsReal (m ((c.tc : Thread Cert.KernelIdeal.nD Cert.KernelIdeal.τ).loc Cert.KernelIdeal.main_arg10) i)) ∧
      (∀ i, IsReal (m ((c.tc : Thread Cert.KernelIdeal.nD Cert.KernelIdeal.τ).loc Cert.KernelIdeal.main_arg11) i)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  simp only [andi_apply_eq_one] at h0
  obtain ⟨⟨⟨⟨⟨⟨⟨⟨⟨⟨⟨h0, h1⟩, h2⟩, h3⟩, h4⟩, h5⟩, h6⟩, h7⟩, h8⟩, h9⟩, h10⟩, h11⟩ := h0
  exact ⟨fun i => isReal_of_all_finite _ _ _ _ _ h0 i,
    fun i => isReal_of_all_finite _ _ _ _ _ h1 i,
    fun i => isReal_of_all_finite _ _ _ _ _ h2 i,
    fun i => isReal_of_all_finite _ _ _ _ _ h3 i,
    fun i => isReal_of_all_finite _ _ _ _ _ h4 i,
    fun i => isReal_of_all_finite _ _ _ _ _ h5 i,
    fun i => isReal_of_all_finite _ _ _ _ _ h6 i,
    fun i => isReal_of_all_finite _ _ _ _ _ h7 i,
    fun i => isReal_of_all_finite _ _ _ _ _ h8 i,
    fun i => isReal_of_all_finite _ _ _ _ _ h9 i,
    fun i => isReal_of_all_finite _ _ _ _ _ h10 i,
    fun i => isReal_of_all_finite _ _ _ _ _ h11 i⟩

end Cert.FinVal

end
-- ==== Proof.Val.Tile.lean ====
/- The first four regions' bodies work on one tile of 5000 rows by 128 lanes. Here: the two closed forms the regions'
   output arrays are shown to equal, row by row,
     G0:   out[r, f] = (Σ_k x[r, k] * w[k, f]) * d[r]
     G13:  out[r, f] = (Σ_k max (d[r] * (agg[r, k] + ys[r, k]) + b[k]) 0 * w[k, f]) * d[r]
   and the tile's operations that are not pointwise, read at one element (p, q) at the ideal values: the matrix product
   with the 128 x 128 weights into a zero accumulator is the 128-long sum of products (the narrowing of its operands is
   the identity on extended reals); a 5000 x 1 column laid along the lanes reads its row's entry; a 1 x 128 row laid along
   the rows reads its lane's entry. Last, G13 at an index from reads that are known to land on that index's row and
   column, stated over plain index functions so that the regions use it without rewriting under the sum. -/
import proofs.«427340_j652835029230_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx

/-! ## The closed forms -/

/-- Region 0's array: row r of the features times the weights, scaled by the normaliser's entry r. -/
def G0 (x : Vec Ideal S50000x128 .f32) (w : Vec Ideal S128x128 .f32) (d : Vec Ideal S50000x1 .f32) : Vec Ideal S50000x128 .f32 :=
  fun i => (∑ k : Fin 128, x (ix2 (i 0) k) * w (ix2 k (i 1))) * d (ix2 (i 0) 0)

/-- Regions 1-3's array: row r of h = max (d r * (agg + ys) + b) 0 times the weights, scaled by the normaliser's entry r. -/
def G13 (agg ys : Vec Ideal S50000x128 .f32) (d : Vec Ideal S50000x1 .f32) (b : Vec Ideal S1x128 .f32) (w : Vec Ideal S128x128 .f32) :
    Vec Ideal S50000x128 .f32 :=
  fun i => (∑ k : Fin 128, max (d (ix2 (i 0) 0) * (agg (ix2 (i 0) k) + ys (ix2 (i 0) k)) + b (ix2 0 k)) (0 : EReal) * w (ix2 k (i 1))) * d (ix2 (i 0) 0)

/-! ## The operations that are not pointwise, read at one element of the tile -/

theorem zero_offsets : (![0, 0] : Fin 2 → Nat) = fun _ => 0 := funext fun a => by
  match a with
  | ⟨0, _⟩ => rfl
  | ⟨1, _⟩ => rfl

/-- The tile's matrix product contracts the left operand's axis 1 with the right operand's axis 0: at output (r, f) and
    contraction coordinate k the left operand is read at (r, k) -/
theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and the right at (k, f). -/
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's matrix product into the zero accumulator, at (p, q): the 128-long sum of products. -/
theorem matmul_tile_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-- A column laid along the tile's 128 lanes reads its row's entry. -/
theorem bcast_col_apply {α : Type} (d : S5000x1.Idx → α) (p : Fin 5000) (q : Fin 128) :
    broadcastTo S5000x128 d broadcasts_S5000x1_S5000x128 (ix2 p q) = d (ix2 p 0) :=
  broadcastTo_apply d broadcasts_S5000x1_S5000x128 (ix2 p q) (ix2 p 0) fun a => by
    match a with
    | ⟨0, _⟩ => show p.val = if (5000 : Nat) = 1 then 0 else p.val; rw [if_neg (by decide)]
    | ⟨1, _⟩ => show (0 : Nat) = if (1 : Nat) = 1 then 0 else q.val; rw [if_pos rfl]

/-- A row laid along the tile's 5000 rows reads its lane's entry. -/
theorem bcast_row_apply {α : Type} (b : S1x128.Idx → α) (p : Fin 5000) (q : Fin 128) :
    broadcastTo S5000x128 b broadcasts_S1x128_S5000x128 (ix2 p q) = b (ix2 0 q) :=
  broadcastTo_apply b broadcasts_S1x128_S5000x128 (ix2 p q) (ix2 0 q) fun a => by
    match a with
    | ⟨0, _⟩ => show (0 : Nat) = if (1 : Nat) = 1 then 0 else p.val; rw [if_pos rfl]
    | ⟨1, _⟩ => show q.val = if (128 : Nat) = 1 then 0 else q.val; rw [if_neg (by decide)]

/-- `G13` at an index i from its operands read wherever the reads are known to land: on row i 0 of the row-tiled arrays,
    on the bias row, and on column i 1 of the weights. -/
theorem G13_of_reads (A Y : Vec Ideal S50000x128 .f32) (Dv : Vec Ideal S50000x1 .f32) (B : Vec Ideal S1x128 .f32) (W : Vec Ideal S128x128 .f32)
    (i : S50000x128.Idx) (ea ey : Fin 128 → S50000x128.Idx) (ed : S50000x1.Idx) (eb : Fin 128 → S1x128.Idx) (ew : Fin 128 → S128x128.Idx)
    (ha : ∀ k, ea k = ix2 (i 0) k) (hy : ∀ k, ey k = ix2 (i 0) k) (hd : ed = ix2 (i 0) (0 : Fin 1))
    (hb : ∀ k, eb k = ix2 (0 : Fin 1) k) (hw : ∀ k, ew k = ix2 k (i 1)) :
    (∑ k : Fin 128, max (Dv ed * (A (ea k) + Y (ey k)) + B (eb k)) (0 : EReal) * W (ew k)) * Dv ed = G13 A Y Dv B W i := by
  unfold G13
  simp only [ha, hy, hd, hb, hw]
  rfl

end Cert.KernelIdeal.Val

end
-- ==== Proof.Val.Reg0.lean ====
/- The array region 0 leaves, in closed form at the ideal values. The region runs over ten row tiles; at tile t the
   body stores one whole tile, (x_t · w) scaled row by row by d_t, where x_t and d_t are rows 5000 t … 5000 t + 4999 of
   the features and of the normaliser and w is the whole weight matrix, and the tile is written back to the same rows
   of the output. So the ten tiles are the restrictions of one function of the arrays the region finds,
     out[r, f] = (Σ_k x[r, k] * w[k, f]) * d[r].
   First the stored tile at one element; then the printed block index maps over the grid; then the tile written back
   at t as block t of the closed form (each input block read at the rows the output block names); then every row is in
   the block of tile r / 5000. -/
import proofs.«427340_j652835029230_2_alg».proof.Proof.KI.Reg0
import proofs.«427340_j652835029230_2_alg».proof.Proof.Val.Tile

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's stored tile at one element -/

/-- Region 0's tile at (p, q). -/
theorem pay0_apply (x : Vec Ideal S5000x128 .f32) (w : Vec Ideal S128x128 .f32) (d : Vec Ideal S5000x1 .f32) (p : Fin 5000) (q : Fin 128) :
    k0_pay1 x w d (ix2 p q) = (∑ k : Fin 128, x (ix2 p k) * w (ix2 k q)) * d (ix2 p 0) := by
  unfold k0_pay1
  rw [mulf_apply, matmul_tile_apply, shapeCast_self, bcast_col_apply]
  rfl

/-! ## Region 0: the tile written back at t is block t of G0, and the ten blocks fill the array -/

/-- The printed index maps over the ten tiles: the row-tiled windows sit at block row t, block column 0; the weights at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What tile t writes back is block t of `G0` of the arrays the region finds: each input block is read at the rows
    (or, for the weights, the whole array) that the output block's rows name. -/
theorem flushed0_eq (c : Dev nD) (t : Fin cfg0.N) :
    (dat0 (F := Ideal) V c).flushed 3 t
      = ((cfg0.win 3).blk t).view.read (Elt Ideal) (G0 (V c main_arg0) (V c main_arg2) (V c main_v12)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨e00, e01, e10, e11, e20, e21, e30, e31⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = G0 (V c main_arg0) (V c main_arg2) (V c main_v12) (((cfg0.win 3).blk t).view.emb (ix2 p q))
  rw [pay0_apply]
  unfold G0
  have hx : ∀ k : Fin 128, ((cfg0.win 0).blk t).view.emb (ix2 p k)
      = (ix2 ((((cfg0.win 3).blk t).view.emb (ix2 p q) : S50000x128.Idx) 0) k : S50000x128.Idx) := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hw : ∀ k : Fin 128, ((cfg0.win 1).blk t).view.emb (ix2 k q)
      = (ix2 k ((((cfg0.win 3).blk t).view.emb (ix2 p q) : S50000x128.Idx) 1) : S128x128.Idx) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hd : ((cfg0.win 2).blk t).view.emb (ix2 p (0 : Fin 1))
      = (ix2 ((((cfg0.win 3).blk t).view.emb (ix2 p q) : S50000x128.Idx) 0) (0 : Fin 1) : S50000x1.Idx) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  have key : ∀ (X : Vec Ideal S50000x128 .f32) (W : Vec Ideal S128x128 .f32) (Dv : Vec Ideal S50000x1 .f32),
      (∑ k : Fin 128, X (((cfg0.win 0).blk t).view.emb (ix2 p k)) * W (((cfg0.win 1).blk t).view.emb (ix2 k q)))
          * Dv (((cfg0.win 2).blk t).view.emb (ix2 p (0 : Fin 1)))
        = (∑ k : Fin 128, X (ix2 ((((cfg0.win 3).blk t).view.emb (ix2 p q) : S50000x128.Idx) 0) k)
              * W (ix2 k ((((cfg0.win 3).blk t).view.emb (ix2 p q) : S50000x128.Idx) 1)))
          * Dv (ix2 ((((cfg0.win 3).blk t).view.emb (ix2 p q) : S50000x128.Idx) 0) (0 : Fin 1)) := by
    intro X W Dv
    simp only [hx, hw, hd]
  exact key (V c main_arg0) (V c main_arg2) (V c main_v12)

/-- An index of the array is in tile t's block iff each coordinate is in the block's range on its axis. -/
theorem mem_blk0 (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Row r of the array is in the block of tile r / 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by show (i 0).val / 5000 < 10; omega
  obtain ⟨-, -, -, -, -, -, e30, e31⟩ := idx_facts0 ⟨(i 0).val / 5000, hN⟩
  refine ⟨⟨(i 0).val / 5000, hN⟩, flush0_3 _, ?_⟩
  rw [mem_blk0]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e31]; omega

/-- The array region 0 leaves. -/
theorem final0 (c : Dev nD) : (dat0 (F := Ideal) V c).arrAt 3 cfg0.N = G0 (V c main_arg0) (V c main_arg2) (V c main_v12) :=
  (dat0 (F := Ideal) V c).arrAt_eq_of_cover 3 (G0 (V c main_arg0) (V c main_arg2) (V c main_v12)) (fun t _ => flushed0_eq V c t) cover0

end Cert.KernelIdeal.Val

end
-- ==== Proof.Val.Reg1.lean ====
/- The array region 1 leaves, in closed form at the ideal values. The region runs over ten row tiles; at tile t the
   body forms h = max (d_t * (agg_t + ys_t) + b) 0 from rows 5000 t … 5000 t + 4999 of the neighbour sum, of the scaled
   features and of the normaliser and from the whole bias row, multiplies h by the whole weight matrix and scales row
   r of the product by d_t's entry r; the tile is written back to the same rows of the output. So the ten tiles are the
   restrictions of one function of the arrays the region finds,
     out[r, f] = (Σ_k max (d[r] * (agg[r, k] + ys[r, k]) + b[k]) 0 * w[k, f]) * d[r].
   First the stored tile at one element; then the printed block index maps over the grid; then the tile written back
   at t as block t of the closed form (each input block read at the rows the output block names); then every row is in
   the block of tile r / 5000. -/
import proofs.«427340_j652835029230_2_alg».proof.Proof.KI.Reg1
import proofs.«427340_j652835029230_2_alg».proof.Proof.Val.Tile

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's stored tile at one element -/

/-- Region 1's tile at (p, q): the row of h = max (d * (agg + ys) + b) 0 against the weights' column, scaled. -/
theorem pay1_apply (d : Vec Ideal S5000x1 .f32) (agg ys : Vec Ideal S5000x128 .f32) (b : Vec Ideal S1x128 .f32) (w : Vec Ideal S128x128 .f32)
    (p : Fin 5000) (q : Fin 128) :
    k1_pay1 d agg ys b w (ix2 p q)
      = (∑ k : Fin 128, max (d (ix2 p 0) * (agg (ix2 p k) + ys (ix2 p k)) + b (ix2 0 k)) (0 : EReal) * w (ix2 k q)) * d (ix2 p 0) := by
  unfold k1_pay1
  rw [mulf_apply, matmul_tile_apply, shapeCast_self, bcast_col_apply]
  simp only [truncf_apply, maximumf_apply, addf_apply, mulf_apply, broadcast_apply, shapeCast_self, bcast_col_apply, bcast_row_apply,
    Ideal.ofBits_def, Ideal.ofBits_zero_f32]

/-! ## Region 1: the tile written back at t is block t of G13, and the ten blocks fill the array -/

/-- The printed index maps over the ten tiles: the row-tiled windows sit at block row t, block column 0; the bias row
    and the weights at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What tile t writes back is block t of `G13` of the arrays the region finds: each row-tiled input block is read at
    the rows the output block's rows name, the bias row and the weights whole. -/
theorem flushed1_eq (c : Dev nD) (t : Fin cfg1.N) :
    (dat1 (F := Ideal) V c).flushed 5 t
      = ((cfg1.win 5).blk t).view.read (Elt Ideal) (G13 (V c main_v23) (V c main_v13) (V c main_v12) (V c main_v24) (V c main_arg4)) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  obtain ⟨e00, e01, e10, e11, e20, e21, e30, e31, e40, e41, e50, e51⟩ := idx_facts1 t
  funext j
  obtain ⟨p, q, rfl⟩ : ∃ (p : Fin 5000) (q : Fin 128), j = ix2 p q := ⟨j 0, j 1, eq_ix2 j⟩
  show k1_pay1 (iblk1 V c 2 t) (iblk1 V c 0 t) (iblk1 V c 1 t) (iblk1 V c 3 t) (iblk1 V c 4 t) (ix2 p q)
    = G13 (V c main_v23) (V c main_v13) (V c main_v12) (V c main_v24) (V c main_arg4) (((cfg1.win 5).blk t).view.emb (ix2 p q))
  rw [pay1_apply]
  have ha : ∀ k : Fin 128, ((cfg1.win 0).blk t).view.emb (ix2 p k)
      = (ix2 ((((cfg1.win 5).blk t).view.emb (ix2 p q) : S50000x128.Idx) 0) k : S50000x128.Idx) := fun k => by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have hy : ∀ k : Fin 128, ((cfg1.win 1).blk t).view.emb (ix2 p k)
      = (ix2 ((((cfg1.win 5).blk t).view.emb (ix2 p q) : S50000x128.Idx) 0) k : S50000x128.Idx) := fun k => by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have hd : ((cfg1.win 2).blk t).view.emb (ix2 p (0 : Fin 1))
      = (ix2 ((((cfg1.win 5).blk t).view.emb (ix2 p q) : S50000x128.Idx) 0) (0 : Fin 1) : S50000x1.Idx) := by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have hb : ∀ k : Fin 128, ((cfg1.win 3).blk t).view.emb (ix2 (0 : Fin 1) k) = (ix2 (0 : Fin 1) k : S1x128.Idx) := fun k => by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have hw : ∀ k : Fin 128, ((cfg1.win 4).blk t).view.emb (ix2 k q)
      = (ix2 k ((((cfg1.win 5).blk t).view.emb (ix2 p q) : S50000x128.Idx) 1) : S128x128.Idx) := fun k => by
    funext a; apply Fin.ext
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  exact G13_of_reads (V c main_v23) (V c main_v13) (V c main_v12) (V c main_v24) (V c main_arg4) (((cfg1.win 5).blk t).view.emb (ix2 p q))
    (fun k => ((cfg1.win 0).blk t).view.emb (ix2 p k)) (fun k => ((cfg1.win 1).blk t).view.emb (ix2 p k))
    (((cfg1.win 2).blk t).view.emb (ix2 p (0 : Fin 1))) (fun k => ((cfg1.win 3).blk t).view.emb (ix2 (0 : Fin 1) k))
    (fun k => ((cfg1.win 4).blk t).view.emb (ix2 k q)) ha hy hd hb hw

/-- An index of the array is in tile t's block iff each coordinate is in the block's range on its axis. -/
theorem mem_blk1 (t : Fin cfg1.N) (i : S50000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Row r of the array is in the block of tile r / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by show (i 0).val / 5000 < 10; omega
  obtain ⟨-, -, -, -, -, -, -, -, -, -, e50, e51⟩ := idx_facts1 ⟨(i 0).val / 5000, hN⟩
  refine ⟨⟨(i 0).val / 5000, hN⟩, flush1_5 _, ?_⟩
  rw [mem_blk1]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e51]; omega

/-- The array region 1 leaves. -/
theorem final1 (c : Dev nD) : (dat1 (F := Ideal) V c).arrAt 5 cfg1.N = G13 (V c main_v23) (V c main_v13) (V c main_v12) (V c main_v24) (V c main_arg4) :=
  (dat1 (F := Ideal) V c).arrAt_eq_of_cover 5 (G13 (V c main_v23) (V c main_v13) (V c main_v12) (V c main_v24) (V c main_arg4))
    (fun t _ => flushed1_eq V c t) cover1

end Cert.KernelIdeal.Val

end
-- ==== Proof.Val.Reg03.lean ====
/- The arrays the first four regions leave, in closed form at the ideal values: `final0` (region 0, `G0`) and
   `final1`, `final2`, `final3` (regions 1-3, `G13`), one module per region. -/
import proofs.«427340_j652835029230_2_alg».proof.Proof.Val.Reg0
import proofs.«427340_j652835029230_2_alg».proof.Proof.Val.Reg1
import proofs.«427340_j652835029230_2_alg».proof.Proof.Val.Reg2
import proofs.«427340_j652835029230_2_alg».proof.Proof.Val.Reg3
-- ==== Proof.Val.Kernel0.lean ====
/- The kernel program's buffers as functions of its arguments, at the ideal values: the edge chain (sources,
   destinations, degrees, the inverse square roots of the degrees), the gathered rows and their sums at the
   destinations, the reshaped biases, and the four layers' arrays. The program alternates host stretches and kernel
   regions. A host stretch's result at a reference it writes is its operations' term over what the previous boundary
   held; a reference it does not write keeps its contents. A region leaves its output array at its closed form over the
   arrays it found, its input arrays and every other buffer as entered. So each buffer a later stage reads is followed
   boundary by boundary from where it was written to where it is read. -/
import proofs.«427340_j652835029230_2_alg».proof.Proof.KI.Run
import proofs.«427340_j652835029230_2_alg».proof.Proof.Val.Reg03
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

/-! ## The stages -/

/-- The sources of the edges: row 0 of the edge list. -/
def kSrc (edge : IVec S2x800000 32) : IVec S800000 32 :=
  shapeCast _ (extractStridedSlice S1x800000 ![0, 0] edge slices_S2x800000_S1x800000_0_0) shapeCasts_S1x800000_S800000

/-- The destinations of the edges: row 1 of the edge list. -/
def kDst (edge : IVec S2x800000 32) : IVec S800000 32 :=
  shapeCast _ (extractStridedSlice S1x800000 ![1, 0] edge slices_S2x800000_S1x800000_1_0) shapeCasts_S1x800000_S800000

/-- A node index normalised for a gather: a negative one counts from the end. -/
def kWrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A list of node indices as the one-column index array a gather or a scatter takes. -/
def kCol (v : IVec S800000 32) : IVec S800000x1 32 :=
  broadcastInDim S800000x1 ![0] bcast_S800000_S800000x1_0 v

/-- The degrees with self loops: one plus the number of edges arriving at each node. -/
def kDeg (edge : IVec S2x800000 32) : FVec Ideal S50000 .f32 :=
  addf (Host.scatterAdd scatter_S50000_S800000x1_S800000_n_0_0_1
      (broadcastInDim S50000 ![] bcast_S_S50000 (constant S_ .f32 0x00000000#32))
      (kCol (kDst edge))
      (broadcastInDim S800000 ![] bcast_S_S800000 (constant S_ .f32 0x3F800000#32)))
    (broadcastInDim S50000 ![] bcast_S_S50000 (constant S_ .f32 0x3F800000#32))

/-- The inverse square roots of the degrees. -/
def kDis (edge : IVec S2x800000 32) : FVec Ideal S50000 .f32 :=
  Host.powf (kDeg edge) (broadcastInDim S50000 ![] bcast_S_S50000 (constant S_ .f32 0xBF000000#32))

/-- The inverse square roots of the degrees as one column: what every region reads as its normaliser. -/
def kDisCol (edge : IVec S2x800000 32) : FVec Ideal S50000x1 .f32 :=
  shapeCast _ (kDis edge) shapeCasts_S50000_S50000x1

/-- The rows of `y` at the edges' sources. -/
def kRows (edge : IVec S2x800000 32) (y : FVec Ideal S50000x128 .f32) : FVec Ideal S800000x128 .f32 :=
  Host.gather gather_S50000x128_S800000x1_S800000x128_1_0_n_n_0_1_1128 y (kCol (kWrap (kSrc edge)))

/-- The gathered rows summed at the edges' destinations. -/
def kAgg (edge : IVec S2x800000 32) (ys : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (kCol (kDst edge))
    (kRows edge ys)

/-- A bias as one row. -/
def kB (b : FVec Ideal S128 .f32) : FVec Ideal S1x128 .f32 := shapeCast _ b shapeCasts_S128_S1x128

/-- The graph of each node as one column. -/
def kBatchCol (batch : IVec S50000 32) : IVec S50000x1 32 := shapeCast _ batch shapeCasts_S50000_S50000x1

/-- The head's bias as one row. -/
def kLinb (linb : FVec Ideal S2 .f32) : FVec Ideal S1x2 .f32 := shapeCast _ linb shapeCasts_S2_S1x2

/-- The first layer's array: the features through the weights, scaled by the normaliser. -/
def kY1 (x : FVec Ideal S50000x128 .f32) (w1 : FVec Ideal S128x128 .f32) (edge : IVec S2x800000 32) : FVec Ideal S50000x128 .f32 :=
  G0 x w1 (kDisCol edge)

/-- A later layer's array from the previous one: combine the neighbour sums with the previous array, rectify, through
    the weights, scaled by the normaliser. -/
def kYnext (edge : IVec S2x800000 32) (ys : FVec Ideal S50000x128 .f32) (b : FVec Ideal S128 .f32) (w : FVec Ideal S128x128 .f32) :
    FVec Ideal S50000x128 .f32 :=
  G13 (kAgg edge ys) ys (kDisCol edge) (kB b) w

/-- The second layer's array. -/
def kY2 (x : FVec Ideal S50000x128 .f32) (w1 : FVec Ideal S128x128 .f32) (b1 : FVec Ideal S128 .f32) (w2 : FVec Ideal S128x128 .f32)
    (edge : IVec S2x800000 32) : FVec Ideal S50000x128 .f32 :=
  kYnext edge (kY1 x w1 edge) b1 w2

/-- The third layer's array. -/
def kY3 (x : FVec Ideal S50000x128 .f32) (w1 : FVec Ideal S128x128 .f32) (b1 : FVec Ideal S128 .f32) (w2 : FVec Ideal S128x128 .f32)
    (b2 : FVec Ideal S128 .f32) (w3 : FVec Ideal S128x128 .f32) (edge : IVec S2x800000 32) : FVec Ideal S50000x128 .f32 :=
  kYnext edge (kY2 x w1 b1 w2 edge) b2 w3

/-- The fourth layer's array. -/
def kY4 (x : FVec Ideal S50000x128 .f32) (w1 : FVec Ideal S128x128 .f32) (b1 : FVec Ideal S128 .f32) (w2 : FVec Ideal S128x128 .f32)
    (b2 : FVec Ideal S128 .f32) (w3 : FVec Ideal S128x128 .f32) (b3 : FVec Ideal S128 .f32) (w4 : FVec Ideal S128x128 .f32)
    (edge : IVec S2x800000 32) : FVec Ideal S50000x128 .f32 :=
  kYnext edge (kY3 x w1 b1 w2 b2 w3 edge) b3 w4

/-! ## The host stretches at the references the regions read

Each over ANY contents `V` at the stretch's start: the result is the operations' term over `V` at the references the
stretch reads and does not write. -/

section Host

variable (V : Valuation τ sig (Elt Ideal))

theorem host0_v1 : StableHlo.after (hostOps0 (F := Ideal)) V (Proc.devRef .tc main_v1) = kSrc (V (Proc.devRef .tc main_arg12)) := by
  dsimp only [hostOps0]; after_results; rfl

theorem host0_v3 : StableHlo.after (hostOps0 (F := Ideal)) V (Proc.devRef .tc main_v3) = kDst (V (Proc.devRef .tc main_arg12)) := by
  dsimp only [hostOps0]; after_results; rfl

theorem host0_v12 : StableHlo.after (hostOps0 (F := Ideal)) V (Proc.devRef .tc main_v12) = kDisCol (V (Proc.devRef .tc main_arg12)) := by
  dsimp only [hostOps0]; after_results; rfl

/-- The neighbour sums a host stretch forms from the previous array: over contents whose source and destination
    lists are the edge chain's and whose previous array is `y`. Stretch before region 1. -/
theorem host1_v23 (edge : IVec S2x800000 32) (y : FVec Ideal S50000x128 .f32)
    (h1 : V (Proc.devRef .tc main_v1) = kSrc edge) (h3 : V (Proc.devRef .tc main_v3) = kDst edge)
    (hy : V (Proc.devRef .tc main_v13) = y) :
    StableHlo.after (hostOps1 (F := Ideal)) V (Proc.devRef .tc main_v23) = kAgg edge y := by
  dsimp only [hostOps1]; after_results_simp; rw [h1, h3, hy]; rfl

theorem host1_v24 : StableHlo.after (hostOps1 (F := Ideal)) V (Proc.devRef .tc main_v24) = kB (V (Proc.devRef .tc main_arg3)) := by
  dsimp only [hostOps1]; after_results; rfl

/-- Stretch before region 2. -/
theorem host2_v35 (edge : IVec S2x800000 32) (y : FVec Ideal S50000x128 .f32)
    (h1 : V (Proc.devRef .tc main_v1) = kSrc edge) (h3 : V (Proc.devRef .tc main_v3) = kDst edge)
    (hy : V (Proc.devRef .tc main_v25) = y) :
    StableHlo.after (hostOps2 (F := Ideal)) V (Proc.devRef .tc main_v35) = kAgg edge y := by
  dsimp only [hostOps2]; after_results_simp; rw [h1, h3, hy]; rfl

theorem host2_v36 : StableHlo.after (hostOps2 (F := Ideal)) V (Proc.devRef .tc main_v36) = kB (V (Proc.devRef .tc main_arg5)) := by
  dsimp only [hostOps2]; after_results; rfl

/-- Stretch before region 3. -/
theorem host3_v47 (edge : IVec S2x800000 32) (y : FVec Ideal S50000x128 .f32)
    (h1 : V (Proc.devRef .tc main_v1) = kSrc edge) (h3 : V (Proc.devRef .tc main_v3) = kDst edge)
    (hy : V (Proc.devRef .tc main_v37) = y) :
    StableHlo.after (hostOps3 (F := Ideal)) V (Proc.devRef .tc main_v47) = kAgg edge y := by
  dsimp only [hostOps3]; after_results_simp; rw [h1, h3, hy]; rfl

theorem host3_v48 : StableHlo.after (hostOps3 (F := Ideal)) V (Proc.devRef .tc main_v48) = kB (V (Proc.devRef .tc main_arg7)) := by
  dsimp only [hostOps3]; after_results; rfl

/-- Stretch before region 4. -/
theorem host4_v59 (edge : IVec S2x800000 32) (y : FVec Ideal S50000x128 .f32)
    (h1 : V (Proc.devRef .tc main_v1) = kSrc edge) (h3 : V (Proc.devRef .tc main_v3) = kDst edge)
    (hy : V (Proc.devRef .tc main_v49) = y) :
    StableHlo.after (hostOps4 (F := Ideal)) V (Proc.devRef .tc main_v59) = kAgg edge y := by
  dsimp only [hostOps4]; after_results_simp; rw [h1, h3, hy]; rfl

theorem host4_v60 : StableHlo.after (hostOps4 (F := Ideal)) V (Proc.devRef .tc main_v60) = kBatchCol (V (Proc.devRef .tc main_arg13)) := by
  dsimp only [hostOps4]; after_results; rfl

theorem host4_v61 : StableHlo.after (hostOps4 (F := Ideal)) V (Proc.devRef .tc main_v61) = kB (V (Proc.devRef .tc main_arg9)) := by
  dsimp only [hostOps4]; after_results; rfl

theorem host4_v62 : StableHlo.after (hostOps4 (F := Ideal)) V (Proc.devRef .tc main_v62) = kLinb (V (Proc.devRef .tc main_arg11)) := by
  dsimp only [hostOps4]; after_results; rfl

end Host

/-! ## Buffers that stay as they are

A reference no host stretch writes and no region has as an array holds at every boundary what it held at launch; a
reference the first stretch writes, no later stretch writes and no region has as an array holds what the first stretch
left. -/

section Boundaries

variable (m : (ℓ : Loc nD τ sig) → Buf (Elt Ideal) ℓ) (c : Dev nD)

/-- An argument array as launched. -/
abbrev ar (r : Ref sig .tc) : Buf (Elt Ideal) ((c.tc : Thread nD τ).loc r) := m ((c.tc : Thread nD τ).loc r)

section Keep
variable (r : Ref sig .tc)
  (h0 : r ∉ Gen.hostOps0_W) (n0 : ∀ w, Pipeline.arrRef spec0 w ≠ r)
  (h1 : r ∉ Gen.hostOps1_W) (n1 : ∀ w, Pipeline.arrRef spec1 w ≠ r)
  (h2 : r ∉ Gen.hostOps2_W) (n2 : ∀ w, Pipeline.arrRef spec2 w ≠ r)
  (h3 : r ∉ Gen.hostOps3_W) (n3 : ∀ w, Pipeline.arrRef spec3 w ≠ r)
  (h4 : r ∉ Gen.hostOps4_W)
include h0 in
theorem at1 : W1 m c (Proc.devRef .tc r) = ar m c r := W1_of m c r h0
include h0 n0 in
theorem at2 : W2 m c (Proc.devRef .tc r) = ar m c r := (W2_of_ne m c r n0).trans (at1 m c r h0)
include h0 n0 h1 in
theorem at3 : W3 m c (Proc.devRef .tc r) = ar m c r := (W3_of m c r h1).trans (at2 m c r h0 n0)
include h0 n0 h1 n1 in
theorem at4 : W4 m c (Proc.devRef .tc r) = ar m c r := (W4_of_ne m c r n1).trans (at3 m c r h0 n0 h1)
include h0 n0 h1 n1 h2 in
theorem at5 : W5 m c (Proc.devRef .tc r) = ar m c r := (W5_of m c r h2).trans (at4 m c r h0 n0 h1 n1)
include h0 n0 h1 n1 h2 n2 in
theorem at6 : W6 m c (Proc.devRef .tc r) = ar m c r := (W6_of_ne m c r n2).trans (at5 m c r h0 n0 h1 n1 h2)
include h0 n0 h1 n1 h2 n2 h3 in
theorem at7 : W7 m c (Proc.devRef .tc r) = ar m c r := (W7_of m c r h3).trans (at6 m c r h0 n0 h1 n1 h2 n2)
include h0 n0 h1 n1 h2 n2 h3 n3 in
theorem at8 : W8 m c (Proc.devRef .tc r) = ar m c r := (W8_of_ne m c r n3).trans (at7 m c r h0 n0 h1 n1 h2 n2 h3)
include h0 n0 h1 n1 h2 n2 h3 n3 h4 in
theorem at9 : W9 m c (Proc.devRef .tc r) = ar m c r := (W9_of m c r h4).trans (at8 m c r h0 n0 h1 n1 h2 n2 h3 n3)

include n0 in
theorem keep2 : W2 m c (Proc.devRef .tc r) = W1 m c (Proc.devRef .tc r) := W2_of_ne m c r n0
include n0 h1 n1 in
theorem keep4 : W4 m c (Proc.devRef .tc r) = W1 m c (Proc.devRef .tc r) :=
  (W4_of_ne m c r n1).trans ((W3_of m c r h1).trans (keep2 m c r n0))
include n0 h1 n1 h2 n2 in
theorem keep6 : W6 m c (Proc.devRef .tc r) = W1 m c (Proc.devRef .tc r) :=
  (W6_of_ne m c r n2).trans ((W5_of m c r h2).trans (keep4 m c r n0 h1 n1))
include n0 h1 n1 h2 n2 h3 n3 in
theorem keep8 : W8 m c (Proc.devRef .tc r) = W1 m c (Proc.devRef .tc r) :=
  (W8_of_ne m c r n3).trans ((W7_of m c r h3).trans (keep6 m c r n0 h1 n1 h2 n2))
end Keep

/-! ## The edge chain at the boundaries that read it -/

theorem W1_v1 : W1 m c (Proc.devRef .tc main_v1) = kSrc (ar m c main_arg12) := host0_v1 (W0 m c)
theorem W1_v3 : W1 m c (Proc.devRef .tc main_v3) = kDst (ar m c main_arg12) := host0_v3 (W0 m c)
theorem W1_v12 : W1 m c (Proc.devRef .tc main_v12) = kDisCol (ar m c main_arg12) := host0_v12 (W0 m c)

theorem W2_v1 : W2 m c (Proc.devRef .tc main_v1) = kSrc (ar m c main_arg12) :=
  (keep2 m c main_v1 (by decide)).trans (W1_v1 m c)
theorem W2_v3 : W2 m c (Proc.devRef .tc main_v3) = kDst (ar m c main_arg12) :=
  (keep2 m c main_v3 (by decide)).trans (W1_v3 m c)
theorem W4_v1 : W4 m c (Proc.devRef .tc main_v1) = kSrc (ar m c main_arg12) :=
  (keep4 m c main_v1 (by decide) (by decide) (by decide)).trans (W1_v1 m c)
theorem W4_v3 : W4 m c (Proc.devRef .tc main_v3) = kDst (ar m c main_arg12) :=
  (keep4 m c main_v3 (by decide) (by decide) (by decide)).trans (W1_v3 m c)
theorem W6_v1 : W6 m c (Proc.devRef .tc main_v1) = kSrc (ar m c main_arg12) :=
  (keep6 m c main_v1 (by decide) (by decide) (by decide) (by decide) (by decide)).trans (W1_v1 m c)
theorem W6_v3 : W6 m c (Proc.devRef .tc main_v3) = kDst (ar m c main_arg12) :=
  (keep6 m c main_v3 (by decide) (by decide) (by decide) (by decide) (by decide)).trans (W1_v3 m c)
theorem W8_v1 : W8 m c (Proc.devRef .tc main_v1) = kSrc (ar m c main_arg12) :=
  (keep8 m c main_v1 (by decide) (by decide) (by decide) (by decide) (by decide) (by decide) (by decide)).trans (W1_v1 m c)
theorem W8_v3 : W8 m c (Proc.devRef .tc main_v3) = kDst (ar m c main_arg12) :=
  (keep8 m c main_v3 (by decide) (by decide) (by decide) (by decide) (by decide) (by decide) (by decide)).trans (W1_v3 m c)

/-- The normaliser column is an input array of every region and no later stretch writes it. -/
theorem W3_v12 : W3 m c (Proc.devRef .tc main_v12) = kDisCol (ar m c main_arg12) :=
  (W3_of m c main_v12 (by decide)).trans ((W2_in m c 2 rfl).trans (W1_v12 m c))
theorem W5_v12 : W5 m c (Proc.devRef .tc main_v12) = kDisCol (ar m c main_arg12) :=
  (W5_of m c main_v12 (by decide)).trans ((W4_in m c 2 rfl).trans (W3_v12 m c))
theorem W7_v12 : W7 m c (Proc.devRef .tc main_v12) = kDisCol (ar m c main_arg12) :=
  (W7_of m c main_v12 (by decide)).trans ((W6_in m c 2 rfl).trans (W5_v12 m c))
theorem W9_v12 : W9 m c (Proc.devRef .tc main_v12) = kDisCol (ar m c main_arg12) :=
  (W9_of m c main_v12 (by decide)).trans ((W8_in m c 2 rfl).trans (W7_v12 m c))

/-! ## The layers' arrays -/

/-- The four layers' arrays as functions of the launch. -/
abbrev y1 : FVec Ideal S50000x128 .f32 := kY1 (ar m c main_arg0) (ar m c main_arg2) (ar m c main_arg12)
abbrev y2 : FVec Ideal S50000x128 .f32 :=
  kY2 (ar m c main_arg0) (ar m c main_arg2) (ar m c main_arg3) (ar m c main_arg4) (ar m c main_arg12)
abbrev y3 : FVec Ideal S50000x128 .f32 :=
  kY3 (ar m c main_arg0) (ar m c main_arg2) (ar m c main_arg3) (ar m c main_arg4) (ar m c main_arg5) (ar m c main_arg6)
    (ar m c main_arg12)
abbrev y4 : FVec Ideal S50000x128 .f32 :=
  kY4 (ar m c main_arg0) (ar m c main_arg2) (ar m c main_arg3) (ar m c main_arg4) (ar m c main_arg5) (ar m c main_arg6)
    (ar m c main_arg7) (ar m c main_arg8) (ar m c main_arg12)

/-- Region 0 leaves the first layer's array. -/
theorem W2_v13 : W2 m c (Proc.devRef .tc main_v13) = y1 m c := by
  have h := final0 (U1 m) c
  rw [show U1 m c main_arg0 = ar m c main_arg0 from at1 m c main_arg0 (by decide),
    show U1 m c main_arg2 = ar m c main_arg2 from at1 m c main_arg2 (by decide),
    show U1 m c main_v12 = kDisCol (ar m c main_arg12) from W1_v12 m c] at h
  exact (W2_arr m c 3).trans h

/-- The stretch before region 1: the neighbour sums of the first array, the first array itself, the first bias. -/
theorem W3_v23 : W3 m c (Proc.devRef .tc main_v23) = kAgg (ar m c main_arg12) (y1 m c) :=
  host1_v23 (W2 m c) _ _ (W2_v1 m c) (W2_v3 m c) (W2_v13 m c)
theorem W3_v13 : W3 m c (Proc.devRef .tc main_v13) = y1 m c := (W3_of m c main_v13 (by decide)).trans (W2_v13 m c)
theorem W3_v24 : W3 m c (Proc.devRef .tc main_v24) = kB (ar m c main_arg3) :=
  (host1_v24 (W2 m c)).trans (congrArg kB (at2 m c main_arg3 (by decide) (by decide)))

/-- Region 1 leaves the second layer's array. -/
theorem W4_v25 : W4 m c (Proc.devRef .tc main_v25) = y2 m c := by
  have h := final1 (U3 m) c
  rw [show U3 m c main_v23 = kAgg (ar m c main_arg12) (y1 m c) from W3_v23 m c,
    show U3 m c main_v13 = y1 m c from W3_v13 m c,
    show U3 m c main_v12 = kDisCol (ar m c main_arg12) from W3_v12 m c,
    show U3 m c main_v24 = kB (ar m c main_arg3) from W3_v24 m c,
    show U3 m c main_arg4 = ar m c main_arg4 from at3 m c main_arg4 (by decide) (by decide) (by decide)] at h
  exact (W4_arr m c 5).trans h

/-- The stretch before region 2. -/
theorem W5_v35 : W5 m c (Proc.devRef .tc main_v35) = kAgg (ar m c main_arg12) (y2 m c) :=
  host2_v35 (W4 m c) _ _ (W4_v1 m c) (W4_v3 m c) (W4_v25 m c)
theorem W5_v25 : W5 m c (Proc.devRef .tc main_v25) = y2 m c := (W5_of m c main_v25 (by decide)).trans (W4_v25 m c)
theorem W5_v36 : W5 m c (Proc.devRef .tc main_v36) = kB (ar m c main_arg5) :=
  (host2_v36 (W4 m c)).trans (congrArg kB (at4 m c main_arg5 (by decide) (by decide) (by decide) (by decide)))

/-- Region 2 leaves the third layer's array. -/
theorem W6_v37 : W6 m c (Proc.devRef .tc main_v37) = y3 m c := by
  have h := final2 (U5 m) c
  rw [show U5 m c main_v35 = kAgg (ar m c main_arg12) (y2 m c) from W5_v35 m c,
    show U5 m c main_v25 = y2 m c from W5_v25 m c,
    show U5 m c main_v12 = kDisCol (ar m c main_arg12) from W5_v12 m c,
    show U5 m c main_v36 = kB (ar m c main_arg5) from W5_v36 m c,
    show U5 m c main_arg6 = ar m c main_arg6 from
      at5 m c main_arg6 (by decide) (by decide) (by decide) (by decide) (by decide)] at h
  exact (W6_arr m c 5).trans h

/-- The stretch before region 3. -/
theorem W7_v47 : W7 m c (Proc.devRef .tc main_v47) = kAgg (ar m c main_arg12) (y3 m c) :=
  host3_v47 (W6 m c) _ _ (W6_v1 m c) (W6_v3 m c) (W6_v37 m c)
theorem W7_v37 : W7 m c (Proc.devRef .tc main_v37) = y3 m c := (W7_of m c main_v37 (by decide)).trans (W6_v37 m c)
theorem W7_v48 : W7 m c (Proc.devRef .tc main_v48) = kB (ar m c main_arg7) :=
  (host3_v48 (W6 m c)).trans (congrArg kB
    (at6 m c main_arg7 (by decide) (by decide) (by decide) (by decide) (by decide) (by decide)))

/-- Region 3 leaves the fourth layer's array. -/
theorem W8_v49 : W8 m c (Proc.devRef .tc main_v49) = y4 m c := by
  have h := final3 (U7 m) c
  rw [show U7 m c main_v47 = kAgg (ar m c main_arg12) (y3 m c) from W7_v47 m c,
    show U7 m c main_v37 = y3 m c from W7_v37 m c,
    show U7 m c main_v12 = kDisCol (ar m c main_arg12) from W7_v12 m c,
    show U7 m c main_v48 = kB (ar m c main_arg7) from W7_v48 m c,
    show U7 m c main_arg8 = ar m c main_arg8 from
      at7 m c main_arg8 (by decide) (by decide) (by decide) (by decide) (by decide) (by decide) (by decide)] at h
  exact (W8_arr m c 5).trans h

/-! ## What the last region finds -/

theorem W9_v59 : W9 m c (Proc.devRef .tc main_v59) = kAgg (ar m c main_arg12) (y4 m c) :=
  host4_v59 (W8 m c) _ _ (W8_v1 m c) (W8_v3 m c) (W8_v49 m c)
theorem W9_v49 : W9 m c (Proc.devRef .tc main_v49) = y4 m c := (W9_of m c main_v49 (by decide)).trans (W8_v49 m c)
theorem W9_v61 : W9 m c (Proc.devRef .tc main_v61) = kB (ar m c main_arg9) :=
  (host4_v61 (W8 m c)).trans (congrArg kB
    (at8 m c main_arg9 (by decide) (by decide) (by decide) (by decide) (by decide) (by decide) (by decide) (by decide)))
theorem W9_v60 : W9 m c (Proc.devRef .tc main_v60) = kBatchCol (ar m c main_arg13) :=
  (host4_v60 (W8 m c)).trans (congrArg kBatchCol
    (at8 m c main_arg13 (by decide) (by decide) (by decide) (by decide) (by decide) (by decide) (by decide) (by decide)))
theorem W9_v62 : W9 m c (Proc.devRef .tc main_v62) = kLinb (ar m c main_arg11) :=
  (host4_v62 (W8 m c)).trans (congrArg kLinb
    (at8 m c main_arg11 (by decide) (by decide) (by decide) (by decide) (by decide) (by decide) (by decide) (by decide)))
theorem W9_arg1 : W9 m c (Proc.devRef .tc main_arg1) = ar m c main_arg1 :=
  at9 m c main_arg1 (by decide) (by decide) (by decide) (by decide) (by decide) (by decide) (by decide) (by decide) (by decide)
theorem W9_arg10 : W9 m c (Proc.devRef .tc main_arg10) = ar m c main_arg10 :=
  at9 m c main_arg10 (by decide) (by decide) (by decide) (by decide) (by decide) (by decide) (by decide) (by decide) (by decide)

end Boundaries

end Cert.KernelIdeal.Val

end
-- ==== Proof.Val.Reg4.lean ====
/- The last region's output array in closed form, at the ideal values. Over its ten row tiles the region accumulates,
   for every graph g and feature k, the sum over the rows r of the tile of (row r belongs to graph g) times the combined
   feature h(r, k) = dis r * (agg (r, k) + ys (r, k)) + bias k, and for every graph the number of its rows; at the last
   tile it writes, for every graph g and output o, the mean feature (sum over count, the count at least one) times the
   first 128 rows of the head weights, plus the graph's conditioning times the last 16 rows, plus the head bias. Ten
   tiles of 5000 rows are the 50000 rows, so the accumulated sums are sums over all rows, and the one write-back of the
   whole 64 x 2 block leaves the array at that function of the region's input arrays. -/
import proofs.«427340_j652835029230_2_alg».proof.Proof.KI.Reg4a
import proofs.«427340_j652835029230_2_alg».proof.Proof.Math.Laws
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin
import Mathlib.Algebra.BigOperators.Intervals

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

/-- Row membership as a weight: one when the row's graph id is g, zero otherwise. -/
def oh (b : BitVec 32) (g : Fin 64) : EReal := if b = BitVec.ofNat 32 g.val then 1 else 0

/-- The combined feature of the last layer: the normaliser times (neighbour sum plus scaled feature), plus the bias. -/
def h4 (agg ys : Vec Ideal S50000x128 .f32) (d : Vec Ideal S50000x1 .f32) (b : Vec Ideal S1x128 .f32) :
    Vec Ideal S50000x128 .f32 :=
  fun i => d (ix2 (i 0) 0) * (agg i + ys i) + b (ix2 0 (i 1))

/-- The pooled head: per graph the mean combined feature through the first 128 rows of the head weights, the graph's
    conditioning through the last 16, and the head bias. -/
def G4 (agg ys : Vec Ideal S50000x128 .f32) (d : Vec Ideal S50000x1 .f32) (b : Vec Ideal S1x128 .f32)
    (batch : Vec Ideal S50000x1 .i32) (cond : Vec Ideal S64x16 .f32) (lw : Vec Ideal S144x2 .f32)
    (lb : Vec Ideal S1x2 .f32) : Vec Ideal S64x2 .f32 := fun i =>
  let S := fun (g : Fin 64) (k : Fin 128) => ∑ r : Fin 50000, oh (batch (ix2 r 0)) g * h4 agg ys d b (ix2 r k)
  let C := fun (g : Fin 64) => ∑ r : Fin 50000, oh (batch (ix2 r 0)) g * 1
  ((∑ k : Fin 128, Ideal.div (S (i 0) k) (max (C (i 0)) 1) * lw (ix2 ⟨k.val, by omega⟩ (i 1)))
    + (∑ k : Fin 16, cond (ix2 (i 0) k) * lw (ix2 ⟨128 + k.val, by omega⟩ (i 1)))) + lb (ix2 0 (i 1))

namespace Reg4

/-! ## The one-hot block at an index -/

/-- The comparison word widened and read as a signed integer: one for equal words, zero otherwise. -/
theorem sitofp_cmpi_eq (x y : BitVec 32) :
    FloatOps.sitofp (F := Ideal) .f32 ((IntOp.cmpi .eq x y).setWidth 32) = if x = y then (1 : EReal) else 0 := by
  by_cases h : x = y
  · rw [if_pos h, h]
    have e : (IntOp.cmpi .eq y y).setWidth 32 = 1#32 := by
      unfold IntOp.cmpi
      simp
    rw [e]
    show (((1#32 : BitVec 32).toInt : ℝ) : EReal) = 1
    have : (1#32 : BitVec 32).toInt = 1 := by decide
    rw [this]; norm_cast
  · rw [if_neg h]
    have e : (IntOp.cmpi .eq x y).setWidth 32 = 0#32 := by
      unfold IntOp.cmpi
      have hb : (x == y) = false := beq_eq_false_iff_ne.mpr h
      simp only [hb]
      decide
    rw [e]
    show (((0#32 : BitVec 32).toInt : ℝ) : EReal) = 0
    have : (0#32 : BitVec 32).toInt = 0 := by decide
    rw [this]; norm_cast

/-- The one-hot block of a tile read at (row r, graph g): the weight of row r's graph id at g. -/
theorem pay5_apply (x4 : Vec Ideal S5000x1 .i32) (r : Fin 5000) (g : Fin 64) :
    k4_pay5 (F := Ideal) x4 (ix2 r g) = oh (x4 (ix2 r 0)) g := by
  have e19 : broadcastTo S5000x64 (shapeCast S5000x1 x4 shapeCasts_S5000x1_S5000x1) broadcasts_S5000x1_S5000x64 (ix2 r g)
      = x4 (ix2 r 0) := by
    rw [shapeCast_self]
    exact broadcastTo_apply _ _ _ (ix2 r 0) (fun a => by match a with | ⟨0, _⟩ => rfl | ⟨1, _⟩ => rfl)
  have e18 : iota .tc S5000x64 32 [1] iota_S5000x64_d1_w32 (ix2 r g) = BitVec.ofNat 32 g.val :=
    iota_single_apply .tc S5000x64 32 1 iota_S5000x64_d1_w32 (ix2 r g)
  show FloatOps.sitofp (F := Ideal) .f32
      ((IntOp.cmpi .eq
          (broadcastTo S5000x64 (shapeCast S5000x1 x4 shapeCasts_S5000x1_S5000x1) broadcasts_S5000x1_S5000x64 (ix2 r g))
          (iota .tc S5000x64 32 [1] iota_S5000x64_d1_w32 (ix2 r g))).setWidth 32) = _
  rw [e19, e18, sitofp_cmpi_eq]
  rfl

/-! ## The four contractions at an index

Each of the two pooling products contracts the row axis of both operands: its value at (g, k) is the sum over the
tile's rows r of the left operand at (r, g) times the right operand at (r, k). Each of the two head products contracts
the left operand's columns with the right operand's rows. -/

theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The feature pooling product at (g, k). -/
theorem mm_pool_apply (A : FVec Ideal S5000x64 .bf16) (B : FVec Ideal S5000x128 .bf16) (g : Fin 64) (k : Fin 128) :
    matmul dot_S5000x64_S5000x128_S64x128_0_0_1_1_n_n none A B (constant S64x128 .f32 0x00000000#32) (ix2 g k)
      = ∑ r : Fin 5000, A (ix2 r g) * B (ix2 r k) := by
  simp only [matmul]
  rw [Ideal.matmul_constant_zero_apply, ← Equiv.sum_comp (ValueIdx.contrEquiv1 dot_S5000x64_S5000x128_S64x128_0_0_1_1_n_n 5000 rfl rfl).symm]
  refine Finset.sum_congr rfl fun r _ => ?_
  have hk := ValueIdx.contrEquiv1_symm_val dot_S5000x64_S5000x128_S64x128_0_0_1_1_n_n 5000 rfl rfl r
  have el : dot_S5000x64_S5000x128_S64x128_0_0_1_1_n_n.lhsIdx (ix2 g k) ((ValueIdx.contrEquiv1 dot_S5000x64_S5000x128_S64x128_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g k) ((ValueIdx.contrEquiv1 dot_S5000x64_S5000x128_S64x128_0_0_1_1_n_n 5000 rfl rfl).symm r) = ix2 r k := funext fun a => Fin.ext (by
    match a with
    | ⟨0, _⟩ => exact (rhs_pool_0 _ _).trans hk
    | ⟨1, _⟩ => exact rhs_pool_1 _ _)
  rw [el, er]

theorem lhs_cnt_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs_cnt_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhs_cnt_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs_cnt_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The count pooling product at (g, j). -/
theorem mm_cnt_apply (A : FVec Ideal S5000x64 .bf16) (B : FVec Ideal S5000x1 .bf16) (g : Fin 64) (j : Fin 1) :
    matmul dot_S5000x64_S5000x1_S64x1_0_0_1_1_n_n none A B (constant S64x1 .f32 0x00000000#32) (ix2 g j)
      = ∑ r : Fin 5000, A (ix2 r g) * B (ix2 r j) := by
  simp only [matmul]
  rw [Ideal.matmul_constant_zero_apply, ← Equiv.sum_comp (ValueIdx.contrEquiv1 dot_S5000x64_S5000x1_S64x1_0_0_1_1_n_n 5000 rfl rfl).symm]
  refine Finset.sum_congr rfl fun r _ => ?_
  have hk := ValueIdx.contrEquiv1_symm_val dot_S5000x64_S5000x1_S64x1_0_0_1_1_n_n 5000 rfl rfl r
  have el : dot_S5000x64_S5000x1_S64x1_0_0_1_1_n_n.lhsIdx (ix2 g j) ((ValueIdx.contrEquiv1 dot_S5000x64_S5000x1_S64x1_0_0_1_1_n_n 5000 rfl rfl).symm r) = ix2 r g := funext fun a => Fin.ext (by
    match a with
    | ⟨0, _⟩ => exact (lhs_cnt_0 _ _).trans hk
    | ⟨1, _⟩ => exact lhs_cnt_1 _ _)
  have er : dot_S5000x64_S5000x1_S64x1_0_0_1_1_n_n.rhsIdx (ix2 g j) ((ValueIdx.contrEquiv1 dot_S5000x64_S5000x1_S64x1_0_0_1_1_n_n 5000 rfl rfl).symm r) = ix2 r j := funext fun a => Fin.ext (by
    match a with
    | ⟨0, _⟩ => exact (rhs_cnt_0 _ _).trans hk
    | ⟨1, _⟩ => exact rhs_cnt_1 _ _)
  rw [el, er]

theorem lhs_hda_0 (i : S64x2.Idx) (q : dot_S64x128_S128x2_S64x2_1_0_0_1_n_n.contr.Idx) :
    (dot_S64x128_S128x2_S64x2_1_0_0_1_n_n.lhsIdx i q 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem lhs_hda_1 (i : S64x2.Idx) (q : dot_S64x128_S128x2_S64x2_1_0_0_1_n_n.contr.Idx) :
    (dot_S64x128_S128x2_S64x2_1_0_0_1_n_n.lhsIdx i q 1).val = (q ⟨0, by decide⟩).val :=
  dot_S64x128_S128x2_S64x2_1_0_0_1_n_n.lhsIdx_val_of_single rfl i q
theorem rhs_hda_0 (i : S64x2.Idx) (q : dot_S64x128_S128x2_S64x2_1_0_0_1_n_n.contr.Idx) :
    (dot_S64x128_S128x2_S64x2_1_0_0_1_n_n.rhsIdx i q 0).val = (q ⟨0, by decide⟩).val :=
  dot_S64x128_S128x2_S64x2_1_0_0_1_n_n.rhsIdx_val_of_single rfl i q
theorem rhs_hda_1 (i : S64x2.Idx) (q : dot_S64x128_S128x2_S64x2_1_0_0_1_n_n.contr.Idx) :
    (dot_S64x128_S128x2_S64x2_1_0_0_1_n_n.rhsIdx i q 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

/-- The head's product with the first 128 weight rows at (g, o). -/
theorem mm_hda_apply (A : FVec Ideal S64x128 .bf16) (B : FVec Ideal S128x2 .bf16) (g : Fin 64) (o : Fin 2) :
    matmul dot_S64x128_S128x2_S64x2_1_0_0_1_n_n none A B (constant S64x2 .f32 0x00000000#32) (ix2 g o)
      = ∑ k : Fin 128, A (ix2 g k) * B (ix2 k o) := by
  simp only [matmul]
  rw [Ideal.matmul_constant_zero_apply, ← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx (ix2 g o) ((ValueIdx.contrEquiv1 dot_S64x128_S128x2_S64x2_1_0_0_1_n_n 128 rfl rfl).symm k) = ix2 g k := funext fun a => Fin.ext (by
    match a with
    | ⟨0, _⟩ => exact lhs_hda_0 _ _
    | ⟨1, _⟩ => exact (lhs_hda_1 _ _).trans hk)
  have er : dot_S64x128_S128x2_S64x2_1_0_0_1_n_n.rhsIdx (ix2 g o) ((ValueIdx.contrEquiv1 dot_S64x128_S128x2_S64x2_1_0_0_1_n_n 128 rfl rfl).symm k) = ix2 k o := funext fun a => Fin.ext (by
    match a with
    | ⟨0, _⟩ => exact (rhs_hda_0 _ _).trans hk
    | ⟨1, _⟩ => exact rhs_hda_1 _ _)
  rw [el, er]

theorem lhs_hdb_0 (i : S64x2.Idx) (q : dot_S64x16_S16x2_S64x2_1_0_0_1_n_n.contr.Idx) :
    (dot_S64x16_S16x2_S64x2_1_0_0_1_n_n.lhsIdx i q 0).val = (i 0).val := by
  unfold DotDims.lhsIdx
  rw [dif_neg (show ¬(0 : Fin S64x16.rank) ∈ dot_S64x16_S16x2_S64x2_1_0_0_1_n_n.lhsBatch by decide), dif_pos (show (0 : Fin S64x16.rank) ∈ dot_S64x16_S16x2_S64x2_1_0_0_1_n_n.lhsNonContracting by decide)]
  rfl
theorem lhs_hdb_1 (i : S64x2.Idx) (q : dot_S64x16_S16x2_S64x2_1_0_0_1_n_n.contr.Idx) :
    (dot_S64x16_S16x2_S64x2_1_0_0_1_n_n.lhsIdx i q 1).val = (q ⟨0, by decide⟩).val :=
  dot_S64x16_S16x2_S64x2_1_0_0_1_n_n.lhsIdx_val_of_single rfl i q
theorem rhs_hdb_0 (i : S64x2.Idx) (q : dot_S64x16_S16x2_S64x2_1_0_0_1_n_n.contr.Idx) :
    (dot_S64x16_S16x2_S64x2_1_0_0_1_n_n.rhsIdx i q 0).val = (q ⟨0, by decide⟩).val :=
  dot_S64x16_S16x2_S64x2_1_0_0_1_n_n.rhsIdx_val_of_single rfl i q
theorem rhs_hdb_1 (i : S64x2.Idx) (q : dot_S64x16_S16x2_S64x2_1_0_0_1_n_n.contr.Idx) :
    (dot_S64x16_S16x2_S64x2_1_0_0_1_n_n.rhsIdx i q 1).val = (i 1).val := by
  unfold DotDims.rhsIdx
  rw [dif_neg (show ¬(1 : Fin S16x2.rank) ∈ dot_S64x16_S16x2_S64x2_1_0_0_1_n_n.rhsBatch by decide), dif_pos (show (1 : Fin S16x2.rank) ∈ dot_S64x16_S16x2_S64x2_1_0_0_1_n_n.rhsNonContracting by decide)]
  rfl

/-- The head's product of the conditioning with the last 16 weight rows at (g, o). -/
theorem mm_hdb_apply (A : FVec Ideal S64x16 .bf16) (B : FVec Ideal S16x2 .bf16) (g : Fin 64) (o : Fin 2) :
    matmul dot_S64x16_S16x2_S64x2_1_0_0_1_n_n none A B (constant S64x2 .f32 0x00000000#32) (ix2 g o)
      = ∑ k : Fin 16, A (ix2 g k) * B (ix2 k o) := by
  simp only [matmul]
  rw [Ideal.matmul_constant_zero_apply, ← Equiv.sum_comp (ValueIdx.contrEquiv1 dot_S64x16_S16x2_S64x2_1_0_0_1_n_n 16 rfl rfl).symm]
  refine Finset.sum_congr rfl fun k _ => ?_
  have hk := ValueIdx.contrEquiv1_symm_val dot_S64x16_S16x2_S64x2_1_0_0_1_n_n 16 rfl rfl k
  have el : dot_S64x16_S16x2_S64x2_1_0_0_1_n_n.lhsIdx (ix2 g o) ((ValueIdx.contrEquiv1 dot_S64x16_S16x2_S64x2_1_0_0_1_n_n 16 rfl rfl).symm k) = ix2 g k := funext fun a => Fin.ext (by
    match a with
    | ⟨0, _⟩ => exact lhs_hdb_0 _ _
    | ⟨1, _⟩ => exact (lhs_hdb_1 _ _).trans hk)
  have er : dot_S64x16_S16x2_S64x2_1_0_0_1_n_n.rhsIdx (ix2 g o) ((ValueIdx.contrEquiv1 dot_S64x16_S16x2_S64x2_1_0_0_1_n_n 16 rfl rfl).symm k) = ix2 k o := funext fun a => Fin.ext (by
    match a with
    | ⟨0, _⟩ => exact (rhs_hdb_0 _ _).trans hk
    | ⟨1, _⟩ => exact rhs_hdb_1 _ _)
  rw [el, er]

/-! ## The payloads at an index -/

/-- The first tile's fills read zero. -/
theorem pay3_apply (i : S64x128.Idx) : k4_pay3 (F := Ideal) i = 0 :=
  (congrFun (shapeCast_self (broadcast S64x128 (Scalar.ofBits (F := Ideal) .f32 0x00000000#32)) shapeCasts_S64x128_S64x128) i).trans
    Ideal.ofBits_zero_f32
theorem pay4_apply (i : S64x1.Idx) : k4_pay4 (F := Ideal) i = 0 :=
  (congrFun (shapeCast_self (broadcast S64x1 (Scalar.ofBits (F := Ideal) .f32 0x00000000#32)) shapeCasts_S64x1_S64x1) i).trans
    Ideal.ofBits_zero_f32

/-- A tile's combined feature block: the normaliser column times (neighbour sums plus scaled features), plus the bias
    row. -/
def hblk (x2 : Vec Ideal S5000x1 .f32) (x0 x1 : Vec Ideal S5000x128 .f32) (x3 : Vec Ideal S1x128 .f32) :
    FVec Ideal S5000x128 .f32 :=
  addf (mulf (broadcastTo S5000x128 (shapeCast S5000x1 x2 shapeCasts_S5000x1_S5000x1) broadcasts_S5000x1_S5000x128)
      (addf (shapeCast S5000x128 x0 shapeCasts_S5000x128_S5000x128) (shapeCast S5000x128 x1 shapeCasts_S5000x128_S5000x128)))
    (broadcastTo S5000x128 (shapeCast S1x128 x3 shapeCasts_S1x128_S1x128) broadcasts_S1x128_S5000x128)

theorem hblk_apply (x2 : Vec Ideal S5000x1 .f32) (x0 x1 : Vec Ideal S5000x128 .f32) (x3 : Vec Ideal S1x128 .f32)
    (r : Fin 5000) (k : Fin 128) :
    hblk x2 x0 x1 x3 (ix2 r k) = x2 (ix2 r 0) * (x0 (ix2 r k) + x1 (ix2 r k)) + x3 (ix2 0 k) := by
  unfold hblk
  rw [addf_apply, mulf_apply, addf_apply, shapeCast_self, shapeCast_self, shapeCast_self, shapeCast_self,
    broadcastTo_apply x2 broadcasts_S5000x1_S5000x128 (ix2 r k) (ix2 r 0)
      (fun a => by match a with | ⟨0, _⟩ => rfl | ⟨1, _⟩ => rfl),
    broadcastTo_apply x3 broadcasts_S1x128_S5000x128 (ix2 r k) (ix2 0 k)
      (fun a => by match a with | ⟨0, _⟩ => rfl | ⟨1, _⟩ => rfl)]

/-- The sums' payload as one term over the combined feature block. -/
theorem pay6_eq (x2 : Vec Ideal S5000x1 .f32) (x0 x1 : Vec Ideal S5000x128 .f32) (x3 : Vec Ideal S1x128 .f32)
    (x4 : Vec Ideal S5000x1 .i32) (a : Vec Ideal S64x128 .f32) :
    k4_pay6 (F := Ideal) x2 x0 x1 x3 x4 a
      = shapeCast S64x128 (addf a (matmul dot_S5000x64_S5000x128_S64x128_0_0_1_1_n_n none (k4_pay5 x4)
          (truncf .bf16 (hblk x2 x0 x1 x3) bitsLt_bf16_f32) (constant S64x128 .f32 0x00000000#32))) shapeCasts_S64x128_S64x128 := rfl

/-- One tile's sums at (g, k): the sums before it plus, over the tile's rows, the row's weight at g times its combined
    feature at k. -/
theorem pay6_apply (x2 : Vec Ideal S5000x1 .f32) (x0 x1 : Vec Ideal S5000x128 .f32) (x3 : Vec Ideal S1x128 .f32)
    (x4 : Vec Ideal S5000x1 .i32) (a : Vec Ideal S64x128 .f32) (g : Fin 64) (k : Fin 128) :
    k4_pay6 (F := Ideal) x2 x0 x1 x3 x4 a (ix2 g k)
      = a (ix2 g k) + ∑ r : Fin 5000, oh (x4 (ix2 r 0)) g * (x2 (ix2 r 0) * (x0 (ix2 r k) + x1 (ix2 r k)) + x3 (ix2 0 k)) := by
  rw [pay6_eq, shapeCast_self, addf_apply, mm_pool_apply]
  refine congrArg (a (ix2 g k) + ·) (Finset.sum_congr rfl fun r _ => ?_)
  rw [pay5_apply, truncf_apply, hblk_apply]

/-- The counts' payload as one term. -/
theorem pay7_eq (x4 : Vec Ideal S5000x1 .i32) (a : Vec Ideal S64x1 .f32) :
    k4_pay1 (k4_pay7 (F := Ideal) x4 a)
      = shapeCast S64x1 (addf a (matmul dot_S5000x64_S5000x1_S64x1_0_0_1_1_n_n none (k4_pay5 x4)
          (broadcast S5000x1 (Scalar.ofBits (F := Ideal) .bf16 0x3F80#16)) (constant S64x1 .f32 0x00000000#32))) shapeCasts_S64x1_S64x1 := rfl

/-- One tile's counts at (g, j): the counts before it plus the weights at g of the tile's rows (each times one). -/
theorem pay7_apply (x4 : Vec Ideal S5000x1 .i32) (a : Vec Ideal S64x1 .f32) (g : Fin 64) (j : Fin 1) :
    k4_pay1 (k4_pay7 (F := Ideal) x4 a) (ix2 g j) = a (ix2 g j) + ∑ r : Fin 5000, oh (x4 (ix2 r 0)) g * 1 := by
  rw [pay7_eq, shapeCast_self, addf_apply, mm_cnt_apply]
  refine congrArg (a (ix2 g j) + ·) (Finset.sum_congr rfl fun r _ => ?_)
  rw [pay5_apply]
  exact congrArg (oh (x4 (ix2 r 0)) g * ·) Ideal.ofBits_one_bf16

/-- The mean block: the sums over the counts, the counts raised to at least one. -/
def mean4 (a1 : Vec Ideal S64x128 .f32) (a2 : Vec Ideal S64x1 .f32) : FVec Ideal S64x128 .f32 :=
  divf a1 (broadcastTo S64x128 (maximumf a2 (broadcast S64x1 (Scalar.ofBits (F := Ideal) .f32 0x3F800000#32)))
    broadcasts_S64x1_S64x128)

theorem mean4_apply (a1 : Vec Ideal S64x128 .f32) (a2 : Vec Ideal S64x1 .f32) (g : Fin 64) (k : Fin 128) :
    mean4 a1 a2 (ix2 g k) = Ideal.div (a1 (ix2 g k)) (max (a2 (ix2 g 0)) 1) := by
  unfold mean4
  rw [divf_apply,
    broadcastTo_apply (maximumf a2 (broadcast S64x1 (Scalar.ofBits (F := Ideal) .f32 0x3F800000#32)))
      broadcasts_S64x1_S64x128 (ix2 g k) (ix2 g 0) (fun a => by match a with | ⟨0, _⟩ => rfl | ⟨1, _⟩ => rfl),
    maximumf_apply]
  exact congrArg (fun z => Ideal.div (a1 (ix2 g k)) (max (a2 (ix2 g 0)) z)) Ideal.ofBits_one_f32

/-- The head's payload as one term over the mean block. -/
theorem pay2_eq (a1 : Vec Ideal S64x128 .f32) (a2 : Vec Ideal S64x1 .f32) (wa : Vec Ideal S128x2 .f32)
    (wb : Vec Ideal S16x2 .f32) (cd : Vec Ideal S64x16 .f32) (lb : Vec Ideal S1x2 .f32) :
    k4_pay2 (F := Ideal) a1 a2 wa wb cd lb
      = addf (addf
          (matmul dot_S64x128_S128x2_S64x2_1_0_0_1_n_n none (truncf .bf16 (mean4 a1 a2) bitsLt_bf16_f32)
            (truncf .bf16 wa bitsLt_bf16_f32) (constant S64x2 .f32 0x00000000#32))
          (matmul dot_S64x16_S16x2_S64x2_1_0_0_1_n_n none (truncf .bf16 cd bitsLt_bf16_f32)
            (truncf .bf16 wb bitsLt_bf16_f32) (constant S64x2 .f32 0x00000000#32)))
        (broadcastTo S64x2 (shapeCast S1x2 lb shapeCasts_S1x2_S1x2) broadcasts_S1x2_S64x2) := rfl

/-- The head at (g, o). -/
theorem pay2_apply (a1 : Vec Ideal S64x128 .f32) (a2 : Vec Ideal S64x1 .f32) (wa : Vec Ideal S128x2 .f32)
    (wb : Vec Ideal S16x2 .f32) (cd : Vec Ideal S64x16 .f32) (lb : Vec Ideal S1x2 .f32) (g : Fin 64) (o : Fin 2) :
    k4_pay2 (F := Ideal) a1 a2 wa wb cd lb (ix2 g o)
      = ((∑ k : Fin 128, Ideal.div (a1 (ix2 g k)) (max (a2 (ix2 g 0)) 1) * wa (ix2 k o))
          + (∑ k : Fin 16, cd (ix2 g k) * wb (ix2 k o))) + lb (ix2 0 o) := by
  rw [pay2_eq, addf_apply, addf_apply, mm_hda_apply, mm_hdb_apply, shapeCast_self,
    broadcastTo_apply lb broadcasts_S1x2_S64x2 (ix2 g o) (ix2 0 o)
      (fun a => by match a with | ⟨0, _⟩ => rfl | ⟨1, _⟩ => rfl)]
  refine congrArg (· + lb (ix2 0 o)) (congrArg₂ (· + ·) (Finset.sum_congr rfl fun k _ => ?_) (Finset.sum_congr rfl fun k _ => ?_))
  · rw [truncf_apply, truncf_apply, mean4_apply]
  · rw [truncf_apply, truncf_apply]

/-! ## The tile's blocks and the region's arrays, at their literal types -/

variable (V : (c : Dev nD) → (b : Ref sig .tc) → Buf (Elt Ideal) ((c : Thread nD τ).loc b))

theorem hz2 : (![0, 0] : Fin 2 → Nat) = fun _ => 0 := funext fun a => by fin_cases a <;> rfl

abbrev aggA (c : Dev nD) : Vec Ideal S50000x128 .f32 := V c main_v59
abbrev ysA (c : Dev nD) : Vec Ideal S50000x128 .f32 := V c main_v49
abbrev disA (c : Dev nD) : Vec Ideal S50000x1 .f32 := V c main_v12
abbrev biasA (c : Dev nD) : Vec Ideal S1x128 .f32 := V c main_v61
abbrev batA (c : Dev nD) : Vec Ideal S50000x1 .i32 := V c main_v60
abbrev condA (c : Dev nD) : Vec Ideal S64x16 .f32 := V c main_arg1
abbrev lwA (c : Dev nD) : Vec Ideal S144x2 .f32 := V c main_arg10
abbrev lbA (c : Dev nD) : Vec Ideal S1x2 .f32 := V c main_v62

abbrev aggB (c : Dev nD) (t : Fin cfg4.N) : Vec Ideal S5000x128 .f32 := iblk4 V c 0 t
abbrev ysB (c : Dev nD) (t : Fin cfg4.N) : Vec Ideal S5000x128 .f32 := iblk4 V c 1 t
abbrev disB (c : Dev nD) (t : Fin cfg4.N) : Vec Ideal S5000x1 .f32 := iblk4 V c 2 t
abbrev biasB (c : Dev nD) (t : Fin cfg4.N) : Vec Ideal S1x128 .f32 := iblk4 V c 3 t
abbrev batB (c : Dev nD) (t : Fin cfg4.N) : Vec Ideal S5000x1 .i32 := iblk4 V c 4 t
abbrev condB (c : Dev nD) (t : Fin cfg4.N) : Vec Ideal S64x16 .f32 := iblk4 V c 5 t
abbrev lwB (c : Dev nD) (t : Fin cfg4.N) : Vec Ideal S144x2 .f32 := iblk4 V c 6 t
abbrev lbB (c : Dev nD) (t : Fin cfg4.N) : Vec Ideal S1x2 .f32 := iblk4 V c 7 t

/-- The printed index maps, decided over the ten tiles: the four row-tiled windows sit at block row t, block column 0;
    the five whole-array windows at block (0, 0). -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0) :=
  (by decide +kernel : ∀ t : Fin grid4.N, _)

/-! ## Block reads: a tile's block at a local index is its array at the global index -/

theorem aggB_apply (c : Dev nD) (t : Fin cfg4.N) (q : Fin 5000) (k : Fin 128) (r : Fin 50000)
    (hr : r.val = t.val * 5000 + q.val) : aggB V c t (ix2 q k) = aggA V c (ix2 r k) := by
  show V c main_v59 (((cfg4.win 0).blk t).view.emb (ix2 q k)) = V c main_v59 (ix2 r k)
  refine congrArg (V c main_v59) (funext fun a => Fin.ext ?_)
  obtain ⟨⟨e0, e1⟩, -⟩ := idx_facts4 t
  match a with
  | ⟨0, _⟩ => show win4_0.index t (0 : Fin 2) * 5000 + 1 * q.val = r.val; omega
  | ⟨1, _⟩ => show win4_0.index t (1 : Fin 2) * 128 + 1 * k.val = k.val; omega

theorem ysB_apply (c : Dev nD) (t : Fin cfg4.N) (q : Fin 5000) (k : Fin 128) (r : Fin 50000)
    (hr : r.val = t.val * 5000 + q.val) : ysB V c t (ix2 q k) = ysA V c (ix2 r k) := by
  show V c main_v49 (((cfg4.win 1).blk t).view.emb (ix2 q k)) = V c main_v49 (ix2 r k)
  refine congrArg (V c main_v49) (funext fun a => Fin.ext ?_)
  obtain ⟨-, ⟨e0, e1⟩, -⟩ := idx_facts4 t
  match a with
  | ⟨0, _⟩ => show win4_1.index t (0 : Fin 2) * 5000 + 1 * q.val = r.val; omega
  | ⟨1, _⟩ => show win4_1.index t (1 : Fin 2) * 128 + 1 * k.val = k.val; omega

theorem disB_apply (c : Dev nD) (t : Fin cfg4.N) (q : Fin 5000) (j : Fin 1) (r : Fin 50000)
    (hr : r.val = t.val * 5000 + q.val) : disB V c t (ix2 q j) = disA V c (ix2 r j) := by
  show V c main_v12 (((cfg4.win 2).blk t).view.emb (ix2 q j)) = V c main_v12 (ix2 r j)
  refine congrArg (V c main_v12) (funext fun a => Fin.ext ?_)
  obtain ⟨-, -, ⟨e0, e1⟩, -⟩ := idx_facts4 t
  match a with
  | ⟨0, _⟩ => show win4_2.index t (0 : Fin 2) * 5000 + 1 * q.val = r.val; omega
  | ⟨1, _⟩ => show win4_2.index t (1 : Fin 2) * 1 + 1 * j.val = j.val; omega

theorem biasB_apply (c : Dev nD) (t : Fin cfg4.N) (j : Fin 1) (k : Fin 128) :
    biasB V c t (ix2 j k) = biasA V c (ix2 j k) := by
  show V c main_v61 (((cfg4.win 3).blk t).view.emb (ix2 j k)) = V c main_v61 (ix2 j k)
  refine congrArg (V c main_v61) (funext fun a => Fin.ext ?_)
  obtain ⟨-, -, -, ⟨e0, e1⟩, -⟩ := idx_facts4 t
  match a with
  | ⟨0, _⟩ => show win4_3.index t (0 : Fin 2) * 1 + 1 * j.val = j.val; omega
  | ⟨1, _⟩ => show win4_3.index t (1 : Fin 2) * 128 + 1 * k.val = k.val; omega

theorem batB_apply (c : Dev nD) (t : Fin cfg4.N) (q : Fin 5000) (j : Fin 1) (r : Fin 50000)
    (hr : r.val = t.val * 5000 + q.val) : batB V c t (ix2 q j) = batA V c (ix2 r j) := by
  show V c main_v60 (((cfg4.win 4).blk t).view.emb (ix2 q j)) = V c main_v60 (ix2 r j)
  refine congrArg (V c main_v60) (funext fun a => Fin.ext ?_)
  obtain ⟨-, -, -, -, ⟨e0, e1⟩, -⟩ := idx_facts4 t
  match a with
  | ⟨0, _⟩ => show win4_4.index t (0 : Fin 2) * 5000 + 1 * q.val = r.val; omega
  | ⟨1, _⟩ => show win4_4.index t (1 : Fin 2) * 1 + 1 * j.val = j.val; omega

theorem condB_eq (c : Dev nD) (t : Fin cfg4.N) : condB V c t = condA V c := by
  funext y
  show V c main_arg1 (((cfg4.win 5).blk t).view.emb y) = V c main_arg1 y
  refine congrArg (V c main_arg1) (funext fun a => Fin.ext ?_)
  obtain ⟨-, -, -, -, -, ⟨e0, e1⟩, -⟩ := idx_facts4 t
  match a with
  | ⟨0, _⟩ => show win4_5.index t (0 : Fin 2) * 64 + 1 * (y 0).val = (y 0).val; omega
  | ⟨1, _⟩ => show win4_5.index t (1 : Fin 2) * 16 + 1 * (y 1).val = (y 1).val; omega

theorem lwB_eq (c : Dev nD) (t : Fin cfg4.N) : lwB V c t = lwA V c := by
  funext y
  show V c main_arg10 (((cfg4.win 6).blk t).view.emb y) = V c main_arg10 y
  refine congrArg (V c main_arg10) (funext fun a => Fin.ext ?_)
  obtain ⟨-, -, -, -, -, -, ⟨e0, e1⟩, -⟩ := idx_facts4 t
  match a with
  | ⟨0, _⟩ => show win4_6.index t (0 : Fin 2) * 144 + 1 * (y 0).val = (y 0).val; omega
  | ⟨1, _⟩ => show win4_6.index t (1 : Fin 2) * 2 + 1 * (y 1).val = (y 1).val; omega

theorem lbB_eq (c : Dev nD) (t : Fin cfg4.N) : lbB V c t = lbA V c := by
  funext y
  show V c main_v62 (((cfg4.win 7).blk t).view.emb y) = V c main_v62 y
  refine congrArg (V c main_v62) (funext fun a => Fin.ext ?_)
  obtain ⟨-, -, -, -, -, -, -, ⟨e0, e1⟩, -⟩ := idx_facts4 t
  match a with
  | ⟨0, _⟩ => show win4_7.index t (0 : Fin 2) * 1 + 1 * (y 0).val = (y 0).val; omega
  | ⟨1, _⟩ => show win4_7.index t (1 : Fin 2) * 2 + 1 * (y 1).val = (y 1).val; omega

/-! ## One tile's accumulation over plain vectors -/

/-- A tile's new sums are the sums' payload of its blocks and the sums before it. -/
theorem step4_fst (x0 x1 : Vec Ideal S5000x128 .f32) (x2 : Vec Ideal S5000x1 .f32) (x3 : Vec Ideal S1x128 .f32)
    (x4 : Vec Ideal S5000x1 .i32) (a : Vec Ideal S64x128 .f32 × Vec Ideal S64x1 .f32) :
    (step4 x0 x1 x2 x3 x4 a).1 = k4_pay6 x2 x0 x1 x3 x4 a.1 := by
  unfold step4
  dsimp only
  rw [View.canon_unit_zero hz2]
  simp only [View.ld_unit_zero (S := S5000x1) hz2, View.ld_unit_zero (S := S5000x128) hz2,
    View.ld_unit_zero (S := S1x128) hz2, View.ld_unit_zero (S := S64x128) hz2]

/-- A tile's new counts are the counts' payload of its graph ids and the counts before it. -/
theorem step4_snd (x0 x1 : Vec Ideal S5000x128 .f32) (x2 : Vec Ideal S5000x1 .f32) (x3 : Vec Ideal S1x128 .f32)
    (x4 : Vec Ideal S5000x1 .i32) (a : Vec Ideal S64x128 .f32 × Vec Ideal S64x1 .f32) :
    (step4 x0 x1 x2 x3 x4 a).2 = k4_pay1 (k4_pay7 x4 a.2) := by
  unfold step4
  dsimp only
  rw [View.canon_unit_zero hz2]
  simp only [View.ld_unit_zero (S := S5000x1) hz2, View.ld_unit_zero (S := S64x1) hz2]

/-! ## The accumulators after n tiles -/

/-- Row r's contribution to the sum of graph g at feature k: its weight at g times its combined feature at k. -/
def term4 (c : Dev nD) (g : Fin 64) (k : Fin 128) (r : Fin 50000) : EReal :=
  oh (batA V c (ix2 r 0)) g * h4 (aggA V c) (ysA V c) (disA V c) (biasA V c) (ix2 r k)

/-- Row r's contribution to the count of graph g. -/
def cnt4 (c : Dev nD) (g : Fin 64) (r : Fin 50000) : EReal := oh (batA V c (ix2 r 0)) g * 1

/-- Tile n's contribution to the sum at (g, k): its 5000 rows' (nothing past the tenth tile). -/
def tileS (c : Dev nD) (g : Fin 64) (k : Fin 128) (n : ℕ) : EReal :=
  if hn : n < 10 then ∑ q : Fin 5000, term4 V c g k ⟨n * 5000 + q.val, by omega⟩ else 0

/-- Tile n's contribution to the count of g. -/
def tileC (c : Dev nD) (g : Fin 64) (n : ℕ) : EReal :=
  if hn : n < 10 then ∑ q : Fin 5000, cnt4 V c g ⟨n * 5000 + q.val, by omega⟩ else 0

theorem acc4_past (c : Dev nD) (n : ℕ) (hn : ¬ n < cfg4.N) : acc4 V c (n + 1) = acc4 V c n := by
  rw [acc4, dif_neg hn]

/-- The sums after one more tile. -/
theorem acc4_fst_succ (c : Dev nD) (g : Fin 64) (k : Fin 128) (n : ℕ) :
    (acc4 V c (n + 1)).1 (ix2 g k) = (acc4 V c n).1 (ix2 g k) + tileS V c g k n := by
  by_cases hn : n < 10
  · have hn' : n < cfg4.N := by rw [show cfg4.N = 10 from N_4]; exact hn
    rw [acc4_succ V c n hn']
    refine (congrFun (step4_fst (aggB V c ⟨n, hn'⟩) (ysB V c ⟨n, hn'⟩) (disB V c ⟨n, hn'⟩) (biasB V c ⟨n, hn'⟩)
      (batB V c ⟨n, hn'⟩) (acc4 V c n)) (ix2 g k)).trans ?_
    refine (pay6_apply (disB V c ⟨n, hn'⟩) (aggB V c ⟨n, hn'⟩) (ysB V c ⟨n, hn'⟩) (biasB V c ⟨n, hn'⟩)
      (batB V c ⟨n, hn'⟩) (acc4 V c n).1 g k).trans ?_
    unfold tileS
    rw [dif_pos hn]
    refine congrArg ((acc4 V c n).1 (ix2 g k) + ·) (Finset.sum_congr rfl fun q _ => ?_)
    have hq : n * 5000 + q.val < 50000 := by have := q.isLt; omega
    rw [batB_apply V c ⟨n, hn'⟩ q 0 ⟨n * 5000 + q.val, hq⟩ rfl, disB_apply V c ⟨n, hn'⟩ q 0 ⟨n * 5000 + q.val, hq⟩ rfl,
      aggB_apply V c ⟨n, hn'⟩ q k ⟨n * 5000 + q.val, hq⟩ rfl, ysB_apply V c ⟨n, hn'⟩ q k ⟨n * 5000 + q.val, hq⟩ rfl,
      biasB_apply V c ⟨n, hn'⟩ 0 k]
    rfl
  · have hn' : ¬ n < cfg4.N := by rw [show cfg4.N = 10 from N_4]; exact hn
    rw [acc4_past V c n hn']
    unfold tileS
    rw [dif_neg hn, add_zero]

/-- The counts after one more tile. -/
theorem acc4_snd_succ (c : Dev nD) (g : Fin 64) (j : Fin 1) (n : ℕ) :
    (acc4 V c (n + 1)).2 (ix2 g j) = (acc4 V c n).2 (ix2 g j) + tileC V c g n := by
  by_cases hn : n < 10
  · have hn' : n < cfg4.N := by rw [show cfg4.N = 10 from N_4]; exact hn
    rw [acc4_succ V c n hn']
    refine (congrFun (step4_snd (aggB V c ⟨n, hn'⟩) (ysB V c ⟨n, hn'⟩) (disB V c ⟨n, hn'⟩) (biasB V c ⟨n, hn'⟩)
      (batB V c ⟨n, hn'⟩) (acc4 V c n)) (ix2 g j)).trans ?_
    refine (pay7_apply (batB V c ⟨n, hn'⟩) (acc4 V c n).2 g j).trans ?_
    unfold tileC
    rw [dif_pos hn]
    refine congrArg ((acc4 V c n).2 (ix2 g j) + ·) (Finset.sum_congr rfl fun q _ => ?_)
    have hq : n * 5000 + q.val < 50000 := by have := q.isLt; omega
    rw [batB_apply V c ⟨n, hn'⟩ q 0 ⟨n * 5000 + q.val, hq⟩ rfl]
    rfl
  · have hn' : ¬ n < cfg4.N := by rw [show cfg4.N = 10 from N_4]; exact hn
    rw [acc4_past V c n hn']
    unfold tileC
    rw [dif_neg hn, add_zero]

/-- After the ten tiles the sum at (g, k) is the sum over all 50000 rows: the zero fill plus the ten tiles'
    contributions, and ten tiles of 5000 rows enumerate the rows. -/
theorem acc4_fst_final (c : Dev nD) (g : Fin 64) (k : Fin 128) :
    (acc4 V c cfg4.N).1 (ix2 g k) = ∑ r : Fin 50000, term4 V c g k r := by
  rw [show cfg4.N = 10 from N_4]
  have h := Cert.Math.acc_eq_sum (fun n => (acc4 V c n).1 (ix2 g k)) (tileS V c g k) (acc4_fst_succ V c g k) 10
  refine h.trans ?_
  have h0 : (acc4 V c 0).1 (ix2 g k) = 0 := by
    rw [acc4_zero]
    exact (congrFun (View.canon_unit_zero (Val := Elt Ideal) (S := S64x128) (e := .f32) hz2 inb_S64x128_S64x128_0_0 (k4_pay3 (F := Ideal))) (ix2 g k)).trans (pay3_apply (ix2 g k))
  rw [h0, zero_add, Finset.sum_range, Cert.Math.sum_tiles (term4 V c g k)]
  refine Finset.sum_congr rfl fun t _ => ?_
  unfold tileS
  rw [dif_pos t.isLt]

/-- After the ten tiles the count of g is the number of its rows, as a sum of weights over all rows. -/
theorem acc4_snd_final (c : Dev nD) (g : Fin 64) (j : Fin 1) :
    (acc4 V c cfg4.N).2 (ix2 g j) = ∑ r : Fin 50000, cnt4 V c g r := by
  rw [show cfg4.N = 10 from N_4]
  have h := Cert.Math.acc_eq_sum (fun n => (acc4 V c n).2 (ix2 g j)) (tileC V c g) (acc4_snd_succ V c g j) 10
  refine h.trans ?_
  have h0 : (acc4 V c 0).2 (ix2 g j) = 0 := by
    rw [acc4_zero]
    exact (congrFun (View.canon_unit_zero (Val := Elt Ideal) (S := S64x1) (e := .f32) hz2 inb_S64x1_S64x1_0_0 (k4_pay4 (F := Ideal))) (ix2 g j)).trans (pay4_apply (ix2 g j))
  rw [h0, zero_add, Finset.sum_range, Cert.Math.sum_tiles (cnt4 V c g)]
  refine Finset.sum_congr rfl fun t _ => ?_
  unfold tileC
  rw [dif_pos t.isLt]

/-! ## The head over plain vectors, and at the final accumulators -/

/-- The head's one store at (g, o): the first 128 weight rows are read through the rectangle at row offset 0, the last 16
    through the rectangle at row offset 128. -/
theorem out4_8_apply (a : Vec Ideal S64x128 .f32 × Vec Ideal S64x1 .f32) (x5 : Vec Ideal S64x16 .f32)
    (x6 : Vec Ideal S144x2 .f32) (x7 : Vec Ideal S1x2 .f32) (g : Fin 64) (o : Fin 2) :
    out4_8 a x5 x6 x7 (ix2 g o)
      = ((∑ k : Fin 128, Ideal.div (a.1 (ix2 g k)) (max (a.2 (ix2 g 0)) 1) * x6 (ix2 ⟨k.val, by omega⟩ o))
          + (∑ k : Fin 16, x5 (ix2 g k) * x6 (ix2 ⟨128 + k.val, by omega⟩ o))) + x7 (ix2 0 o) := by
  unfold out4_8
  rw [View.canon_unit_zero hz2]
  simp only [View.ld_unit_zero (S := S64x128) hz2, View.ld_unit_zero (S := S64x1) hz2,
    View.ld_unit_zero (S := S64x16) hz2, View.ld_unit_zero (S := S1x2) hz2]
  refine (pay2_apply a.1 a.2 (View.ld x6 rWa4) (View.ld x6 rWb4) x5 x7 g o).trans ?_
  refine congrArg (· + x7 (ix2 0 o)) (congrArg₂ (· + ·) (Finset.sum_congr rfl fun k _ => ?_) (Finset.sum_congr rfl fun k _ => ?_))
  · refine congrArg (Ideal.div (a.1 (ix2 g k)) (max (a.2 (ix2 g 0)) 1) * ·) ?_
    show x6 (rWa4.idx (ix2 k o)) = _
    refine congrArg x6 (funext fun b => Fin.ext ?_)
    match b with
    | ⟨0, _⟩ => show 0 + 1 * k.val = k.val; omega
    | ⟨1, _⟩ => show 0 + 1 * o.val = o.val; omega
  · refine congrArg (x5 (ix2 g k) * ·) ?_
    show x6 (rWb4.idx (ix2 k o)) = _
    refine congrArg x6 (funext fun b => Fin.ext ?_)
    match b with
    | ⟨0, _⟩ => show 128 + 1 * k.val = 128 + k.val; omega
    | ⟨1, _⟩ => show 0 + 1 * o.val = o.val; omega

/-- The head of the final accumulators at (g, o) is the pooled head of the region's arrays there. -/
theorem head4_apply (c : Dev nD) (g : Fin 64) (o : Fin 2) :
    out4_8 (acc4 V c cfg4.N) (condB V c t4_9) (lwB V c t4_9) (lbB V c t4_9) (ix2 g o)
      = G4 (aggA V c) (ysA V c) (disA V c) (biasA V c) (batA V c) (condA V c) (lwA V c) (lbA V c) (ix2 g o) := by
  refine (out4_8_apply (acc4 V c cfg4.N) (condB V c t4_9) (lwB V c t4_9) (lbB V c t4_9) g o).trans ?_
  rw [condB_eq, lwB_eq, lbB_eq, acc4_snd_final V c g 0]
  simp only [acc4_fst_final V c g]
  rfl

end Reg4

open Reg4

variable (V : (c : Dev nD) → (b : Ref sig .tc) → Buf (Elt Ideal) ((c : Thread nD τ).loc b))

/-- The output array after the region: written back once, at the last tile, as one whole block, it holds the pooled head
    of the region's input arrays. -/
theorem final4 (c : Dev nD) :
    (dat4 (F := Ideal) V c).arrAt 8 cfg4.N
      = G4 (V c main_v59) (V c main_v49) (V c main_v12) (V c main_v61) (V c main_v60) (V c main_arg1) (V c main_arg10)
          (V c main_v62) := by
  refine (dat4 (F := Ideal) V c).arrAt_eq_of_cover 8 _ (fun t _ => ?_) (fun i => ?_)
  · -- what a flushing tile writes back is the (one, whole) block of the pooled head
    show (cfg4.win 8).cut (grid4.coords t) ((dat4 (F := Ideal) V c).after 8 t) = _
    rw [after4_8]
    funext j
    obtain ⟨-, -, -, -, -, -, -, -, ⟨e0, e1⟩⟩ := idx_facts4 t
    have hj : ((cfg4.win 8).blk t).view.emb j = j := funext fun a => Fin.ext (by
      match a with
      | ⟨0, _⟩ => show win4_8.index t (0 : Fin 2) * 64 + 1 * (j 0).val = (j 0).val; omega
      | ⟨1, _⟩ => show win4_8.index t (1 : Fin 2) * 2 + 1 * (j 1).val = (j 1).val; omega)
    show out4_8 (acc4 V c cfg4.N) (iblk4 V c 5 t4_9) (iblk4 V c 6 t4_9) (iblk4 V c 7 t4_9) j
      = G4 (V c main_v59) (V c main_v49) (V c main_v12) (V c main_v61) (V c main_v60) (V c main_arg1) (V c main_arg10)
          (V c main_v62) (((cfg4.win 8).blk t).view.emb j)
    rw [hj]
    obtain ⟨g, o, rfl⟩ : ∃ (g : Fin 64) (o : Fin 2), j = ix2 g o := ⟨j 0, j 1, eq_ix2 j⟩
    exact head4_apply V c g o
  · -- the last tile's block is the whole array
    refine ⟨t4_9, (flush4_8 t4_9).mpr rfl, ?_⟩
    show i ∈ ((View.whole main_v63).slice (win4_8.rect t4_9)).set
    rw [View.set_slice_whole, Rect.mem_set_unit]
    obtain ⟨-, -, -, -, -, -, -, -, ⟨e0, e1⟩⟩ := idx_facts4 t4_9
    intro a
    match a with
    | ⟨0, _⟩ =>
      show win4_8.index t4_9 (0 : Fin 2) * 64 ≤ (i 0).val ∧ (i 0).val < win4_8.index t4_9 (0 : Fin 2) * 64 + 64
      have hi : (i 0).val < 64 := (i 0).isLt
      omega
    | ⟨1, _⟩ =>
      show win4_8.index t4_9 (1 : Fin 2) * 2 ≤ (i 1).val ∧ (i 1).val < win4_8.index t4_9 (1 : Fin 2) * 2 + 2
      have hi : (i 1).val < 2 := (i 1).isLt
      omega

end Cert.KernelIdeal.Val

end
-- ==== Proof.Val.Kernel.lean ====
/- The kernel program's result as a function of its arguments, at the ideal values: the last region's output array,
   in its closed form over the arrays that region finds, with each of those arrays read back through the program to the
   launch. The last region finds the neighbour sums of the fourth layer's array, that array, the normaliser column, the
   fourth bias as a row, the graph ids as a column, the conditioning, the head weights and the head bias as a row. -/
import proofs.«427340_j652835029230_2_alg».proof.Proof.Val.Kernel0
import proofs.«427340_j652835029230_2_alg».proof.Proof.Val.Reg4

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

/-- The kernel program's result as one function of its fourteen arguments. -/
def kOut (x : FVec Ideal S50000x128 .f32) (cond : FVec Ideal S64x16 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32) (linW : FVec Ideal S144x2 .f32) (linb : FVec Ideal S2 .f32)
    (edge : IVec S2x800000 32) (batch : IVec S50000 32) : FVec Ideal S64x2 .f32 :=
  G4 (kAgg edge (kY4 x w1 b1 w2 b2 w3 b3 w4 edge)) (kY4 x w1 b1 w2 b2 w3 b3 w4 edge) (kDisCol edge) (kB b4) (kBatchCol batch)
    cond linW (kLinb linb)

/-- The result buffer at the end of the program is `kOut` of the launch's argument arrays. -/
theorem kernel_out (m : (ℓ : Loc nD τ sig) → Buf (Elt Ideal) ℓ) (c : Dev nD) :
    W10 (F := Ideal) m c (Proc.devRef .tc main_v63)
      = kOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  have h := final4 (U9 m) c
  rw [show U9 m c main_v59 = kAgg (ar m c main_arg12) (y4 m c) from W9_v59 m c,
    show U9 m c main_v49 = y4 m c from W9_v49 m c,
    show U9 m c main_v12 = kDisCol (ar m c main_arg12) from W9_v12 m c,
    show U9 m c main_v61 = kB (ar m c main_arg9) from W9_v61 m c,
    show U9 m c main_v60 = kBatchCol (ar m c main_arg13) from W9_v60 m c,
    show U9 m c main_arg1 = ar m c main_arg1 from W9_arg1 m c,
    show U9 m c main_arg10 = ar m c main_arg10 from W9_arg10 m c,
    show U9 m c main_v62 = kLinb (ar m c main_arg11) from W9_v62 m c] at h
  exact (W10_main_v63 m c).trans h

end Cert.KernelIdeal.Val

end
-- ==== Proof.Val.Idx.lean ====
/- Which element the host gathers and scatters of the two printed programs touch, decoded once.

   The programs index NODES (50000 rows) by the edge endpoints (800000 words each) and GRAPHS (64) by the batch
   vector (50000 words). A gather reads its start index as a signed word and clamps it into the operand; a scatter
   reads it signed and drops an update that lands outside the operand. Both take their indices as an [n x 1] column.

   * gathers: the result at (e, f) is the operand's row (the clamped word of the column at e) at column f; the flat
     gather likewise without f;
   * scatters: update (e, f') lands at (r, f) exactly when f' = f and the column's word at e, read signed, is r;
   * the index normalisation (a negative word gets the row count added) followed by the clamp is the identity on a word
     that already names a row;
   * a vector laid as a column reads at (e, 0) the vector at e;
   * a 32-bit word equals the word of a small number g exactly when its signed reading is g, and the column counter
     of the 5000 x 64 tile reads g at (r, g);
   * a reshape between a vector and a one-column or one-row array keeps the row-major position, so it reads the same
     element; a row of the edge list taken as a block and flattened reads at e the list at (that row, e).

   Each fact is proved once for ANY dimension record of the printed kind (the record's fields given as equations),
   then read off for the records of the two programs, whose fields are those literals. -/
import proofs.«427340_j652835029230_2_alg».proof.KernelIdeal
import proofs.«427340_j652835029230_2_alg».proof.ReferenceIdeal
import Idealize.ShloMosaic.Lib.ValueIdx
import Idealize.ShloMosaic.Lib.StableHlo.Predicate

noncomputable section

namespace Cert.IdxVal

open Idealize.ShloMosaic Idealize.ShloMosaic.ValueIdx

/-! ## Words -/

/-- The row a gather reads for start word w over 50000 rows: w read signed and clamped into [0, 49999]. -/
def rowOf (w : BitVec 32) : Fin 50000 := ⟨min w.toInt.toNat 49999, by omega⟩

/-- The index normalisation of x[i]: a negative word gets the row count added. -/
def norm (w : BitVec 32) : BitVec 32 := Scalar.select (IntOp.cmpi .slt w 0#32) (IntOp.addi w 50000#32) w

/-- A word whose signed reading is not negative does not compare below zero. -/
theorem slt_zero_of_nonneg {w : BitVec 32} (h : 0 ≤ w.toInt) : IntOp.cmpi .slt w 0#32 = 0#1 := by
  have hs : w.slt 0#32 = false := by
    simp only [BitVec.slt, BitVec.toInt_zero, decide_eq_false_iff_not, not_lt]; exact h
  simp only [IntOp.cmpi, hs]; rfl

/-- A word whose signed reading is a row number is not negative: normalising leaves it alone. -/
theorem norm_of_toInt {w : BitVec 32} {r : Fin 50000} (h : w.toInt = (r.val : ℤ)) : norm w = w := by
  unfold norm
  rw [slt_zero_of_nonneg (by rw [h]; exact Int.natCast_nonneg _)]
  exact select_zero _ _

/-- The clamp of a word whose signed reading is a row number is that row. -/
theorem rowOf_of_toInt {w : BitVec 32} {r : Fin 50000} (h : w.toInt = (r.val : ℤ)) : rowOf w = r := by
  apply Fin.ext
  show min w.toInt.toNat 49999 = r.val
  rw [h, Int.toNat_natCast]
  have := r.isLt
  omega

/-- (N) Normalisation then clamp is the identity on an in-range word. -/
theorem rowOf_norm {w : BitVec 32} {r : Fin 50000} (h : w.toInt = (r.val : ℤ)) :
    rowOf (Scalar.select (IntOp.cmpi .slt w 0#32) (IntOp.addi w 50000#32) w) = r := by
  show rowOf (norm w) = r
  rw [norm_of_toInt h]
  exact rowOf_of_toInt h

/-- (N) The same with the word sum written as the machine addition. -/
theorem rowOf_norm' {w : BitVec 32} {r : Fin 50000} (h : w.toInt = (r.val : ℤ)) :
    rowOf (Scalar.select (IntOp.cmpi .slt w 0#32) (w + 50000#32) w) = r := rowOf_norm h

/-- The printed compare / add / select over a vector of words, read at an index, is the normalisation of the word there
    (the two constants are the broadcast scalars 0 and 50000). -/
theorem norm_apply {s : Shape} (v z c : IVec s 32) (hz : ∀ i, z i = 0#32) (hc : ∀ i, c i = 50000#32) (i : s.Idx) :
    select (cmpi .slt v z) (addi v c) v i = norm (v i) := by
  show Scalar.select (IntOp.cmpi .slt (v i) (z i)) (IntOp.addi (v i) (c i)) (v i) = norm (v i)
  rw [hz, hc]
  rfl

/-- (OH) A 32-bit word is the word of a number below 2^31 exactly when its signed reading is that number. -/
theorem eq_ofNat_iff_toInt (b : BitVec 32) (g : ℕ) (hg : g < 2 ^ 31) : b = BitVec.ofNat 32 g ↔ b.toInt = (g : ℤ) := by
  constructor
  · rintro rfl
    exact StableHlo.Predicate.toInt_ofNat_small g hg
  · intro h
    apply BitVec.eq_of_toInt_eq
    rw [h, StableHlo.Predicate.toInt_ofNat_small g hg]

/-- (OH) For a graph number. -/
theorem eq_ofNat_iff_toInt64 (b : BitVec 32) (g : Fin 64) : b = BitVec.ofNat 32 g.val ↔ b.toInt = (g.val : ℤ) :=
  eq_ofNat_iff_toInt b g.val (by have := g.isLt; omega)

/-- (OH) The equality compare against the word of g is set exactly when the signed reading is g. -/
theorem cmpi_eq_ofNat_iff (b : BitVec 32) (g : Fin 64) :
    IntOp.cmpi .eq b (BitVec.ofNat 32 g.val) = 1#1 ↔ b.toInt = (g.val : ℤ) := by
  rw [StableHlo.Predicate.cmpi_eq_iff]
  exact eq_ofNat_iff_toInt64 b g

/-! ## Indices by coordinates -/

theorem ix1_eq_ofFin {n : Nat} (p : Fin n) : (ix1 p : (⟨1, ![n]⟩ : Shape).Idx) = Shape.Idx.ofFin p := by
  funext a
  match a with
  | ⟨0, _⟩ => rfl

theorem ix2_zero_eq_ixP {n : Nat} (p : Fin n) :
    (ix2 p (0 : Fin 1) : (⟨2, ![n, 1]⟩ : Shape).Idx) = StableHlo.Predicate.ixP p := by
  funext a
  match a with
  | ⟨0, _⟩ => rfl
  | ⟨1, _⟩ => rfl

/-- Any entry of a one-element list is that element. -/
theorem getElem_of_eq_singleton {β : Type} {l : List β} {b : β} (hl : l = [b]) (i : Nat) (hi : i < l.length) :
    l[i] = b := by
  subst hl
  exact List.getElem_singleton hi

/-! ## The generic facts -/

section Generic
variable {α : Type}

/-- (B) A vector laid as an [n x 1] column reads at (e, 0) the vector at e. -/
theorem bcast_col_apply {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  rw [ix2_zero_eq_ixP, ix1_eq_ofFin]
  exact StableHlo.Predicate.bcast_col1 h v e

/-- (G1) The flat gather [N] by an [n x 1] column of start words: the result at e is the operand at the column's word at
    e, read signed and clamped into [0, N - 1]. -/
theorem gather_flat {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ w) (e : Fin n) :
    Host.gather d x idx (ix1 e) = x (ix1 ⟨min (idx (ix2 e (0 : Fin 1))).toInt.toNat (N - 1), by omega⟩) := by
  simp only [ix1_eq_ofFin, ix2_zero_eq_ixP]
  exact StableHlo.Predicate.gather_take d hcoll hob hsim hivd x idx e hN

/-- The start-index column entry a row gather reads at result (e, f): (e, 0). -/
theorem gather_siIdx {s : Shape} {n C : Nat} (d : GatherDims s ⟨2, ![n, 1]⟩ ⟨2, ![n, C]⟩)
    (hoff : d.offsetDims = [1]) (hivd : d.indexVectorDim = 1) (e : Fin n) (f : Fin C)
    (c : Fin d.startIndexMap.length) : d.siIdx (ix2 e f) c = ix2 e (0 : Fin 1) := by
  obtain ⟨od, cd, ob, sb, sm, iv, ss, wf⟩ := d
  dsimp only at hoff hivd c ⊢
  subst hoff hivd
  funext b
  refine Fin.ext ?_
  match b with
  | ⟨0, _⟩ => rfl
  | ⟨1, _⟩ => exact Nat.lt_one_iff.mp (Fin.isLt _)

/-- (G2) The row gather [N x C] by an [n x 1] column of start words, whole rows: the result at (e, f) is the operand at
    (the column's word at e read signed and clamped into [0, N - 1], f). -/
theorem gather_rows {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![n, 1]⟩ w) (e : Fin n) (f : Fin C) :
    Host.gather d x idx (ix2 e f) = x (ix2 ⟨min (idx (ix2 e (0 : Fin 1))).toInt.toNat (N - 1), by omega⟩ f) := by
  have h10 : (1 : Fin 2) ≠ 0 := by decide
  have hsl : d.sliceSizes (0 : Fin 2) = 1 := d.slice_collapsed 0 (by rw [hcoll]; exact List.mem_singleton.mpr rfl)
  have hsi := gather_siIdx d hoff hivd e f
  have hb : ∀ a, a ∉ d.operandBatchingDims := by rw [hob]; exact fun _ => List.not_mem_nil
  have hk0 : (0 : Fin 2) ∉ d.sKept := by
    rw [GatherDims.mem_sKept, hcoll]; exact fun h => h.1 (List.mem_singleton.mpr rfl)
  have hk1 : (1 : Fin 2) ∈ d.sKept := by
    rw [GatherDims.mem_sKept, hcoll, hob]; exact ⟨fun h => h10 (List.mem_singleton.mp h), List.not_mem_nil⟩
  have hm0 : (0 : Fin 2) ∈ d.startIndexMap := by rw [hsim]; exact List.mem_singleton.mpr rfl
  have hm1 : (1 : Fin 2) ∉ d.startIndexMap := by rw [hsim]; exact fun h => h10 (List.mem_singleton.mp h)
  unfold Host.gather
  congr 1
  funext a
  refine Fin.ext ?_
  show d.start (ix2 e f) idx a + d.batchCoord (ix2 e f) a + d.offCoord (ix2 e f) a = _
  rw [GatherDims.batchCoord_eq_zero _ _ _ (hb a), Nat.add_zero]
  match a with
  | ⟨0, _⟩ =>
    -- the row axis: the clamped start word, no offset
    show d.start (ix2 e f) idx (0 : Fin 2) + d.offCoord (ix2 e f) (0 : Fin 2) = _
    rw [GatherDims.offCoord_eq_zero _ _ _ hk0, Nat.add_zero]
    unfold GatherDims.start
    rw [dif_pos hm0, hsi]
    show min _ (N - d.sliceSizes (0 : Fin 2)) = _
    rw [hsl]
  | ⟨1, _⟩ =>
    -- the column axis: no start, the result's own column as offset
    show d.start (ix2 e f) idx (1 : Fin 2) + d.offCoord (ix2 e f) (1 : Fin 2) = f.val
    unfold GatherDims.start
    rw [dif_neg hm1, Nat.zero_add]
    unfold GatherDims.offCoord
    rw [dif_pos hk1, getElem_of_eq_singleton hoff]
    rfl

/-- An operand axis is kept by a scatter exactly when it is not an inserted one. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- The scatter-index column entry a row scatter reads for update (e, f'): (e, 0). -/
theorem scatter_siIdx_rows {s : Shape} {n C : Nat} (d : ScatterDims s ⟨2, ![n, 1]⟩ ⟨2, ![n, C]⟩)
    (huw : d.updateWindowDims = [1]) (hivd : d.indexVectorDim = 1) (e : Fin n) (f' : Fin C)
    (c : Fin d.scatterDimsToOperandDims.length) : d.siIdx (ix2 e f') c = ix2 e (0 : Fin 1) := by
  obtain ⟨uw, iw, sd, iv, wf⟩ := d
  dsimp only at huw hivd c ⊢
  subst huw hivd
  funext b
  refine Fin.ext ?_
  match b with
  | ⟨0, _⟩ => rfl
  | ⟨1, _⟩ => exact Nat.lt_one_iff.mp (Fin.isLt _)

/-- The scatter-index column entry a flat scatter reads for update e: (e, 0). -/
theorem scatter_siIdx_flat {s : Shape} {n : Nat} (d : ScatterDims s ⟨2, ![n, 1]⟩ ⟨1, ![n]⟩)
    (huw : d.updateWindowDims = []) (hivd : d.indexVectorDim = 1) (e : Fin n)
    (c : Fin d.scatterDimsToOperandDims.length) : d.siIdx (ix1 e) c = ix2 e (0 : Fin 1) := by
  obtain ⟨uw, iw, sd, iv, wf⟩ := d
  dsimp only at huw hivd c ⊢
  subst huw hivd
  funext b
  refine Fin.ext ?_
  match b with
  | ⟨0, _⟩ => rfl
  | ⟨1, _⟩ => exact Nat.lt_one_iff.mp (Fin.isLt _)

/-- (S1) The flat scatter into [N] of [n] updates by an [n x 1] column of words: update e lands at r exactly when the
    column's word at e, read signed, is r. -/
theorem scatter_flat {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (r : Fin N) :
    d.resultIdx? (ix1 e) idx = some (ix1 r) ↔ (idx (ix2 e (0 : Fin 1))).toInt = (r.val : ℤ) := by
  have hm0 : (0 : Fin 1) ∈ d.scatterDimsToOperandDims := by rw [hsd]; exact List.mem_singleton.mpr rfl
  have hk0 : (0 : Fin 1) ∉ d.sKept := by
    rw [scatter_mem_sKept, hiw]; exact fun h => h (List.mem_singleton.mpr rfl)
  -- the one axis: the start word read signed, no window coordinate
  have h0 : ∀ a : Fin 1, d.start (ix1 e) idx a + (d.window (ix1 e) a : ℤ) = (idx (ix2 e (0 : Fin 1))).toInt := by
    intro a
    obtain rfl : a = 0 := Subsingleton.elim _ _
    unfold ScatterDims.start ScatterDims.window
    rw [dif_pos hm0, dif_neg hk0, scatter_siIdx_flat d huw hivd e]
    simp
  have hr := r.isLt
  unfold ScatterDims.resultIdx?
  constructor
  · intro h
    split at h
    · rename_i hall
      have e0 : (d.start (ix1 e) idx (0 : Fin 1) + (d.window (ix1 e) (0 : Fin 1) : ℤ)).toNat = r.val :=
        congrArg (fun i : (⟨1, ![N]⟩ : Shape).Idx => (i (0 : Fin 1)).val) (Option.some.inj h)
      have hb := (hall (0 : Fin 1)).1
      rw [h0] at e0 hb
      omega
    · exact absurd h (by simp)
  · intro ht
    have hall : ∀ a : Fin 1, 0 ≤ d.start (ix1 e) idx a + (d.window (ix1 e) a : ℤ) ∧
        d.start (ix1 e) idx a + (d.window (ix1 e) a : ℤ) < ((⟨1, ![N]⟩ : Shape).size a : ℤ) := by
      intro a
      rw [h0 a, ht]
      obtain rfl : a = 0 := Subsingleton.elim _ _
      exact ⟨Int.natCast_nonneg _, by exact_mod_cast hr⟩
    rw [dif_pos hall]
    congr 1
    funext a
    refine Fin.ext ?_
    obtain rfl : a = 0 := Subsingleton.elim _ _
    show (d.start (ix1 e) idx (0 : Fin 1) + (d.window (ix1 e) (0 : Fin 1) : ℤ)).toNat = r.val
    rw [h0, ht, Int.toNat_natCast]

/-- (S2) The row scatter into [N x C] of [n x C] updates by an [n x 1] column of words: update (e, f') lands at (r, f)
    exactly when f' = f and the column's word at e, read signed, is r. -/
theorem scatter_rows {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (f' f : Fin C) (r : Fin N) :
    d.resultIdx? (ix2 e f') idx = some (ix2 r f) ↔ f' = f ∧ (idx (ix2 e (0 : Fin 1))).toInt = (r.val : ℤ) := by
  have h10 : (1 : Fin 2) ≠ 0 := by decide
  have hm0 : (0 : Fin 2) ∈ d.scatterDimsToOperandDims := by rw [hsd]; exact List.mem_singleton.mpr rfl
  have hm1 : (1 : Fin 2) ∉ d.scatterDimsToOperandDims := by rw [hsd]; exact fun h => h10 (List.mem_singleton.mp h)
  have hk0 : (0 : Fin 2) ∉ d.sKept := by
    rw [scatter_mem_sKept, hiw]; exact fun h => h (List.mem_singleton.mpr rfl)
  have hk1 : (1 : Fin 2) ∈ d.sKept := by
    rw [scatter_mem_sKept, hiw]; exact fun h => h10 (List.mem_singleton.mp h)
  -- the row axis: the start word read signed, no window coordinate
  have h0 : d.start (ix2 e f') idx (0 : Fin 2) + (d.window (ix2 e f') (0 : Fin 2) : ℤ)
      = (idx (ix2 e (0 : Fin 1))).toInt := by
    unfold ScatterDims.start ScatterDims.window
    rw [dif_pos hm0, dif_neg hk0, scatter_siIdx_rows d huw hivd e f']
    simp
  -- the column axis: no start, the update's own column as window coordinate
  have h1 : d.start (ix2 e f') idx (1 : Fin 2) + (d.window (ix2 e f') (1 : Fin 2) : ℤ) = (f'.val : ℤ) := by
    unfold ScatterDims.start ScatterDims.window
    rw [dif_neg hm1, dif_pos hk1, getElem_of_eq_singleton huw, Int.zero_add]
    rfl
  have hr := r.isLt
  have hf' := f'.isLt
  unfold ScatterDims.resultIdx?
  constructor
  · intro h
    split at h
    · rename_i hall
      have heq := Option.some.inj h
      have e0 : (d.start (ix2 e f') idx (0 : Fin 2) + (d.window (ix2 e f') (0 : Fin 2) : ℤ)).toNat = r.val :=
        congrArg (fun i : (⟨2, ![N, C]⟩ : Shape).Idx => (i (0 : Fin 2)).val) heq
      have e1 : (d.start (ix2 e f') idx (1 : Fin 2) + (d.window (ix2 e f') (1 : Fin 2) : ℤ)).toNat = f.val :=
        congrArg (fun i : (⟨2, ![N, C]⟩ : Shape).Idx => (i (1 : Fin 2)).val) heq
      have hb := (hall (0 : Fin 2)).1
      rw [h0] at e0 hb
      rw [h1, Int.toNat_natCast] at e1
      exact ⟨Fin.ext e1, by omega⟩
    · exact absurd h (by simp)
  · rintro ⟨rfl, ht⟩
    have hall : ∀ a : Fin 2, 0 ≤ d.start (ix2 e f') idx a + (d.window (ix2 e f') a : ℤ) ∧
        d.start (ix2 e f') idx a + (d.window (ix2 e f') a : ℤ) < ((⟨2, ![N, C]⟩ : Shape).size a : ℤ) := by
      refine Fin.forall_fin_two.mpr ⟨?_, ?_⟩
      · rw [h0, ht]
        exact ⟨Int.natCast_nonneg _, by exact_mod_cast hr⟩
      · rw [h1]
        exact ⟨Int.natCast_nonneg _, by exact_mod_cast hf'⟩
    rw [dif_pos hall]
    congr 1
    funext a
    refine Fin.ext ?_
    match a with
    | ⟨0, _⟩ =>
      show (d.start (ix2 e f') idx (0 : Fin 2) + (d.window (ix2 e f') (0 : Fin 2) : ℤ)).toNat = r.val
      rw [h0, ht, Int.toNat_natCast]
    | ⟨1, _⟩ =>
      show (d.start (ix2 e f') idx (1 : Fin 2) + (d.window (ix2 e f') (1 : Fin 2) : ℤ)).toNat = f'.val
      rw [h1, Int.toNat_natCast]

/-- (OH) The counter along axis 1 of an [R x G] tile reads the word of g at (r, g). -/
theorem iota_cols_apply {κ : Kind} {R G : Nat} (h : (⟨2, ![R, G]⟩ : Shape).Iotas κ 32 [1]) (r : Fin R) (g : Fin G) :
    iota κ ⟨2, ![R, G]⟩ 32 [1] h (ix2 r g) = BitVec.ofNat 32 g.val := by
  show BitVec.ofNat 32 (0 * G + g.val) = BitVec.ofNat 32 g.val
  rw [Nat.zero_mul, Nat.zero_add]

end Generic

/-! ## Reshapes and row slices read at an index -/

section Reshape
variable {α : Type}

/-- A vector reshaped to an [n x 1] column reads at (r, 0) the vector at r: both sit at row-major position r. -/
theorem shapeCast_col {n : Nat} (h : (⟨1, ![n]⟩ : Shape).ShapeCasts ⟨2, ![n, 1]⟩)
    (v : (⟨1, ![n]⟩ : Shape).Idx → α) (r : Fin n) :
    shapeCast ⟨2, ![n, 1]⟩ v h (ix2 r (0 : Fin 1)) = v (ix1 r) := by
  show v (Shape.reshapeEquiv h (ix2 r (0 : Fin 1))) = v (ix1 r)
  congr 1
  apply Shape.reshapeEquiv_eq_of_rowMajor
  rw [Shape.rowMajor_val_one, Shape.rowMajor_val_two]
  show r.val = r.val * 1 + 0
  omega

/-- A vector reshaped to a [1 x m] row reads at (0, k) the vector at k: both sit at row-major position k. -/
theorem shapeCast_row {m : Nat} (h : (⟨1, ![m]⟩ : Shape).ShapeCasts ⟨2, ![1, m]⟩)
    (b : (⟨1, ![m]⟩ : Shape).Idx → α) (k : Fin m) :
    shapeCast ⟨2, ![1, m]⟩ b h (ix2 (0 : Fin 1) k) = b (ix1 k) := by
  show b (Shape.reshapeEquiv h (ix2 (0 : Fin 1) k)) = b (ix1 k)
  congr 1
  apply Shape.reshapeEquiv_eq_of_rowMajor
  rw [Shape.rowMajor_val_one, Shape.rowMajor_val_two]
  show k.val = 0 * m + k.val
  omega

/-- A [1 x m] row reshaped to a vector reads at k the row at (0, k). -/
theorem shapeCast_of_row {m : Nat} (h : (⟨2, ![1, m]⟩ : Shape).ShapeCasts ⟨1, ![m]⟩)
    (x : (⟨2, ![1, m]⟩ : Shape).Idx → α) (k : Fin m) :
    shapeCast ⟨1, ![m]⟩ x h (ix1 k) = x (ix2 (0 : Fin 1) k) := by
  show x (Shape.reshapeEquiv h (ix1 k)) = x (ix2 (0 : Fin 1) k)
  congr 1
  apply Shape.reshapeEquiv_eq_of_rowMajor
  rw [Shape.rowMajor_val_one, Shape.rowMajor_val_two]
  show 0 * m + k.val = k.val
  omega

/-- Row p of an [R x m] array taken as a [1 x m] block reads at (0, k) the array at (p, k). -/
theorem slice_row_apply {R m p : Nat} (hp : p < R)
    (h : (⟨2, ![R, m]⟩ : Shape).Slices ![p, 0] ⟨2, ![1, m]⟩)
    (x : (⟨2, ![R, m]⟩ : Shape).Idx → α) (k : Fin m) :
    extractStridedSlice ⟨2, ![1, m]⟩ ![p, 0] x h (ix2 (0 : Fin 1) k) = x (ix2 ⟨p, hp⟩ k) := by
  unfold extractStridedSlice
  congr 1
  funext a
  refine Fin.ext ?_
  match a with
  | ⟨0, _⟩ => exact Nat.add_zero p
  | ⟨1, _⟩ => exact Nat.zero_add k.val

/-- Row p of an [R x m] array taken as a block and flattened reads at k the array at (p, k). -/
theorem slice_row_flat_apply {R m p : Nat} (hp : p < R)
    (h : (⟨2, ![R, m]⟩ : Shape).Slices ![p, 0] ⟨2, ![1, m]⟩)
    (hc : (⟨2, ![1, m]⟩ : Shape).ShapeCasts ⟨1, ![m]⟩)
    (x : (⟨2, ![R, m]⟩ : Shape).Idx → α) (k : Fin m) :
    shapeCast ⟨1, ![m]⟩ (extractStridedSlice ⟨2, ![1, m]⟩ ![p, 0] x h) hc (ix1 k) = x (ix2 ⟨p, hp⟩ k) := by
  rw [shapeCast_of_row, slice_row_apply hp]

end Reshape

/-! ## The kernel program's records -/

namespace K
open Cert.KernelIdeal
variable [Cert.KernelIdeal.Facts₀] {α : Type}

/-- (G2) The row gather of the kernel program: result (e, f) is the operand at (the clamped row of the column's word at e, f). -/
theorem gather2 (x : S50000x128.Idx → α) (idx : IVec S800000x1 32) (e : Fin 800000) (f : Fin 128) :
    Host.gather gather_S50000x128_S800000x1_S800000x128_1_0_n_n_0_1_1128 x idx (ix2 e f)
      = x (ix2 (rowOf (idx (ix2 e (0 : Fin 1)))) f) :=
  gather_rows gather_S50000x128_S800000x1_S800000x128_1_0_n_n_0_1_1128 rfl rfl rfl rfl rfl (by omega) x idx e f

/-- (S2) The row scatter of the kernel program: update (e, f') lands at (r, f) exactly when f' = f and the column's word
    at e reads r. -/
theorem scatter2 (idx : IVec S800000x1 32) (e : Fin 800000) (f' f : Fin 128) (r : Fin 50000) :
    scatter_S50000x128_S800000x1_S800000x128_1_0_0_1.resultIdx? (ix2 e f') idx = some (ix2 r f)
      ↔ f' = f ∧ (idx (ix2 e (0 : Fin 1))).toInt = (r.val : ℤ) :=
  scatter_rows scatter_S50000x128_S800000x1_S800000x128_1_0_0_1 rfl rfl rfl rfl idx e f' f r

/-- (S1) The flat scatter of the kernel program (the degree count): update e lands at r exactly when the column's word at e
    reads r. -/
theorem scatter1 (idx : IVec S800000x1 32) (e : Fin 800000) (r : Fin 50000) :
    scatter_S50000_S800000x1_S800000_n_0_0_1.resultIdx? (ix1 e) idx = some (ix1 r)
      ↔ (idx (ix2 e (0 : Fin 1))).toInt = (r.val : ℤ) :=
  scatter_flat scatter_S50000_S800000x1_S800000_n_0_0_1 rfl rfl rfl rfl idx e r

/-- (B) An edge vector laid as a column reads at (e, 0) the vector at e. -/
theorem bcast_edges (v : S800000.Idx → α) (e : Fin 800000) :
    broadcastInDim S800000x1 ![0] Facts₀.bcast_S800000_S800000x1_0 v (ix2 e (0 : Fin 1)) = v (ix1 e) :=
  bcast_col_apply Facts₀.bcast_S800000_S800000x1_0 v e

/-- (OH) The column counter of the 5000 x 64 tile reads the word of g at (r, g). -/
theorem iota_tile (r : Fin 5000) (g : Fin 64) :
    iota .tc S5000x64 32 [1] Facts₀.iota_S5000x64_d1_w32 (ix2 r g) = BitVec.ofNat 32 g.val :=
  iota_cols_apply Facts₀.iota_S5000x64_d1_w32 r g

/-- The node vector (the degree normaliser, or the batch vector) reshaped to a column reads at (r, 0) the vector at r. -/
theorem reshape_nodes (v : S50000.Idx → α) (r : Fin 50000) :
    shapeCast S50000x1 v Facts₀.shapeCasts_S50000_S50000x1 (ix2 r (0 : Fin 1)) = v (ix1 r) :=
  shapeCast_col Facts₀.shapeCasts_S50000_S50000x1 v r

/-- A bias vector reshaped to a [1 x 128] row reads at (0, k) the vector at k. -/
theorem reshape_bias (b : S128.Idx → α) (k : Fin 128) :
    shapeCast S1x128 b Facts₀.shapeCasts_S128_S1x128 (ix2 (0 : Fin 1) k) = b (ix1 k) :=
  shapeCast_row Facts₀.shapeCasts_S128_S1x128 b k

/-- The head's bias reshaped to a [1 x 2] row reads at (0, k) the vector at k. -/
theorem reshape_bias2 (b : S2.Idx → α) (k : Fin 2) :
    shapeCast S1x2 b Facts₀.shapeCasts_S2_S1x2 (ix2 (0 : Fin 1) k) = b (ix1 k) :=
  shapeCast_row Facts₀.shapeCasts_S2_S1x2 b k

/-- The sources of the edges: row 0 of the edge list, read at e. -/
theorem src_apply (edge : S2x800000.Idx → α) (e : Fin 800000) :
    shapeCast S800000 (extractStridedSlice S1x800000 ![0, 0] edge Facts₀.slices_S2x800000_S1x800000_0_0)
        Facts₀.shapeCasts_S1x800000_S800000 (ix1 e) = edge (ix2 (0 : Fin 2) e) :=
  slice_row_flat_apply (by omega) Facts₀.slices_S2x800000_S1x800000_0_0 Facts₀.shapeCasts_S1x800000_S800000 edge e

/-- The destinations of the edges: row 1 of the edge list, read at e. -/
theorem dst_apply (edge : S2x800000.Idx → α) (e : Fin 800000) :
    shapeCast S800000 (extractStridedSlice S1x800000 ![1, 0] edge Facts₀.slices_S2x800000_S1x800000_1_0)
        Facts₀.shapeCasts_S1x800000_S800000 (ix1 e) = edge (ix2 (1 : Fin 2) e) :=
  slice_row_flat_apply (by omega) Facts₀.slices_S2x800000_S1x800000_1_0 Facts₀.shapeCasts_S1x800000_S800000 edge e

end K

/-! ## The reference program's records -/

namespace R
open Cert.ReferenceIdeal
variable [Cert.ReferenceIdeal.Facts₀] {α : Type}

/-- (G2) The row gather of the reference program. -/
theorem gather2 (x : S50000x128.Idx → α) (idx : IVec S800000x1 32) (e : Fin 800000) (f : Fin 128) :
    Host.gather gather_S50000x128_S800000x1_S800000x128_1_0_n_n_0_1_1128 x idx (ix2 e f)
      = x (ix2 (rowOf (idx (ix2 e (0 : Fin 1)))) f) :=
  gather_rows gather_S50000x128_S800000x1_S800000x128_1_0_n_n_0_1_1128 rfl rfl rfl rfl rfl (by omega) x idx e f

/-- (G1) The flat gather of the reference program (the degree normaliser at an edge endpoint). -/
theorem gather1 (x : S50000.Idx → α) (idx : IVec S800000x1 32) (e : Fin 800000) :
    Host.gather gather_S50000_S800000x1_S800000_n_0_n_n_0_1_1 x idx (ix1 e)
      = x (ix1 (rowOf (idx (ix2 e (0 : Fin 1))))) :=
  gather_flat gather_S50000_S800000x1_S800000_n_0_n_n_0_1_1 rfl rfl rfl rfl (by omega) x idx e

/-- (S2) The row scatter of the reference program. -/
theorem scatter2 (idx : IVec S800000x1 32) (e : Fin 800000) (f' f : Fin 128) (r : Fin 50000) :
    scatter_S50000x128_S800000x1_S800000x128_1_0_0_1.resultIdx? (ix2 e f') idx = some (ix2 r f)
      ↔ f' = f ∧ (idx (ix2 e (0 : Fin 1))).toInt = (r.val : ℤ) :=
  scatter_rows scatter_S50000x128_S800000x1_S800000x128_1_0_0_1 rfl rfl rfl rfl idx e f' f r

/-- (S1) The flat scatter of the reference program (the degree count). -/
theorem scatter1 (idx : IVec S800000x1 32) (e : Fin 800000) (r : Fin 50000) :
    scatter_S50000_S800000x1_S800000_n_0_0_1.resultIdx? (ix1 e) idx = some (ix1 r)
      ↔ (idx (ix2 e (0 : Fin 1))).toInt = (r.val : ℤ) :=
  scatter_flat scatter_S50000_S800000x1_S800000_n_0_0_1 rfl rfl rfl rfl idx e r

/-- (SB2) The pooling row scatter of the reference program: node row (e, f') lands at graph row (g, f) exactly when
    f' = f and the batch column's word at e reads g. -/
theorem scatterB2 (idx : IVec S50000x1 32) (e : Fin 50000) (f' f : Fin 128) (g : Fin 64) :
    scatter_S64x128_S50000x1_S50000x128_1_0_0_1.resultIdx? (ix2 e f') idx = some (ix2 g f)
      ↔ f' = f ∧ (idx (ix2 e (0 : Fin 1))).toInt = (g.val : ℤ) :=
  scatter_rows scatter_S64x128_S50000x1_S50000x128_1_0_0_1 rfl rfl rfl rfl idx e f' f g

/-- (SB1) The pooling flat scatter of the reference program (the node count of a graph). -/
theorem scatterB1 (idx : IVec S50000x1 32) (e : Fin 50000) (g : Fin 64) :
    scatter_S64_S50000x1_S50000_n_0_0_1.resultIdx? (ix1 e) idx = some (ix1 g)
      ↔ (idx (ix2 e (0 : Fin 1))).toInt = (g.val : ℤ) :=
  scatter_flat scatter_S64_S50000x1_S50000_n_0_0_1 rfl rfl rfl rfl idx e g

/-- (B) An edge vector laid as a column reads at (e, 0) the vector at e. -/
theorem bcast_edges (v : S800000.Idx → α) (e : Fin 800000) :
    broadcastInDim S800000x1 ![0] Facts₀.bcast_S800000_S800000x1_0 v (ix2 e (0 : Fin 1)) = v (ix1 e) :=
  bcast_col_apply Facts₀.bcast_S800000_S800000x1_0 v e

/-- (B) A node vector laid as a column reads at (e, 0) the vector at e. -/
theorem bcast_nodes (v : S50000.Idx → α) (e : Fin 50000) :
    broadcastInDim S50000x1 ![0] Facts₀.bcast_S50000_S50000x1_0 v (ix2 e (0 : Fin 1)) = v (ix1 e) :=
  bcast_col_apply Facts₀.bcast_S50000_S50000x1_0 v e

/-- The sources of the edges: row 0 of the edge list, read at e. -/
theorem src_apply (edge : S2x800000.Idx → α) (e : Fin 800000) :
    shapeCast S800000 (extractStridedSlice S1x800000 ![0, 0] edge Facts₀.slices_S2x800000_S1x800000_0_0)
        Facts₀.shapeCasts_S1x800000_S800000 (ix1 e) = edge (ix2 (0 : Fin 2) e) :=
  slice_row_flat_apply (by omega) Facts₀.slices_S2x800000_S1x800000_0_0 Facts₀.shapeCasts_S1x800000_S800000 edge e

/-- The destinations of the edges: row 1 of the edge list, read at e. -/
theorem dst_apply (edge : S2x800000.Idx → α) (e : Fin 800000) :
    shapeCast S800000 (extractStridedSlice S1x800000 ![1, 0] edge Facts₀.slices_S2x800000_S1x800000_1_0)
        Facts₀.shapeCasts_S1x800000_S800000 (ix1 e) = edge (ix2 (1 : Fin 2) e) :=
  slice_row_flat_apply (by omega) Facts₀.slices_S2x800000_S1x800000_1_0 Facts₀.shapeCasts_S1x800000_S800000 edge e

end R

end Cert.IdxVal

end
-- ==== Proof.Val.KernelApply.lean ====
/- The kernel program's index columns and reshaped vectors read at an index: a vector reshaped to one column or one row
   keeps its row-major position, so it reads the same element; the source column reads the normalised word of row 0 of
   the edge list, the destination column the word of row 1. -/
import proofs.«427340_j652835029230_2_alg».proof.Proof.Val.Kernel0
import proofs.«427340_j652835029230_2_alg».proof.Proof.Val.Idx

noncomputable section

namespace Cert.KernelIdeal.Val

open Cert.KernelIdeal Cert.KernelIdeal.Gen
open Idealize.ShloMosaic Idealize.ShloMosaic.ValueIdx

/-- The normaliser column at (r, 0) is the normaliser at r. -/
theorem kDisCol_apply (edge : IVec S2x800000 32) (r : Fin 50000) :
    kDisCol edge (ix2 r (0 : Fin 1)) = kDis edge (ix1 r) :=
  Cert.IdxVal.K.reshape_nodes (kDis edge) r

/-- A bias row at (0, k) is the bias at k. -/
theorem kB_apply (b : FVec Ideal S128 .f32) (k : Fin 128) : kB b (ix2 (0 : Fin 1) k) = b (ix1 k) :=
  Cert.IdxVal.K.reshape_bias b k

/-- The head's bias row at (0, k) is the bias at k. -/
theorem kLinb_apply (linb : FVec Ideal S2 .f32) (k : Fin 2) : kLinb linb (ix2 (0 : Fin 1) k) = linb (ix1 k) :=
  Cert.IdxVal.K.reshape_bias2 linb k

/-- The graph column at (r, 0) is the graph of node r. -/
theorem kBatchCol_apply (batch : IVec S50000 32) (r : Fin 50000) :
    kBatchCol batch (ix2 r (0 : Fin 1)) = batch (ix1 r) :=
  Cert.IdxVal.K.reshape_nodes batch r

/-- The source column at (e, 0) is the normalised source word of edge e. -/
theorem kSrcCol_apply (edge : IVec S2x800000 32) (e : Fin 800000) :
    kCol (kWrap (kSrc edge)) (ix2 e (0 : Fin 1)) = Cert.IdxVal.norm (edge (ix2 (0 : Fin 2) e)) := by
  unfold kCol
  rw [Cert.IdxVal.K.bcast_edges]
  unfold kWrap
  rw [Cert.IdxVal.norm_apply (kSrc edge) (broadcastInDim S800000 ![] bcast_S_S800000 (constantI S_ 32 0#32))
    (broadcastInDim S800000 ![] bcast_S_S800000 (constantI S_ 32 50000#32)) (fun _ => rfl) (fun _ => rfl)]
  unfold kSrc
  rw [Cert.IdxVal.K.src_apply]

/-- The destination column at (e, 0) is the destination word of edge e. -/
theorem kDstCol_apply (edge : IVec S2x800000 32) (e : Fin 800000) :
    kCol (kDst edge) (ix2 e (0 : Fin 1)) = edge (ix2 (1 : Fin 2) e) := by
  unfold kCol
  rw [Cert.IdxVal.K.bcast_edges]
  unfold kDst
  exact Cert.IdxVal.K.dst_apply edge e

end Cert.KernelIdeal.Val

end
-- ==== Proof.Val.DisReal.lean ====
/-
  The degree normaliser is a real number, for any integer edge list.

  Both programs form  deg i = (0 + Σ_{j : the update j lands on i} 1) + 1  by an accumulating scatter of ones
  into zeros followed by the addition of one, and  dis i = deg i ^ (-1/2). A finite sum of ones is a real
  number, so deg i is real whatever the index array holds; the exponent -1/2 is real; and a real power of a
  real number is a real number (no sign condition on the base is needed for that). The three float constants
  involved are read once here as the extended reals their patterns denote: 0, 1 and -1/2.
-/
import proofs.«427340_j652835029230_2_alg».proof.Proof.Math.Laws
import proofs.«427340_j652835029230_2_alg».proof.Proof.Val.Ref
import Idealize.ShloMosaic.PureOps.Ideal
import Idealize.ShloMosaic.PureOps.Contract

noncomputable section

open scoped BigOperators

namespace Cert.FinVal

open Idealize.ShloMosaic
open Cert.Math (IsReal)

/-- The shape of a scalar. -/
abbrev S0 : Shape := ⟨0, ![]⟩

/-! ## The three constants -/

/-- The pattern of all zeros denotes 0. -/
theorem ofBits_zero : Ideal.ofBits .f32 0x00000000#32 = 0 := by
  simp [Ideal.ofBits, Ideal.ieee]

/-- The pattern 0x3F800000 (sign 0, exponent 127, fraction 0) denotes 2^23 · 2^(127-127-23) = 1. -/
theorem ofBits_one : Ideal.ofBits .f32 0x3F800000#32 = 1 := by
  simp [Ideal.ofBits, Ideal.ieee, -EReal.coe_mul]; norm_num

/-- The pattern 0xBF000000 (sign 1, exponent 126, fraction 0) denotes -(2^23 · 2^(126-127-23)) = -1/2. -/
theorem ofBits_neg_half : Ideal.ofBits .f32 0xBF000000#32 = ((-(1 / 2) : ℝ) : EReal) := by
  simp [Ideal.ofBits, Ideal.ieee, -EReal.coe_mul]; norm_num

/-- The exponent of the normaliser is a real number. -/
theorem ofBits_neg_half_isReal : IsReal (Ideal.ofBits .f32 0xBF000000#32) := by
  rw [ofBits_neg_half]; exact IsReal.coe _

/-! ## The degree and the normaliser, at any shapes, scatter dimension numbers and index array -/

/-- One plus an accumulating scatter of ones into zeros is real at every index: the scatter's value at `i`
    is 0 plus the sum of one 1 per update landing on `i`, a finite sum of real numbers. -/
theorem deg_isReal {s si su : Shape} {w : Nat} (d : ScatterDims s si su)
    (hbs : S0.BroadcastsInDim s (![] : Fin 0 → Fin s.rank)) (hbu : S0.BroadcastsInDim su (![] : Fin 0 → Fin su.rank))
    (idx : IVec si w) (i : s.Idx) :
    IsReal ((addf (Host.scatterAdd d (broadcastInDim s ![] hbs (constant S0 .f32 0x00000000#32)) idx
        (broadcastInDim su ![] hbu (constant S0 .f32 0x3F800000#32)))
      (broadcastInDim s ![] hbs (constant S0 .f32 0x3F800000#32)) : FVec Ideal s .f32) i) := by
  show IsReal ((Ideal.ofBits .f32 0x00000000#32
      + ∑ j ∈ Finset.univ.filter (fun j => d.resultIdx? j idx = some i), Ideal.ofBits .f32 0x3F800000#32)
    + Ideal.ofBits .f32 0x3F800000#32)
  rw [ofBits_zero, ofBits_one]
  exact (IsReal.zero.add (IsReal.sum _ _ (fun _ _ => IsReal.one))).add IsReal.one

/-- A power with real base and real exponent is real. -/
theorem pow_isReal {x y : EReal} (hx : IsReal x) (hy : IsReal y) : IsReal (Ideal.pow x y) := by
  obtain ⟨a, rfl⟩ := hx
  obtain ⟨b, rfl⟩ := hy
  exact Cert.Math.isReal_rpow a b

/-- The normaliser, the degree to the power -1/2, is real at every index. -/
theorem dis_isReal {s si su : Shape} {w : Nat} (d : ScatterDims s si su)
    (hbs : S0.BroadcastsInDim s (![] : Fin 0 → Fin s.rank)) (hbu : S0.BroadcastsInDim su (![] : Fin 0 → Fin su.rank))
    (idx : IVec si w) (i : s.Idx) :
    IsReal ((Host.powf
      (addf (Host.scatterAdd d (broadcastInDim s ![] hbs (constant S0 .f32 0x00000000#32)) idx
          (broadcastInDim su ![] hbu (constant S0 .f32 0x3F800000#32)))
        (broadcastInDim s ![] hbs (constant S0 .f32 0x3F800000#32)))
      (broadcastInDim s ![] hbs (constant S0 .f32 0xBF000000#32)) : FVec Ideal s .f32) i) :=
  pow_isReal (deg_isReal d hbs hbu idx i) ofBits_neg_half_isReal

/-! ## At the reference's shapes -/

section Reference

open Cert.ReferenceIdeal Cert.ReferenceIdeal.Gen

/-- The reference's degree array is real at every node, for any one-column index array. -/
theorem refDeg_isReal_of (idx : IVec S800000x1 32) (i : S50000.Idx) :
    IsReal ((addf (Host.scatterAdd scatter_S50000_S800000x1_S800000_n_0_0_1
        (broadcastInDim S50000 ![] bcast_S_S50000 (constant S_ .f32 0x00000000#32)) idx
        (broadcastInDim S800000 ![] bcast_S_S800000 (constant S_ .f32 0x3F800000#32)))
      (broadcastInDim S50000 ![] bcast_S_S50000 (constant S_ .f32 0x3F800000#32)) : FVec Ideal S50000 .f32) i) :=
  deg_isReal scatter_S50000_S800000x1_S800000_n_0_0_1 bcast_S_S50000 bcast_S_S800000 idx i

/-- The reference's normaliser array is real at every node, for any one-column index array. -/
theorem refDis_isReal_of (idx : IVec S800000x1 32) (i : S50000.Idx) :
    IsReal ((Host.powf
      (addf (Host.scatterAdd scatter_S50000_S800000x1_S800000_n_0_0_1
          (broadcastInDim S50000 ![] bcast_S_S50000 (constant S_ .f32 0x00000000#32)) idx
          (broadcastInDim S800000 ![] bcast_S_S800000 (constant S_ .f32 0x3F800000#32)))
        (broadcastInDim S50000 ![] bcast_S_S50000 (constant S_ .f32 0x3F800000#32)))
      (broadcastInDim S50000 ![] bcast_S_S50000 (constant S_ .f32 0xBF000000#32)) : FVec Ideal S50000 .f32) i) :=
  dis_isReal scatter_S50000_S800000x1_S800000_n_0_0_1 bcast_S_S50000 bcast_S_S800000 idx i

/-- The reference's degree is real at every node, for any edge list. -/
theorem refDeg_isReal (edge : IVec S2x800000 32) (i : S50000.Idx) : IsReal (Cert.RefVal.refDeg edge i) :=
  refDeg_isReal_of _ i

/-- The reference's normaliser is real at every node, for any edge list. -/
theorem refDis_isReal (edge : IVec S2x800000 32) (i : S50000.Idx) : IsReal (Cert.RefVal.refDis edge i) :=
  refDis_isReal_of _ i

end Reference

end Cert.FinVal

end
-- ==== Proof.Val.BridgeLayer.lean ====
/-
  One graph-convolution layer: the kernel's arrangement equals the reference's, under finiteness.

  Write δ r for the degree normaliser of node r (the same array in both programs) and, for an array y of node
  rows, scale y for the array whose row r is y's row r times δ r. Between layers the kernel carries scale y, where
  y is the layer's linear map of the reference's hidden features. A region forms, at node r and feature k,

      δ r * ((0 + Σ_{j ∈ J} (scale y)(source of j, k)) + (scale y)(r, k)) + b k,

  J being the updates the scatter sends to (r, k): column k of the edges whose destination word reads r. The
  reference forms

      ((0 + Σ_{j ∈ J} y(source of j, k) * (δ(source of j) * δ(destination of j))) + y(r, k) * (δ r * δ r)) + b k,

  over the same J, and on J the destination (normalised and clamped) is r. With every term finite the two agree by
  the distributive law for finite extended reals. The first region is the linear map itself, scaled; the middle
  regions rectify and apply the next linear map, scaled; the last region leaves the reference's fourth layer.
-/
import proofs.«427340_j652835029230_2_alg».proof.Proof.Val.Ref
import proofs.«427340_j652835029230_2_alg».proof.Proof.Val.Idx
import proofs.«427340_j652835029230_2_alg».proof.Proof.Val.DisReal
import proofs.«427340_j652835029230_2_alg».proof.Proof.Math.Laws
import proofs.«427340_j652835029230_2_alg».proof.Proof.Gen.KernelIdeal
import proofs.«427340_j652835029230_2_alg».proof.Proof.Val.Tile
import proofs.«427340_j652835029230_2_alg».proof.Proof.Val.Reg4
import proofs.«427340_j652835029230_2_alg».proof.Proof.Val.Kernel0
import proofs.«427340_j652835029230_2_alg».proof.Proof.Val.KernelApply
import Idealize.ShloMosaic.Lib.ValueIdx

set_option maxRecDepth 16384

noncomputable section

open scoped BigOperators

namespace Cert.Bridge

open Idealize.ShloMosaic Idealize.ShloMosaic.ValueIdx
open Cert.Math (IsReal)

/-! ## Host operations read at an index, at any shapes -/

section Generic
variable {s si su : Shape} {w : Nat}

/-- The accumulating scatter at an index: the operand there plus the updates over any set holding exactly those that
    land there. -/
theorem scatterAdd_apply_of (d : ScatterDims s si su) (x : FVec Ideal s .f32) (idx : IVec si w) (upd : FVec Ideal su .f32)
    (i : s.Idx) (J : Finset su.Idx) (hJ : ∀ j, d.resultIdx? j idx = some i ↔ j ∈ J) :
    Host.scatterAdd d x idx upd i = x i + ∑ j ∈ J, upd j := by
  have hs : Finset.univ.filter (fun j => d.resultIdx? j idx = some i) = J :=
    Finset.ext fun j => by
      rw [Finset.mem_filter]
      exact ⟨fun h => (hJ j).mp h.2, fun h => ⟨Finset.mem_univ _, (hJ j).mpr h⟩⟩
  show x i + ∑ j ∈ Finset.univ.filter (fun j => d.resultIdx? j idx = some i), upd j = _
  rw [hs]

/-- A sum over the indices a predicate selects, taken over any set holding exactly those, with the summand rewritten
    there. -/
theorem sum_filter_eq_of {ι M : Type*} [Fintype ι] [AddCommMonoid M] (P : ι → Prop) [DecidablePred P] (F : ι → M)
    (J : Finset ι) (G : ι → M) (hJ : ∀ j, P j ↔ j ∈ J) (hFG : ∀ j ∈ J, F j = G j) :
    ∑ j ∈ Finset.univ.filter P, F j = ∑ j ∈ J, G j := by
  have hs : Finset.univ.filter P = J :=
    Finset.ext fun j => by
      rw [Finset.mem_filter]
      exact ⟨fun h => (hJ j).mp h.2, fun h => ⟨Finset.mem_univ _, (hJ j).mpr h⟩⟩
  rw [hs]
  exact Finset.sum_congr rfl hFG

/-- The host's power at an index. -/
theorem hostPowf_apply (x y : FVec Ideal s .f32) (i : s.Idx) : Host.powf x y i = Ideal.pow (x i) (y i) := rfl

/-- A float constant laid over a shape reads, everywhere, the extended real its pattern denotes. -/
theorem bcast_const_apply (hbs : FinVal.S0.BroadcastsInDim s (![] : Fin 0 → Fin s.rank)) (c : BitVec 32) (i : s.Idx) :
    (broadcastInDim s ![] hbs (constant FinVal.S0 .f32 c) : FVec Ideal s .f32) i = Ideal.ofBits .f32 c := rfl

end Generic

/-! ## The kernel program's host terms -/

section KernelTerms
open Cert.KernelIdeal Cert.KernelIdeal.Gen

/-- The kernel's degree normaliser from the destination column: (0 + one per edge arriving) + 1, to the power -1/2. -/
def kDisTerm (dstCol : IVec S800000x1 32) : FVec Ideal S50000 .f32 :=
  Host.powf
    (addf (Host.scatterAdd scatter_S50000_S800000x1_S800000_n_0_0_1
        (broadcastInDim S50000 ![] bcast_S_S50000 (constant S_ .f32 0x00000000#32)) dstCol
        (broadcastInDim S800000 ![] bcast_S_S800000 (constant S_ .f32 0x3F800000#32)))
      (broadcastInDim S50000 ![] bcast_S_S50000 (constant S_ .f32 0x3F800000#32)))
    (broadcastInDim S50000 ![] bcast_S_S50000 (constant S_ .f32 0xBF000000#32))

/-- The kernel's normaliser as the one-column array the regions read. -/
def kDisColTerm (dstCol : IVec S800000x1 32) : FVec Ideal S50000x1 .f32 :=
  shapeCast S50000x1 (kDisTerm dstCol) shapeCasts_S50000_S50000x1

/-- The kernel's neighbour sum of a carried array: its rows gathered at the source column, added up at the
    destination column into zeros. -/
def kAggTerm (srcCol dstCol : IVec S800000x1 32) (ys : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) dstCol
    (Host.gather gather_S50000x128_S800000x1_S800000x128_1_0_n_n_0_1_1128 ys srcCol)

end KernelTerms

open Cert.ReferenceIdeal Cert.ReferenceIdeal.Gen Cert.RefVal

/-- The row the gathers read for the source of edge e: its word normalised, then clamped. -/
def srcRow (edge : IVec S2x800000 32) (e : Fin 800000) : Fin 50000 :=
  IdxVal.rowOf (IdxVal.norm (edge (ix2 (0 : Fin 2) e)))

/-- An array of node rows with every row multiplied by its node's normaliser. -/
def scale (edge : IVec S2x800000 32) (y : FVec Ideal S50000x128 .f32) : FVec Ideal S50000x128 .f32 :=
  fun i => y i * refDis edge (ix1 (i 0))

open Classical in
/-- The updates that arrive at node r in column k: column k of the edges whose destination word reads r. -/
def arrive (edge : IVec S2x800000 32) (r : Fin 50000) (k : Fin 128) : Finset S800000x128.Idx :=
  Finset.univ.filter fun j => j 1 = k ∧ (edge (ix2 (1 : Fin 2) (j 0))).toInt = (r.val : ℤ)

open Classical in
theorem mem_arrive (edge : IVec S2x800000 32) (r : Fin 50000) (k : Fin 128) (j : S800000x128.Idx) :
    j ∈ arrive edge r k ↔ j 1 = k ∧ (edge (ix2 (1 : Fin 2) (j 0))).toInt = (r.val : ℤ) := by
  unfold arrive
  rw [Finset.mem_filter]
  exact ⟨fun h => h.2, fun h => ⟨Finset.mem_univ _, h⟩⟩

open Classical in
/-- The edges that arrive at node r: those whose destination word reads r. -/
def arrive1 (edge : IVec S2x800000 32) (r : Fin 50000) : Finset S800000.Idx :=
  Finset.univ.filter fun j => (edge (ix2 (1 : Fin 2) (j 0))).toInt = (r.val : ℤ)

theorem mem_arrive1 (edge : IVec S2x800000 32) (r : Fin 50000) (j : S800000.Idx) :
    j ∈ arrive1 edge r ↔ (edge (ix2 (1 : Fin 2) (j 0))).toInt = (r.val : ℤ) := by
  unfold arrive1
  rw [Finset.mem_filter]
  exact ⟨fun h => h.2, fun h => ⟨Finset.mem_univ _, h⟩⟩

/-! ## The reference's index readings -/

theorem refSrc_apply (edge : IVec S2x800000 32) (e : Fin 800000) : refSrc edge (ix1 e) = edge (ix2 (0 : Fin 2) e) :=
  IdxVal.R.src_apply edge e

theorem refDst_apply (edge : IVec S2x800000 32) (e : Fin 800000) : refDst edge (ix1 e) = edge (ix2 (1 : Fin 2) e) :=
  IdxVal.R.dst_apply edge e

theorem refWrap_apply (v : IVec S800000 32) (e : Fin 800000) : refWrap v (ix1 e) = IdxVal.norm (v (ix1 e)) :=
  IdxVal.norm_apply v _ _ (fun _ => rfl) (fun _ => rfl) (ix1 e)

theorem refCol_apply (v : IVec S800000 32) (e : Fin 800000) : refCol v (ix2 e (0 : Fin 1)) = v (ix1 e) :=
  IdxVal.R.bcast_edges v e

/-- A gathered row is the row of the edge's source. -/
theorem refRows_apply (edge : IVec S2x800000 32) (y : FVec Ideal S50000x128 .f32) (e : Fin 800000) (f : Fin 128) :
    refRows edge y (ix2 e f) = y (ix2 (srcRow edge e) f) := by
  unfold refRows
  rw [IdxVal.R.gather2, refCol_apply, refWrap_apply, refSrc_apply]
  rfl

theorem refDisAt_apply (edge : IVec S2x800000 32) (v : IVec S800000 32) (e : Fin 800000) :
    refDisAt edge v (ix1 e) = refDis edge (ix1 (IdxVal.rowOf (IdxVal.norm (v (ix1 e))))) := by
  unfold refDisAt
  rw [IdxVal.R.gather1, refCol_apply, refWrap_apply]

/-- An edge's weight is the product of the normalisers at its two (normalised, clamped) ends. -/
theorem refNorm_apply (edge : IVec S2x800000 32) (e : Fin 800000) :
    refNorm edge (ix1 e) = refDis edge (ix1 (srcRow edge e))
      * refDis edge (ix1 (IdxVal.rowOf (IdxVal.norm (edge (ix2 (1 : Fin 2) e))))) := by
  unfold refNorm
  rw [mulf_apply, refDisAt_apply, refDisAt_apply, refSrc_apply, refDst_apply]
  rfl

/-- Which updates the reference's scatter adds at (r, f): those of column f whose edge's destination word reads r. -/
theorem refScatter_iff (edge : IVec S2x800000 32) (j : S800000x128.Idx) (r : Fin 50000) (f : Fin 128) :
    scatter_S50000x128_S800000x1_S800000x128_1_0_0_1.resultIdx? j (refCol (refDst edge)) = some (ix2 r f)
      ↔ j 1 = f ∧ (edge (ix2 (1 : Fin 2) (j 0))).toInt = (r.val : ℤ) := by
  obtain ⟨e, f', rfl⟩ : ∃ (e : Fin 800000) (f' : Fin 128), j = ix2 e f' := ⟨j 0, j 1, eq_ix2 j⟩
  show _ ↔ f' = f ∧ (edge (ix2 (1 : Fin 2) e)).toInt = (r.val : ℤ)
  rw [IdxVal.R.scatter2, refCol_apply, refDst_apply]

/-- The kernel's scatter adds the same updates there, its destination column holding the same words. -/
theorem kScatter_iff (edge : IVec S2x800000 32) (dstCol : IVec S800000x1 32)
    (hdst : ∀ e : Fin 800000, dstCol (ix2 e (0 : Fin 1)) = edge (ix2 (1 : Fin 2) e))
    (j : S800000x128.Idx) (r : Fin 50000) (f : Fin 128) :
    Cert.KernelIdeal.scatter_S50000x128_S800000x1_S800000x128_1_0_0_1.resultIdx? j dstCol = some (ix2 r f)
      ↔ j 1 = f ∧ (edge (ix2 (1 : Fin 2) (j 0))).toInt = (r.val : ℤ) := by
  obtain ⟨e, f', rfl⟩ : ∃ (e : Fin 800000) (f' : Fin 128), j = ix2 e f' := ⟨j 0, j 1, eq_ix2 j⟩
  show _ ↔ f' = f ∧ (edge (ix2 (1 : Fin 2) e)).toInt = (r.val : ℤ)
  rw [IdxVal.K.scatter2, hdst]

/-- The kernel's row gather of a carried array at any update index: the row of the edge's source. -/
theorem kGather_apply (edge : IVec S2x800000 32) (srcCol : IVec S800000x1 32)
    (hsrc : ∀ e : Fin 800000, srcCol (ix2 e (0 : Fin 1)) = IdxVal.norm (edge (ix2 (0 : Fin 2) e)))
    (ys : FVec Ideal S50000x128 .f32) (j : S800000x128.Idx) :
    Host.gather Cert.KernelIdeal.gather_S50000x128_S800000x1_S800000x128_1_0_n_n_0_1_1128 ys srcCol j
      = ys (ix2 (srcRow edge (j 0)) (j 1)) := by
  obtain ⟨e, f', rfl⟩ : ∃ (e : Fin 800000) (f' : Fin 128), j = ix2 e f' := ⟨j 0, j 1, eq_ix2 j⟩
  show _ = ys (ix2 (srcRow edge e) f')
  rw [IdxVal.K.gather2, hsrc]
  rfl

theorem refRows_idx (edge : IVec S2x800000 32) (y : FVec Ideal S50000x128 .f32) (j : S800000x128.Idx) :
    refRows edge y j = y (ix2 (srcRow edge (j 0)) (j 1)) := by
  obtain ⟨e, f', rfl⟩ : ∃ (e : Fin 800000) (f' : Fin 128), j = ix2 e f' := ⟨j 0, j 1, eq_ix2 j⟩
  exact refRows_apply edge y e f'

theorem refNormB_idx (edge : IVec S2x800000 32) (j : S800000x128.Idx) :
    refNormB edge j = refDis edge (ix1 (srcRow edge (j 0)))
      * refDis edge (ix1 (IdxVal.rowOf (IdxVal.norm (edge (ix2 (1 : Fin 2) (j 0)))))) := by
  obtain ⟨e, f', rfl⟩ : ∃ (e : Fin 800000) (f' : Fin 128), j = ix2 e f' := ⟨j 0, j 1, eq_ix2 j⟩
  show _ = refDis edge (ix1 (srcRow edge e)) * refDis edge (ix1 (IdxVal.rowOf (IdxVal.norm (edge (ix2 (1 : Fin 2) e)))))
  rw [refNormB_apply, refNorm_apply]

/-! ## (L0) the normaliser

Both programs form the degree of node `i` as (0 + one per edge whose destination word reads `i`) + 1 and raise it to
the power -1/2. The two scatters accept the same edges at the same node, so the two arrays are equal. -/

theorem kDisTerm_eq (edge : IVec S2x800000 32) (dstCol : IVec S800000x1 32)
    (hdst : ∀ e : Fin 800000, dstCol (ix2 e (0 : Fin 1)) = edge (ix2 (1 : Fin 2) e)) :
    kDisTerm dstCol = refDis edge := by
  funext i
  obtain ⟨r, rfl⟩ : ∃ r : Fin 50000, i = ix1 r := ⟨i 0, eq_ix1 i⟩
  have hJk : ∀ j, Cert.KernelIdeal.scatter_S50000_S800000x1_S800000_n_0_0_1.resultIdx? j dstCol = some (ix1 r)
      ↔ j ∈ arrive1 edge r := fun j => by
    rw [mem_arrive1]
    obtain ⟨e, rfl⟩ : ∃ e : Fin 800000, j = ix1 e := ⟨j 0, eq_ix1 j⟩
    show _ ↔ (edge (ix2 (1 : Fin 2) e)).toInt = (r.val : ℤ)
    rw [IdxVal.K.scatter1, hdst]
  have hJr : ∀ j, scatter_S50000_S800000x1_S800000_n_0_0_1.resultIdx? j (refCol (refDst edge)) = some (ix1 r)
      ↔ j ∈ arrive1 edge r := fun j => by
    rw [mem_arrive1]
    obtain ⟨e, rfl⟩ : ∃ e : Fin 800000, j = ix1 e := ⟨j 0, eq_ix1 j⟩
    show _ ↔ (edge (ix2 (1 : Fin 2) e)).toInt = (r.val : ℤ)
    rw [IdxVal.R.scatter1, refCol_apply, refDst_apply]
  unfold kDisTerm refDis refDeg
  rw [hostPowf_apply, hostPowf_apply, addf_apply, addf_apply,
    scatterAdd_apply_of _ _ _ _ _ _ hJk, scatterAdd_apply_of _ _ _ _ _ _ hJr]

theorem kDisColTerm_apply (edge : IVec S2x800000 32) (dstCol : IVec S800000x1 32)
    (hdst : ∀ e : Fin 800000, dstCol (ix2 e (0 : Fin 1)) = edge (ix2 (1 : Fin 2) e)) (r : Fin 50000) :
    kDisColTerm dstCol (ix2 r (0 : Fin 1)) = refDis edge (ix1 r) := by
  unfold kDisColTerm
  rw [IdxVal.K.reshape_nodes, kDisTerm_eq edge dstCol hdst]

/-! ## (LR) finiteness -/

theorem refDis_isReal (edge : IVec S2x800000 32) (i : S50000.Idx) : IsReal (refDis edge i) :=
  FinVal.refDis_isReal_of (refCol (refDst edge)) i

theorem refLin_isReal (h : FVec Ideal S50000x128 .f32) (W : FVec Ideal S128x128 .f32)
    (hh : ∀ i, IsReal (h i)) (hW : ∀ i, IsReal (W i)) (i : S50000x128.Idx) : IsReal (refLin h W i) := by
  obtain ⟨r, f, rfl⟩ : ∃ (r : Fin 50000) (f : Fin 128), i = ix2 r f := ⟨i 0, i 1, eq_ix2 i⟩
  rw [refLin_apply]
  exact IsReal.sum _ _ fun k _ => (hh _).mul (hW _)

theorem refLayer_isReal (edge : IVec S2x800000 32) (h : FVec Ideal S50000x128 .f32) (W : FVec Ideal S128x128 .f32)
    (b : FVec Ideal S128 .f32) (hh : ∀ i, IsReal (h i)) (hW : ∀ i, IsReal (W i)) (hb : ∀ i, IsReal (b i))
    (i : S50000x128.Idx) : IsReal (refLayer edge h W b i) := by
  have hy := refLin_isReal h W hh hW
  have hδ := refDis_isReal edge
  obtain ⟨r, f, rfl⟩ : ∃ (r : Fin 50000) (f : Fin 128), i = ix2 r f := ⟨i 0, i 1, eq_ix2 i⟩
  rw [refLayer_apply]
  refine ((IsReal.zero.add (IsReal.sum _ _ fun j _ => ?_)).add ((hy _).mul ((hδ _).mul (hδ _)))).add (hb _)
  rw [refRows_idx, refNormB_idx]
  exact (hy _).mul ((hδ _).mul (hδ _))

theorem refRelu_isReal (h : FVec Ideal S50000x128 .f32) (hh : ∀ i, IsReal (h i)) (i : S50000x128.Idx) :
    IsReal (refRelu h i) := by
  rw [refRelu_apply]
  exact (hh i).max IsReal.zero

/-! ## (Lcore) one layer at one element

At node r and feature k both programs add, over the same set of updates (column k of the edges arriving at r), a
product taken at the edge's source row: the kernel y·δ(source), the reference y·(δ(source)·δ(destination)), where on
that set the destination's normaliser is δ r. The kernel multiplies the whole bracket by δ r afterwards; with every
term finite this is the layer law. -/

/-- The kernel's neighbour sum of a scaled array at (r, k). -/
theorem kAggTerm_scale_apply (edge : IVec S2x800000 32) (srcCol dstCol : IVec S800000x1 32)
    (hsrc : ∀ e : Fin 800000, srcCol (ix2 e (0 : Fin 1)) = IdxVal.norm (edge (ix2 (0 : Fin 2) e)))
    (hdst : ∀ e : Fin 800000, dstCol (ix2 e (0 : Fin 1)) = edge (ix2 (1 : Fin 2) e))
    (y : FVec Ideal S50000x128 .f32) (r : Fin 50000) (k : Fin 128) :
    kAggTerm srcCol dstCol (scale edge y) (ix2 r k)
      = 0 + ∑ j ∈ arrive edge r k, y (ix2 (srcRow edge (j 0)) (j 1)) * refDis edge (ix1 (srcRow edge (j 0))) := by
  unfold kAggTerm
  rw [scatterAdd_apply_of _ _ _ _ _ (arrive edge r k)
    (fun j => (kScatter_iff edge dstCol hdst j r k).trans (mem_arrive edge r k j).symm)]
  rw [bcast_const_apply, FinVal.ofBits_zero]
  refine congrArg (fun t : EReal => 0 + t) (Finset.sum_congr rfl fun j _ => ?_)
  rw [kGather_apply edge srcCol hsrc]
  rfl

theorem layer_core (edge : IVec S2x800000 32) (srcCol dstCol : IVec S800000x1 32)
    (hsrc : ∀ e : Fin 800000, srcCol (ix2 e (0 : Fin 1)) = IdxVal.norm (edge (ix2 (0 : Fin 2) e)))
    (hdst : ∀ e : Fin 800000, dstCol (ix2 e (0 : Fin 1)) = edge (ix2 (1 : Fin 2) e))
    (dcol : FVec Ideal S50000x1 .f32) (hdcol : ∀ r : Fin 50000, dcol (ix2 r (0 : Fin 1)) = refDis edge (ix1 r))
    (brow : FVec Ideal S1x128 .f32) (b : FVec Ideal S128 .f32) (hbrow : ∀ k : Fin 128, brow (ix2 (0 : Fin 1) k) = b (ix1 k))
    (h : FVec Ideal S50000x128 .f32) (W : FVec Ideal S128x128 .f32)
    (hh : ∀ i, IsReal (h i)) (hW : ∀ i, IsReal (W i)) (r : Fin 50000) (k : Fin 128) :
    dcol (ix2 r (0 : Fin 1))
        * (kAggTerm srcCol dstCol (scale edge (refLin h W)) (ix2 r k) + scale edge (refLin h W) (ix2 r k))
        + brow (ix2 (0 : Fin 1) k)
      = refLayer edge h W b (ix2 r k) := by
  have hy := refLin_isReal h W hh hW
  have hδ := refDis_isReal edge
  rw [refLayer_apply,
    sum_filter_eq_of _ _ (arrive edge r k)
      (fun j : S800000x128.Idx => refLin h W (ix2 (srcRow edge (j 0)) (j 1))
        * (refDis edge (ix1 (srcRow edge (j 0))) * refDis edge (ix1 r)))
      (fun j => (refScatter_iff edge j r k).trans (mem_arrive edge r k j).symm)
      (fun j hj => by
        have hjr : IdxVal.rowOf (IdxVal.norm (edge (ix2 (1 : Fin 2) (j 0)))) = r :=
          IdxVal.rowOf_norm ((mem_arrive edge r k j).mp hj).2
        rw [refRows_idx, refNormB_idx, hjr]),
    kAggTerm_scale_apply edge srcCol dstCol hsrc hdst, hdcol, hbrow]
  exact Cert.Math.layer_law (arrive edge r k)
    (fun j : S800000x128.Idx => refLin h W (ix2 (srcRow edge (j 0)) (j 1)))
    (fun j : S800000x128.Idx => refDis edge (ix1 (srcRow edge (j 0))))
    (refDis edge (ix1 r)) (refLin h W (ix2 r k)) (b (ix1 k))
    (fun j _ => hy _) (fun j _ => hδ _) (hδ _) (hy _)

/-! ## (L0) at the kernel's own normaliser -/

/-- The kernel's normaliser array is the reference's. -/
theorem kDis_eq (edge : IVec S2x800000 32) : Cert.KernelIdeal.Val.kDis edge = refDis edge :=
  kDisTerm_eq edge (Cert.KernelIdeal.Val.kCol (Cert.KernelIdeal.Val.kDst edge)) (Cert.KernelIdeal.Val.kDstCol_apply edge)

/-! ## (L1)-(L3) one layer as whole arrays

The kernel carries between layers the scaled array `y·δ`; each region's closed form, read at one element, is the
layer's core identity (or, for the first region, the linear map itself). -/

open Cert.KernelIdeal.Val (G0 G13 h4)

/-- (L1) The first region's array is the scaled linear map of the input features. -/
theorem layer_first (edge : IVec S2x800000 32) (dcol : FVec Ideal S50000x1 .f32)
    (hdcol : ∀ r : Fin 50000, dcol (ix2 r (0 : Fin 1)) = refDis edge (ix1 r))
    (x : FVec Ideal S50000x128 .f32) (W : FVec Ideal S128x128 .f32) :
    G0 x W dcol = scale edge (refLin x W) := by
  funext i
  obtain ⟨r, f, rfl⟩ : ∃ (r : Fin 50000) (f : Fin 128), i = ix2 r f := ⟨i 0, i 1, eq_ix2 i⟩
  show (∑ k : Fin 128, x (ix2 r k) * W (ix2 k f)) * dcol (ix2 r (0 : Fin 1)) = refLin x W (ix2 r f) * refDis edge (ix1 r)
  rw [refLin_apply, hdcol]

/-- (L2) A middle region's array is the scaled linear map of the rectified reference layer. -/
theorem layer_next (edge : IVec S2x800000 32) (srcCol dstCol : IVec S800000x1 32)
    (hsrc : ∀ e : Fin 800000, srcCol (ix2 e (0 : Fin 1)) = IdxVal.norm (edge (ix2 (0 : Fin 2) e)))
    (hdst : ∀ e : Fin 800000, dstCol (ix2 e (0 : Fin 1)) = edge (ix2 (1 : Fin 2) e))
    (dcol : FVec Ideal S50000x1 .f32) (hdcol : ∀ r : Fin 50000, dcol (ix2 r (0 : Fin 1)) = refDis edge (ix1 r))
    (brow : FVec Ideal S1x128 .f32) (b : FVec Ideal S128 .f32) (hbrow : ∀ k : Fin 128, brow (ix2 (0 : Fin 1) k) = b (ix1 k))
    (h : FVec Ideal S50000x128 .f32) (W : FVec Ideal S128x128 .f32)
    (hh : ∀ i, IsReal (h i)) (hW : ∀ i, IsReal (W i)) (Wn : FVec Ideal S128x128 .f32) :
    G13 (kAggTerm srcCol dstCol (scale edge (refLin h W))) (scale edge (refLin h W)) dcol brow Wn
      = scale edge (refLin (refRelu (refLayer edge h W b)) Wn) := by
  funext i
  obtain ⟨r, f, rfl⟩ : ∃ (r : Fin 50000) (f : Fin 128), i = ix2 r f := ⟨i 0, i 1, eq_ix2 i⟩
  show (∑ k : Fin 128,
        max (dcol (ix2 r (0 : Fin 1))
            * (kAggTerm srcCol dstCol (scale edge (refLin h W)) (ix2 r k) + scale edge (refLin h W) (ix2 r k))
          + brow (ix2 (0 : Fin 1) k)) (0 : EReal) * Wn (ix2 k f)) * dcol (ix2 r (0 : Fin 1))
      = refLin (refRelu (refLayer edge h W b)) Wn (ix2 r f) * refDis edge (ix1 r)
  rw [refLin_apply, hdcol r]
  refine congrArg (fun t : EReal => t * refDis edge (ix1 r)) (Finset.sum_congr rfl fun k _ => ?_)
  rw [refRelu_apply, ← layer_core edge srcCol dstCol hsrc hdst dcol hdcol brow b hbrow h W hh hW r k, hdcol r]

/-- (L3) The last region's combined feature is the reference layer. -/
theorem layer_last (edge : IVec S2x800000 32) (srcCol dstCol : IVec S800000x1 32)
    (hsrc : ∀ e : Fin 800000, srcCol (ix2 e (0 : Fin 1)) = IdxVal.norm (edge (ix2 (0 : Fin 2) e)))
    (hdst : ∀ e : Fin 800000, dstCol (ix2 e (0 : Fin 1)) = edge (ix2 (1 : Fin 2) e))
    (dcol : FVec Ideal S50000x1 .f32) (hdcol : ∀ r : Fin 50000, dcol (ix2 r (0 : Fin 1)) = refDis edge (ix1 r))
    (brow : FVec Ideal S1x128 .f32) (b : FVec Ideal S128 .f32) (hbrow : ∀ k : Fin 128, brow (ix2 (0 : Fin 1) k) = b (ix1 k))
    (h : FVec Ideal S50000x128 .f32) (W : FVec Ideal S128x128 .f32)
    (hh : ∀ i, IsReal (h i)) (hW : ∀ i, IsReal (W i)) :
    h4 (kAggTerm srcCol dstCol (scale edge (refLin h W))) (scale edge (refLin h W)) dcol brow = refLayer edge h W b := by
  funext i
  obtain ⟨r, f, rfl⟩ : ∃ (r : Fin 50000) (f : Fin 128), i = ix2 r f := ⟨i 0, i 1, eq_ix2 i⟩
  exact layer_core edge srcCol dstCol hsrc hdst dcol hdcol brow b hbrow h W hh hW r f

/-! ## (L4) the four layers composed -/

theorem layers4 (edge : IVec S2x800000 32) (srcCol dstCol : IVec S800000x1 32)
    (hsrc : ∀ e : Fin 800000, srcCol (ix2 e (0 : Fin 1)) = IdxVal.norm (edge (ix2 (0 : Fin 2) e)))
    (hdst : ∀ e : Fin 800000, dstCol (ix2 e (0 : Fin 1)) = edge (ix2 (1 : Fin 2) e))
    (dcol : FVec Ideal S50000x1 .f32) (hdcol : ∀ r : Fin 50000, dcol (ix2 r (0 : Fin 1)) = refDis edge (ix1 r))
    (x : FVec Ideal S50000x128 .f32) (W1 W2 W3 W4 : FVec Ideal S128x128 .f32) (b1 b2 b3 b4 : FVec Ideal S128 .f32)
    (r1 r2 r3 r4 : FVec Ideal S1x128 .f32)
    (h1 : ∀ k : Fin 128, r1 (ix2 (0 : Fin 1) k) = b1 (ix1 k)) (h2 : ∀ k : Fin 128, r2 (ix2 (0 : Fin 1) k) = b2 (ix1 k))
    (h3 : ∀ k : Fin 128, r3 (ix2 (0 : Fin 1) k) = b3 (ix1 k)) (h4' : ∀ k : Fin 128, r4 (ix2 (0 : Fin 1) k) = b4 (ix1 k))
    (hx : ∀ i, IsReal (x i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i))
    (hW4 : ∀ i, IsReal (W4 i)) (hb4 : ∀ i, IsReal (b4 i)) :
    let y1 := G0 x W1 dcol
    let y2 := G13 (kAggTerm srcCol dstCol y1) y1 dcol r1 W2
    let y3 := G13 (kAggTerm srcCol dstCol y2) y2 dcol r2 W3
    let y4 := G13 (kAggTerm srcCol dstCol y3) y3 dcol r3 W4
    h4 (kAggTerm srcCol dstCol y4) y4 dcol r4 = refH4 x W1 b1 W2 b2 W3 b3 W4 b4 edge := by
  intro y1 y2 y3 y4
  -- the reference's hidden features after each rectifier are finite
  have R1 := refRelu_isReal _ (refLayer_isReal edge x W1 b1 hx hW1 hb1)
  have R2 := refRelu_isReal _ (refLayer_isReal edge _ W2 b2 R1 hW2 hb2)
  have R3 := refRelu_isReal _ (refLayer_isReal edge _ W3 b3 R2 hW3 hb3)
  -- each carried array is the scaled linear map of the reference's hidden features
  have e1 : y1 = scale edge (refLin x W1) := layer_first edge dcol hdcol x W1
  have e2 : y2 = scale edge (refLin (refRelu (refLayer edge x W1 b1)) W2) := by
    show G13 (kAggTerm srcCol dstCol y1) y1 dcol r1 W2 = _
    rw [e1]
    exact layer_next edge srcCol dstCol hsrc hdst dcol hdcol r1 b1 h1 x W1 hx hW1 W2
  have e3 : y3 = scale edge (refLin (refRelu (refLayer edge (refRelu (refLayer edge x W1 b1)) W2 b2)) W3) := by
    show G13 (kAggTerm srcCol dstCol y2) y2 dcol r2 W3 = _
    rw [e2]
    exact layer_next edge srcCol dstCol hsrc hdst dcol hdcol r2 b2 h2 _ W2 R1 hW2 W3
  have e4 : y4 = scale edge (refLin (refRelu (refLayer edge (refRelu (refLayer edge (refRelu (refLayer edge x W1 b1)) W2 b2))
      W3 b3)) W4) := by
    show G13 (kAggTerm srcCol dstCol y3) y3 dcol r3 W4 = _
    rw [e3]
    exact layer_next edge srcCol dstCol hsrc hdst dcol hdcol r3 b3 h3 _ W3 R2 hW3 W4
  show h4 (kAggTerm srcCol dstCol y4) y4 dcol r4 = _
  rw [e4]
  exact layer_last edge srcCol dstCol hsrc hdst dcol hdcol r4 b4 h4' _ W4 R3 hW4

end Cert.Bridge

end
-- ==== Proof.Val.BridgePool.lean ====
/- The mean pool and the head: the kernel's one-hot arrangement equals the reference's segment sums.

   The kernel weights every node row r by (the row's graph word is the word of g), sums the weighted combined features
   over all rows, counts the rows the same way, divides the sum by the count (at least one), and contracts the 128 means
   with the first 128 rows of the head weights and the 16 conditioning values with the last 16. The reference adds, into
   a zero array, every node row at the graph row its word names (a word naming no graph is dropped), counts likewise
   with ones, divides, joins the means with the conditioning values and contracts the 144 joined columns with the head
   weights.

   * a weight 1 keeps its term and a weight 0 annihilates it (0 * x = 0 for every extended real), so the weighted sum
     over all rows is the sum over the rows whose word is the word of g;
   * a word is the word of a graph number exactly when its signed reading is that number, which is when the reference's
     scatter sends the row to that graph; of the updates (r, k') only k' = k lands in column k, so the reference's sum
     over updates is a sum over rows; 0 + x = x;
   * a sum over 144 columns is the sum over the first 128 plus the sum over the last 16, and the joined array reads the
     means on the first and the conditioning values on the last.

   Nothing is distributed and nothing is cancelled: the identities hold for all extended reals, infinite ones included. -/
import proofs.«427340_j652835029230_2_alg».proof.Proof.Val.Ref
import proofs.«427340_j652835029230_2_alg».proof.Proof.Val.Idx
import proofs.«427340_j652835029230_2_alg».proof.Proof.Val.Reg4
import proofs.«427340_j652835029230_2_alg».proof.Proof.Val.DisReal
import proofs.«427340_j652835029230_2_alg».proof.Proof.Math.Laws
import Idealize.ShloMosaic.Lib.ValueIdx
import Idealize.ShloMosaic.Lib.ValueIdxRank1
import Idealize.ShloMosaic.Lib.IdealHost
import Mathlib.Algebra.BigOperators.Fin

noncomputable section

open scoped BigOperators

namespace Cert.Bridge

open Idealize.ShloMosaic Idealize.ShloMosaic.ValueIdx
open Cert.KernelIdeal.Val (oh h4 G4)
open Cert.RefVal (refSums refCounts refBatchCol refPooled refZ refHead)

/-- The one-hot weighted sum of column k over all node rows is the reference's segment sum at (g, k). -/
theorem sums_eq (h : FVec Ideal Cert.ReferenceIdeal.S50000x128 .f32) (batch : IVec Cert.ReferenceIdeal.S50000 32)
    (batchCol : IVec Cert.KernelIdeal.S50000x1 32) (hb : ∀ r : Fin 50000, batchCol (ix2 r 0) = batch (ix1 r))
    (g : Fin 64) (k : Fin 128) :
    ∑ r : Fin 50000, oh (batchCol (ix2 r 0)) g * h (ix2 r k) = refSums h batch (ix2 g k) := by
  -- the reference's segment sum: the zero array plus the updates the scatter sends to (g, k)
  have hR : refSums h batch (ix2 g k)
      = 0 + ∑ j ∈ Finset.univ.filter (fun j : Cert.ReferenceIdeal.S50000x128.Idx =>
          Cert.ReferenceIdeal.scatter_S64x128_S50000x1_S50000x128_1_0_0_1.resultIdx? j (refBatchCol batch)
            = some (ix2 g k)), h j := by
    show Ideal.ofBits .f32 0x00000000#32 + _ = _
    rw [Cert.FinVal.ofBits_zero]
  rw [hR, zero_add, Finset.sum_filter, sum_idx2]
  refine Finset.sum_congr rfl fun r _ => ?_
  -- update (r, k') lands at (g, k) exactly when k' = k and the row's word is the word of g
  have hP : ∀ k' : Fin 128,
      Cert.ReferenceIdeal.scatter_S64x128_S50000x1_S50000x128_1_0_0_1.resultIdx? (ix2 r k') (refBatchCol batch)
          = some (ix2 g k)
        ↔ k' = k ∧ batchCol (ix2 r 0) = BitVec.ofNat 32 g.val := by
    intro k'
    rw [Cert.IdxVal.R.scatterB2, hb, Cert.IdxVal.eq_ofNat_iff_toInt64]
    unfold Cert.RefVal.refBatchCol
    rw [Cert.IdxVal.R.bcast_nodes]
  -- of the row's 128 updates only the one in column k can land in column k
  rw [Finset.sum_eq_single k]
  · by_cases hq : batchCol (ix2 r 0) = BitVec.ofNat 32 g.val
    · rw [if_pos ((hP k).mpr ⟨rfl, hq⟩)]
      unfold Cert.KernelIdeal.Val.oh
      rw [if_pos hq, one_mul]
    · rw [if_neg (fun hc => hq ((hP k).mp hc).2)]
      unfold Cert.KernelIdeal.Val.oh
      rw [if_neg hq, zero_mul]
  · intro k' _ hk'
    exact if_neg (fun hc => hk' ((hP k').mp hc).1)
  · intro hk
    exact absurd (Finset.mem_univ k) hk

/-- The one-hot weighted count over all node rows is the reference's segment count at g. -/
theorem counts_eq (batch : IVec Cert.ReferenceIdeal.S50000 32)
    (batchCol : IVec Cert.KernelIdeal.S50000x1 32) (hb : ∀ r : Fin 50000, batchCol (ix2 r 0) = batch (ix1 r))
    (g : Fin 64) :
    ∑ r : Fin 50000, oh (batchCol (ix2 r 0)) g * 1 = refCounts batch (ix1 g) := by
  -- the reference's segment count: the zero array plus one for every row the scatter sends to g
  have hR : refCounts batch (ix1 g)
      = 0 + ∑ j ∈ Finset.univ.filter (fun j : Cert.ReferenceIdeal.S50000.Idx =>
          Cert.ReferenceIdeal.scatter_S64_S50000x1_S50000_n_0_0_1.resultIdx? j (refBatchCol batch)
            = some (ix1 g)), (1 : EReal) := by
    show Ideal.ofBits .f32 0x00000000#32
        + ∑ j ∈ Finset.univ.filter (fun j : Cert.ReferenceIdeal.S50000.Idx =>
          Cert.ReferenceIdeal.scatter_S64_S50000x1_S50000_n_0_0_1.resultIdx? j (refBatchCol batch)
            = some (ix1 g)), Ideal.ofBits .f32 0x3F800000#32 = _
    rw [Cert.FinVal.ofBits_zero, Cert.FinVal.ofBits_one]
  rw [hR, zero_add, Finset.sum_filter]
  -- a rank-1 index is its coordinate
  refine Fintype.sum_equiv (idxEquiv1 (n := 50000)).symm _ _ fun r => ?_
  show oh (batchCol (ix2 r 0)) g * 1
      = if Cert.ReferenceIdeal.scatter_S64_S50000x1_S50000_n_0_0_1.resultIdx? (ix1 r) (refBatchCol batch)
          = some (ix1 g) then (1 : EReal) else 0
  have hP : Cert.ReferenceIdeal.scatter_S64_S50000x1_S50000_n_0_0_1.resultIdx? (ix1 r) (refBatchCol batch)
        = some (ix1 g)
      ↔ batchCol (ix2 r 0) = BitVec.ofNat 32 g.val := by
    rw [Cert.IdxVal.R.scatterB1, hb, Cert.IdxVal.eq_ofNat_iff_toInt64]
    unfold Cert.RefVal.refBatchCol
    rw [Cert.IdxVal.R.bcast_nodes]
  rw [mul_one]
  unfold Cert.KernelIdeal.Val.oh
  by_cases hq : batchCol (ix2 r 0) = BitVec.ofNat 32 g.val
  · rw [if_pos hq, if_pos (hP.mpr hq)]
  · rw [if_neg hq, if_neg (fun hc => hq (hP.mp hc))]

/-- The kernel's pooled head is the reference's head on the joined means and conditioning values. -/
theorem pool_bridge (agg ys : Vec Ideal Cert.KernelIdeal.S50000x128 .f32) (d : Vec Ideal Cert.KernelIdeal.S50000x1 .f32)
    (b : Vec Ideal Cert.KernelIdeal.S1x128 .f32) (h : FVec Ideal Cert.ReferenceIdeal.S50000x128 .f32)
    (hh : h4 agg ys d b = h)
    (batch : IVec Cert.ReferenceIdeal.S50000 32) (batchCol : IVec Cert.KernelIdeal.S50000x1 32)
    (hb : ∀ r : Fin 50000, batchCol (ix2 r 0) = batch (ix1 r))
    (cond : FVec Ideal Cert.ReferenceIdeal.S64x16 .f32) (linW : FVec Ideal Cert.ReferenceIdeal.S144x2 .f32)
    (linb : FVec Ideal Cert.ReferenceIdeal.S2 .f32) (lb : Vec Ideal Cert.KernelIdeal.S1x2 .f32)
    (hl : ∀ k : Fin 2, lb (ix2 0 k) = linb (ix1 k)) :
    G4 agg ys d b batchCol cond linW lb = refHead (refZ (refPooled h batch) cond) linW linb := by
  funext i
  obtain ⟨g, c', rfl⟩ : ∃ (g : Fin 64) (c' : Fin 2), i = ix2 g c' := ⟨i 0, i 1, eq_ix2 i⟩
  -- the reference's head: the 144 joined columns split into the 128 means and the 16 conditioning values
  rw [Cert.RefVal.refHead_apply, Cert.Math.sum_split_144]
  show ((∑ k : Fin 128, Ideal.div (∑ r : Fin 50000, oh (batchCol (ix2 r 0)) g * h4 agg ys d b (ix2 r k))
            (max (∑ r : Fin 50000, oh (batchCol (ix2 r 0)) g * 1) 1) * linW (ix2 ⟨k.val, by omega⟩ c'))
        + (∑ k : Fin 16, cond (ix2 g k) * linW (ix2 ⟨128 + k.val, by omega⟩ c'))) + lb (ix2 0 c') = _
  rw [hl, hh]
  refine congrArg₂ (· + ·) (congrArg₂ (· + ·) (Finset.sum_congr rfl fun k _ => ?_)
    (Finset.sum_congr rfl fun k _ => ?_)) rfl
  · -- a mean column: the joined array reads the mean, whose sum and count are the kernel's
    rw [Cert.RefVal.refZ_left _ _ g ⟨k.val, by omega⟩ k.isLt, Cert.RefVal.refPooled_apply,
      sums_eq h batch batchCol hb g k, counts_eq batch batchCol hb g, Cert.FinVal.ofBits_one]
  · -- a conditioning column: the joined array reads the conditioning value
    rw [Cert.RefVal.refZ_right _ _ g ⟨128 + k.val, by omega⟩ (Nat.le_add_right 128 k.val)]
    refine congrArg (· * _) (congrArg cond (congrArg (ix2 g) (Fin.ext ?_)))
    show k.val = 128 + k.val - 128
    omega

end Cert.Bridge

end
-- ==== Proof.Val.Bridge.lean ====
/- The kernel program's result is the reference's, at real arguments. The kernel's result is the pooled head of the
   fourth layer's combine over the kernel's own index columns, normaliser column and reshaped biases; the four
   layers composed give the reference's node features, and the pooled head of those is the reference's head. -/
import proofs.«427340_j652835029230_2_alg».proof.Proof.Val.Ref
import proofs.«427340_j652835029230_2_alg».proof.Proof.Val.Kernel
import proofs.«427340_j652835029230_2_alg».proof.Proof.Val.KernelApply
import proofs.«427340_j652835029230_2_alg».proof.Proof.Val.BridgeLayer
import proofs.«427340_j652835029230_2_alg».proof.Proof.Val.BridgePool
import proofs.«427340_j652835029230_2_alg».proof.Proof.Math.Laws
import Idealize.ShloMosaic.Lib.ValueIdx

noncomputable section

namespace Cert.Bridge

open Idealize.ShloMosaic Idealize.ShloMosaic.ValueIdx
open Cert.Math (IsReal)
open Cert.KernelIdeal.Val
open Cert.RefVal (refOut)

/-- At real arguments the kernel program's result is the reference's. The kernel's result is the pooled head over its
    fourth layer's combine; its source, destination and normaliser columns and its bias rows read the words and
    entries the reference reads, so the four layers composed leave the reference's node features, and the pooled head
    of those, over the kernel's graph column and head-bias row, is the reference's head. -/
theorem out_eq (x : FVec Ideal Cert.ReferenceIdeal.S50000x128 .f32) (cond : FVec Ideal Cert.ReferenceIdeal.S64x16 .f32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x128 .f32) (b3 : FVec Ideal Cert.ReferenceIdeal.S128 .f32)
    (W4 : FVec Ideal Cert.ReferenceIdeal.S128x128 .f32) (b4 : FVec Ideal Cert.ReferenceIdeal.S128 .f32)
    (linW : FVec Ideal Cert.ReferenceIdeal.S144x2 .f32) (linb : FVec Ideal Cert.ReferenceIdeal.S2 .f32)
    (edge : IVec Cert.ReferenceIdeal.S2x800000 32) (batch : IVec Cert.ReferenceIdeal.S50000 32)
    (hx : ∀ i, IsReal (x i)) (hcond : ∀ i, IsReal (cond i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i))
    (hW4 : ∀ i, IsReal (W4 i)) (hb4 : ∀ i, IsReal (b4 i)) (hlinW : ∀ i, IsReal (linW i)) (hlinb : ∀ i, IsReal (linb i)) :
    kOut x cond W1 b1 W2 b2 W3 b3 W4 b4 linW linb edge batch
      = refOut x cond W1 b1 W2 b2 W3 b3 W4 b4 linW linb edge batch := by
  unfold kOut refOut
  refine pool_bridge _ _ _ _ _ ?_ batch _ (kBatchCol_apply batch) cond linW linb _ (kLinb_apply linb)
  exact layers4 edge (kCol (kWrap (kSrc edge))) (kCol (kDst edge)) (kSrcCol_apply edge) (kDstCol_apply edge)
    (kDisCol edge) (fun r => (kDisCol_apply edge r).trans (congrFun (kDis_eq edge) (ix1 r)))
    x W1 W2 W3 W4 b1 b2 b3 b4 (kB b1) (kB b2) (kB b3) (kB b4)
    (kB_apply b1) (kB_apply b2) (kB_apply b3) (kB_apply b4) hx hW1 hb1 hW2 hb2 hW3 hb3 hW4 hb4

end Cert.Bridge

end
-- ==== Proof.lean ====
/- The certificate of a four-layer graph convolution network with mean pooling and a linear head, computed by five
   tiled kernel regions between stretches of host operations, against the plain array program.
   The three frames: each kernel program is run region by region — every region's body is executed symbolically at a
   generic tile, the pipeline's write-backs fold the tiles into the arrays, the host stretches are folded in between —
   and every argument array walks back through that fold to its launch contents; the reference is a straight line of
   host operations. The idealization rewrote nothing, so nothing is to be preserved. The value claim: at the exact
   instance both programs end with the same 64 x 2 array. The kernel carries each layer's features already scaled by
   the degree normaliser and multiplies the normaliser in once after the neighbour sum, where the reference weights
   every edge by the product of its endpoints' normalisers; the two agree by distributivity of a real factor over a
   finite sum of reals, which is where the finiteness of the inputs is used (the degree is one plus a count, its
   inverse square root a real). The pooling by a one-hot product accumulated over the row tiles is the segment sum, and
   the head's contraction over 144 columns splits into the pooled 128 and the 16 conditioning columns. -/
import proofs.«427340_j652835029230_2_alg».proof.Defs
import proofs.«427340_j652835029230_2_alg».proof.Proof.Gen.Kernel
import proofs.«427340_j652835029230_2_alg».proof.Proof.Gen.KernelIdeal
import proofs.«427340_j652835029230_2_alg».proof.Proof.Gen.ReferenceIdeal
import proofs.«427340_j652835029230_2_alg».proof.Proof.Gen.Pre_finite_inputs
import proofs.«427340_j652835029230_2_alg».proof.Proof.K.Run
import proofs.«427340_j652835029230_2_alg».proof.Proof.KI.Run
import proofs.«427340_j652835029230_2_alg».proof.Proof.RefRead
import proofs.«427340_j652835029230_2_alg».proof.Proof.Val.Ref
import proofs.«427340_j652835029230_2_alg».proof.Proof.Val.Finite
import proofs.«427340_j652835029230_2_alg».proof.Proof.Val.Kernel
import proofs.«427340_j652835029230_2_alg».proof.Proof.Val.Bridge
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frameH m ρ

/-- So does its idealization. -/
theorem frame_ki : Cert.frame_KernelIdeal := fun m ρ _ => Cert.KernelIdeal.Hand.frameH m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact instance, from memories that agree on the fourteen arguments, both programs run to the end, leave the
    arguments as launched, and leave equal results. The kernel program's result buffer ends at the last boundary's
    contents, which are the kernel's closed form of the launch's arguments; the reference's ends at its own closed
    form of its arguments, which are the kernel's; and at real arguments — which the precondition gives — the two closed
    forms are one array. -/
theorem algebraic : Cert.algebraic_KernelIdeal_ReferenceIdeal := by
  intro m ρ m' ρ' hpre hagree
  refine ⟨fun c => Cert.KernelIdeal.Hand.W10 (F := Ideal) m c (Proc.devRef .tc Cert.KernelIdeal.main_v63), ?_, ?_⟩
  · exact (θ_run Cert.KernelIdeal.defs _ _).mono (fun r h c =>
      ⟨h c _ (Cert.KernelIdeal.Hand.mem_ucH Cert.KernelIdeal.main_v63 (by decide)),
       (h c _ (Cert.KernelIdeal.Hand.mem_ucH Cert.KernelIdeal.main_arg0 (by decide))).trans (Cert.KernelIdeal.Hand.W10_main_arg0 m c),
       (h c _ (Cert.KernelIdeal.Hand.mem_ucH Cert.KernelIdeal.main_arg1 (by decide))).trans (Cert.KernelIdeal.Hand.W10_main_arg1 m c),
       (h c _ (Cert.KernelIdeal.Hand.mem_ucH Cert.KernelIdeal.main_arg2 (by decide))).trans (Cert.KernelIdeal.Hand.W10_main_arg2 m c),
       (h c _ (Cert.KernelIdeal.Hand.mem_ucH Cert.KernelIdeal.main_arg3 (by decide))).trans (Cert.KernelIdeal.Hand.W10_main_arg3 m c),
       (h c _ (Cert.KernelIdeal.Hand.mem_ucH Cert.KernelIdeal.main_arg4 (by decide))).trans (Cert.KernelIdeal.Hand.W10_main_arg4 m c),
       (h c _ (Cert.KernelIdeal.Hand.mem_ucH Cert.KernelIdeal.main_arg5 (by decide))).trans (Cert.KernelIdeal.Hand.W10_main_arg5 m c),
       (h c _ (Cert.KernelIdeal.Hand.mem_ucH Cert.KernelIdeal.main_arg6 (by decide))).trans (Cert.KernelIdeal.Hand.W10_main_arg6 m c),
       (h c _ (Cert.KernelIdeal.Hand.mem_ucH Cert.KernelIdeal.main_arg7 (by decide))).trans (Cert.KernelIdeal.Hand.W10_main_arg7 m c),
       (h c _ (Cert.KernelIdeal.Hand.mem_ucH Cert.KernelIdeal.main_arg8 (by decide))).trans (Cert.KernelIdeal.Hand.W10_main_arg8 m c),
       (h c _ (Cert.KernelIdeal.Hand.mem_ucH Cert.KernelIdeal.main_arg9 (by decide))).trans (Cert.KernelIdeal.Hand.W10_main_arg9 m c),
       (h c _ (Cert.KernelIdeal.Hand.mem_ucH Cert.KernelIdeal.main_arg10 (by decide))).trans (Cert.KernelIdeal.Hand.W10_main_arg10 m c),
       (h c _ (Cert.KernelIdeal.Hand.mem_ucH Cert.KernelIdeal.main_arg11 (by decide))).trans (Cert.KernelIdeal.Hand.W10_main_arg11 m c),
       (h c _ (Cert.KernelIdeal.Hand.mem_ucH Cert.KernelIdeal.main_arg12 (by decide))).trans (Cert.KernelIdeal.Hand.W10_main_arg12 m c),
       (h c _ (Cert.KernelIdeal.Hand.mem_ucH Cert.KernelIdeal.main_arg13 (by decide))).trans (Cert.KernelIdeal.Hand.W10_main_arg13 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13⟩ := hagree c
    obtain ⟨r0, r1, r2, r3, r4, r5, r6, r7, r8, r9, r10, r11⟩ := Cert.FinVal.reals_of_pre m hpre c
    rw [Cert.RefVal.ref_out, a0, a1, a2, a3, a4, a5, a6, a7, a8, a9, a10, a11, a12, a13]
    exact (Cert.Bridge.out_eq _ _ _ _ _ _ _ _ _ _ _ _ _ _ r0 r1 r2 r3 r4 r5 r6 r7 r8 r9 r10 r11).symm.trans
      (Cert.KernelIdeal.Val.kernel_out m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
